-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x10x512 : Shape := ⟨3, ![4096, 10, 512]⟩
abbrev S4096x10 : Shape := ⟨2, ![4096, 10]⟩
abbrev S2048x512 : Shape := ⟨2, ![2048, 512]⟩
abbrev S512 : Shape := ⟨1, ![512]⟩
abbrev S5120x10 : Shape := ⟨2, ![5120, 10]⟩
abbrev S10 : Shape := ⟨1, ![10]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x10x512 : S_.BroadcastsInDim S4096x10x512 (![] : Fin 0 → Fin S4096x10x512.rank)
  reducesTo_S4096x10x512_S_d0_1_2 : S4096x10x512.ReducesTo [0, 1, 2] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S5120x10 : S_.BroadcastsInDim S5120x10 (![] : Fin 0 → Fin S5120x10.rank)
  reducesTo_S5120x10_S_d0_1 : S5120x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg5 : FVec F S2048x512 .f32) (main_arg6 : FVec F S512 .f32) (main_arg7 : FVec F S5120x10 .f32) (main_arg8 : FVec F S10 .f32) (main_v13 : IVec S_ 1) (main_v16 : IVec S4096x10x512 1) : IVec S_ 1 :=
  let main_c_5 : IVec S_ 1 := constantI S_ 1 1#1
  let main_v17 : IVec S_ 1 := (fun x v => Host.reduce IntOp.andi x v reducesTo_S4096x10x512_S_d0_1_2 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S5120x10 .f32 := Host.absf main_arg7
  let main_cst_10 : FVec F S_ .f32 := constant S_ .f32 0x7F800000#32
  let main_v30 : FVec F S5120x10 .f32 := broadcastInDim S5120x10 ![] bcast_S_S5120x10 main_cst_10
  let main_v31 : IVec S5120x10 1 := cmpf .olt main_v29 main_v30
  let main_c_11 : IVec S_ 1 := constantI S_ 1 1#1
  let main_v32 : IVec S_ 1 := (fun x v => Host.reduce IntOp.andi x v reducesTo_S5120x10_S_d0_1 h_S_) main_v31 main_c_11
  let main_v33 : IVec S_ 1 := andi main_v28 main_v32
  fn_part2 (F := F) main_arg8 main_v33

def fn {F : FTy → Type} [FloatOps F] (main_arg0 : FVec F S4096x512 .f32) (main_arg1 : FVec F S4096x10x512 .f32) (main_arg2 : FVec F S4096x10x512 .f32) (main_arg3 : FVec F S4096x10x512 .f32) (main_arg4 : IVec S4096x10 32) (main_arg5 : FVec F S2048x512 .f32) (main_arg6 : FVec F S512 .f32) (main_arg7 : FVec F S5120x10 .f32) (main_arg8 : FVec F S10 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x10x512 .f32 := Host.absf main_arg1
  let main_cst_0 : FVec F S_ .f32 := constant S_ .f32 0x7F800000#32
  let main_v5 : FVec F S4096x10x512 .f32 := broadcastInDim S4096x10x512 ![] bcast_S_S4096x10x512 main_cst_0
  let main_v6 : IVec S4096x10x512 1 := cmpf .olt main_v4 main_v5
  let main_c_1 : IVec S_ 1 := constantI S_ 1 1#1
  let main_v7 : IVec S_ 1 := (fun x v => Host.reduce IntOp.andi x v reducesTo_S4096x10x512_S_d0_1_2 h_S_) main_v6 main_c_1
  let main_v8 : IVec S_ 1 := andi main_v3 main_v7
  let main_v9 : FVec F S4096x10x512 .f32 := Host.absf main_arg2
  let main_cst_2 : FVec F S_ .f32 := constant S_ .f32 0x7F800000#32
  let main_v10 : FVec F S4096x10x512 .f32 := broadcastInDim S4096x10x512 ![] bcast_S_S4096x10x512 main_cst_2
  let main_v11 : IVec S4096x10x512 1 := cmpf .olt main_v9 main_v10
  let main_c_3 : IVec S_ 1 := constantI S_ 1 1#1
  let main_v12 : IVec S_ 1 := (fun x v => Host.reduce IntOp.andi x v reducesTo_S4096x10x512_S_d0_1_2 h_S_) main_v11 main_c_3
  let main_v13 : IVec S_ 1 := andi main_v8 main_v12
  let main_v14 : FVec F S4096x10x512 .f32 := Host.absf main_arg3
  let main_cst_4 : FVec F S_ .f32 := constant S_ .f32 0x7F800000#32
  let main_v15 : FVec F S4096x10x512 .f32 := broadcastInDim S4096x10x512 ![] bcast_S_S4096x10x512 main_cst_4
  let main_v16 : IVec S4096x10x512 1 := cmpf .olt main_v14 main_v15
  fn_part1 (F := F) main_arg5 main_arg6 main_arg7 main_arg8 main_v13 main_v16
-- ==== Kernel.lean ====
abbrev S4096x512 : Shape := ⟨2, ![4096, 512]⟩
abbrev S4096x10x512 : Shape := ⟨3, ![4096, 10, 512]⟩
abbrev S4096x10 : Shape := ⟨2, ![4096, 10]⟩
abbrev S2048x512 : Shape := ⟨2, ![2048, 512]⟩
abbrev S512 : Shape := ⟨1, ![512]⟩
abbrev S5120x10 : Shape := ⟨2, ![5120, 10]⟩
abbrev S10 : Shape := ⟨1, ![10]⟩
abbrev S_ : Shape := ⟨0, ![]⟩
abbrev S4096 : Shape := ⟨1, ![4096]⟩
abbrev S4096x1 : Shape := ⟨2, ![4096, 1]⟩
abbrev S1x10 : Shape := ⟨2, ![1, 10]⟩
abbrev S4096x5120 : Shape := ⟨2, ![4096, 5120]⟩
abbrev S5120x128 : Shape := ⟨2, ![5120, 128]⟩
abbrev S128 : Shape := ⟨1, ![128]⟩
abbrev S4096x128 : Shape := ⟨2, ![4096, 128]⟩
abbrev S128x512 : Shape := ⟨2, ![128, 512]⟩
abbrev S128x5120 : Shape := ⟨2, ![128, 5120]⟩
abbrev S128x10 : Shape := ⟨2, ![128, 10]⟩
abbrev S128x128 : Shape := ⟨2, ![128, 128]⟩
abbrev S512x512 : Shape := ⟨2, ![512, 512]⟩
abbrev S1x512 : Shape := ⟨2, ![1, 512]⟩
abbrev S512x128 : Shape := ⟨2, ![512, 128]⟩
abbrev S128x1 : Shape := ⟨2, ![128, 1]⟩
abbrev S1x128 : Shape := ⟨2, ![1, 128]⟩

abbrev nBuf : Space → Nat
  | .hbm => 36
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x10x512, .f32⟩
  | .hbm, ⟨2, _⟩ => ⟨S4096x10x512, .f32⟩
  | .hbm, ⟨3, _⟩ => ⟨S4096x10x512, .f32⟩
  | .hbm, ⟨4, _⟩ => ⟨S4096x10, .i32⟩
  | .hbm, ⟨5, _⟩ => ⟨S2048x512, .f32⟩
  | .hbm, ⟨6, _⟩ => ⟨S512, .f32⟩
  | .hbm, ⟨7, _⟩ => ⟨S5120x10, .f32⟩
  | .hbm, ⟨8, _⟩ => ⟨S10, .f32⟩
  | .hbm, ⟨9, _⟩ => ⟨S4096x10, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S1x10, .i32⟩
  | .hbm, ⟨16, _⟩ => ⟨S4096x10, .i32⟩
  | .hbm, ⟨17, _⟩ => ⟨S4096x10, .i32⟩
  | .hbm, ⟨18, _⟩ => ⟨S4096x10, .i1⟩
  | .hbm, ⟨19, _⟩ => ⟨S4096x10, .f32⟩
  | .hbm, ⟨20, _⟩ => ⟨S4096x5120, .f32⟩
  | .hbm, ⟨21, _⟩ => ⟨S4096x5120, .f32⟩
  | .hbm, ⟨22, _⟩ => ⟨S4096x5120, .f32⟩
  | .hbm, ⟨23, _⟩ => ⟨S2048x512, .bf16⟩
  | .hbm, ⟨24, _⟩ => ⟨S_, .i32⟩
  | .hbm, ⟨25, _⟩ => ⟨S_, .f32⟩
  | .hbm, ⟨26, _⟩ => ⟨S5120x128, .f32⟩
  | .hbm, ⟨27, _⟩ => ⟨S_, .i32⟩
  | .hbm, ⟨28, _⟩ => ⟨S_, .f32⟩
  | .hbm, ⟨29, _⟩ => ⟨S128, .f32⟩
  | .hbm, ⟨30, _⟩ => ⟨S5120x128, .bf16⟩
  | .hbm, ⟨31, _⟩ => ⟨S4096x128, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x10, .f32⟩
  | .local _ .vmem, ⟨0, _⟩ => ⟨S128x512, .f32⟩
  | .local _ .vmem, ⟨1, _⟩ => ⟨S128x512, .f32⟩
  | .local _ .vmem, ⟨2, _⟩ => ⟨S128x5120, .f32⟩
  | .local _ .vmem, ⟨3, _⟩ => ⟨S128x5120, .f32⟩
  | .local _ .vmem, ⟨4, _⟩ => ⟨S128x5120, .f32⟩
  | .local _ .vmem, ⟨5, _⟩ => ⟨S128x5120, .f32⟩
  | .local _ .vmem, ⟨6, _⟩ => ⟨S128x5120, .f32⟩
  | .local _ .vmem, ⟨7, _⟩ => ⟨S128x5120, .f32⟩
  | .local _ .vmem, ⟨8, _⟩ => ⟨S128x10, .f32⟩
  | .local _ .vmem, ⟨9, _⟩ => ⟨S128x10, .f32⟩
  | .local _ .vmem, ⟨10, _⟩ => ⟨S2048x512, .bf16⟩
  | .local _ .vmem, ⟨11, _⟩ => ⟨S512, .f32⟩
  | .local _ .vmem, ⟨12, _⟩ => ⟨S5120x128, .bf16⟩
  | .local _ .vmem, ⟨13, _⟩ => ⟨S128, .f32⟩
  | .local _ .vmem, ⟨14, _⟩ => ⟨S128x128, .f32⟩
  | .local _ .vmem, ⟨15, _⟩ => ⟨S128x128, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_c : Ref sig .tc := ⟨.hbm, 10, rfl⟩
abbrev main_call0_c_0 : Ref sig .tc := ⟨.hbm, 11, rfl⟩
abbrev main_call0_v1_0 : Ref sig .tc := ⟨.hbm, 12, rfl⟩
abbrev main_v0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_call2_v0 : Ref sig .tc := ⟨.hbm, 25, rfl⟩
abbrev main_v6 : Ref sig .tc := ⟨.hbm, 26, rfl⟩
abbrev main_c_0 : Ref sig .tc := ⟨.hbm, 27, rfl⟩
abbrev main_call3_v0 : Ref sig .tc := ⟨.hbm, 28, rfl⟩
abbrev main_v7 : Ref sig .tc := ⟨.hbm, 29, rfl⟩
abbrev main_v8 : Ref sig .tc := ⟨.hbm, 30, rfl⟩
abbrev main_v9_0 : Ref sig .tc := ⟨.hbm, 31, rfl⟩
abbrev main_v9_1 : Ref sig .tc := ⟨.hbm, 32, rfl⟩
abbrev main_v9_2 : Ref sig .tc := ⟨.hbm, 33, rfl⟩
abbrev main_v9_3 : Ref sig .tc := ⟨.hbm, 34, rfl⟩
abbrev main_v10 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5120x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  reducesTo_S4096x10_S4096_d1 : S4096x10.ReducesTo [1] S4096
  h_S_ : 0 < S_.numel
  bcast_S4096_S4096x1_0 : S4096.BroadcastsInDim S4096x1 (![0] : Fin 1 → Fin S4096x1.rank)
  bcast_S4096x1_S4096x10_0_1 : S4096x1.BroadcastsInDim S4096x10 (![0, 1] : Fin 2 → Fin S4096x10.rank)
  bcast_S1x10_S4096x10_0_1 : S1x10.BroadcastsInDim S4096x10 (![0, 1] : Fin 2 → Fin S4096x10.rank)
  shapeCasts_S4096x10x512_S4096x5120 : S4096x10x512.ShapeCasts S4096x5120
  bitsLt_bf16_f32 : FTy.bits .bf16 < FTy.bits .f32
  pads_S5120x10_S5120x128_000_01180 : S5120x10.Pads (![0, 0] : Fin 2 → Nat) ![0, 118] ![0, 0] S5120x128
  pads_S10_S128_01180 : S10.Pads (![0] : Fin 1 → Nat) ![118] ![0] S128
  inb_S128x512_S128x512_0_0 : ∀ a, (![0, 0] : Fin 2 → Nat) a + S128x512.size a ≤ S128x512.size a
  h_S128x512 : 0 < S128x512.numel
  inb_S2048x512_S512x512_0_0 : ∀ a, (![0, 0] : Fin 2 → Nat) a + S512x512.size a ≤ S2048x512.size a
  h_S512x512 : 0 < S512x512.numel
  shapeCasts_S512x512_S512x512 : S512x512.ShapeCasts S512x512
  inb_S2048x512_S512x512_512_0 : ∀ a, (![512, 0] : Fin 2 → Nat) a + S512x512.size a ≤ S2048x512.size a
  inb_S2048x512_S512x512_1024_0 : ∀ a, (![1024, 0] : Fin 2 → Nat) a + S512x512.size a ≤ S2048x512.size a
  inb_S2048x512_S512x512_1536_0 : ∀ a, (![1536, 0] : Fin 2 → Nat) a + S512x512.size a ≤ S2048x512.size a
  inb_S512_S512_0 : ∀ a, (![0] : Fin 1 → Nat) a + S512.size a ≤ S512.size a
  h_S512 : 0 < S512.numel
  inb_S128x5120_S128x512_0_0 : ∀ a, (![0, 0] : Fin 2 → Nat) a + S128x512.size a ≤ S128x5120.size a
  shapeCasts_S128x512_S128x512 : S128x512.ShapeCasts S128x512
  shapeCasts_S512_S1x512 : S512.ShapeCasts S1x512
  broadcasts_S1x512_S128x512 : S1x512.Broadcasts S128x512
  inb_S5120x128_S512x128_0_0 : ∀ a, (![0, 0] : Fin 2 → Nat) a + S512x128.size a ≤ S5120x128.size a
  h_S512x128 : 0 < S512x128.numel
  shapeCasts_S512x128_S512x128 : S512x128.ShapeCasts S512x128
  inb_S128x10_S128x1_0_0 : ∀ a, (![0, 0] : Fin 2 → Nat) a + S128x1.size a ≤ S128x10.size a
  h_S128x1 : 0 < S128x1.numel
  shapeCasts_S128x1_S128x1 : S128x1.ShapeCasts S128x1
  broadcasts_S128x1_S128x512 : S128x1.Broadcasts S128x512
  inb_S128x5120_S128x512_0_512 : ∀ a, (![0, 512] : Fin 2 → Nat) a + S128x512.size a ≤ S128x5120.size a
  inb_S5120x128_S512x128_512_0 : ∀ a, (![512, 0] : Fin 2 → Nat) a + S512x128.size a ≤ S5120x128.size a
  inb_S128x10_S128x1_0_1 : ∀ a, (![0, 1] : Fin 2 → Nat) a + S128x1.size a ≤ S128x10.size a
  inb_S128x5120_S128x512_0_1024 : ∀ a, (![0, 1024] : Fin 2 → Nat) a + S128x512.size a ≤ S128x5120.size a
  inb_S5120x128_S512x128_1024_0 : ∀ a, (![1024, 0] : Fin 2 → Nat) a + S512x128.size a ≤ S5120x128.size a
  inb_S128x10_S128x1_0_2 : ∀ a, (![0, 2] : Fin 2 → Nat) a + S128x1.size a ≤ S128x10.size a
  inb_S128x5120_S128x512_0_1536 : ∀ a, (![0, 1536] : Fin 2 → Nat) a + S128x512.size a ≤ S128x5120.size a
  inb_S5120x128_S512x128_1536_0 : ∀ a, (![1536, 0] : Fin 2 → Nat) a + S512x128.size a ≤ S5120x128.size a
  inb_S128x10_S128x1_0_3 : ∀ a, (![0, 3] : Fin 2 → Nat) a + S128x1.size a ≤ S128x10.size a
  inb_S128x5120_S128x512_0_2048 : ∀ a, (![0, 2048] : Fin 2 → Nat) a + S128x512.size a ≤ S128x5120.size a
  inb_S5120x128_S512x128_2048_0 : ∀ a, (![2048, 0] : Fin 2 → Nat) a + S512x128.size a ≤ S5120x128.size a
  inb_S128x10_S128x1_0_4 : ∀ a, (![0, 4] : Fin 2 → Nat) a + S128x1.size a ≤ S128x10.size a
  inb_S128x5120_S128x512_0_2560 : ∀ a, (![0, 2560] : Fin 2 → Nat) a + S128x512.size a ≤ S128x5120.size a
  inb_S5120x128_S512x128_2560_0 : ∀ a, (![2560, 0] : Fin 2 → Nat) a + S512x128.size a ≤ S5120x128.size a
  inb_S128x10_S128x1_0_5 : ∀ a, (![0, 5] : Fin 2 → Nat) a + S128x1.size a ≤ S128x10.size a
  inb_S128x5120_S128x512_0_3072 : ∀ a, (![0, 3072] : Fin 2 → Nat) a + S128x512.size a ≤ S128x5120.size a
  inb_S5120x128_S512x128_3072_0 : ∀ a, (![3072, 0] : Fin 2 → Nat) a + S512x128.size a ≤ S5120x128.size a
  inb_S128x10_S128x1_0_6 : ∀ a, (![0, 6] : Fin 2 → Nat) a + S128x1.size a ≤ S128x10.size a
  inb_S128x5120_S128x512_0_3584 : ∀ a, (![0, 3584] : Fin 2 → Nat) a + S128x512.size a ≤ S128x5120.size a
  inb_S5120x128_S512x128_3584_0 : ∀ a, (![3584, 0] : Fin 2 → Nat) a + S512x128.size a ≤ S5120x128.size a
  inb_S128x10_S128x1_0_7 : ∀ a, (![0, 7] : Fin 2 → Nat) a + S128x1.size a ≤ S128x10.size a
  inb_S128x5120_S128x512_0_4096 : ∀ a, (![0, 4096] : Fin 2 → Nat) a + S128x512.size a ≤ S128x5120.size a
  inb_S5120x128_S512x128_4096_0 : ∀ a, (![4096, 0] : Fin 2 → Nat) a + S512x128.size a ≤ S5120x128.size a
  inb_S128x10_S128x1_0_8 : ∀ a, (![0, 8] : Fin 2 → Nat) a + S128x1.size a ≤ S128x10.size a
  inb_S128x5120_S128x512_0_4608 : ∀ a, (![0, 4608] : Fin 2 → Nat) a + S128x512.size a ≤ S128x5120.size a
  inb_S5120x128_S512x128_4608_0 : ∀ a, (![4608, 0] : Fin 2 → Nat) a + S512x128.size a ≤ S5120x128.size a
  inb_S128x10_S128x1_0_9 : ∀ a, (![0, 9] : Fin 2 → Nat) a + S128x1.size a ≤ S128x10.size a
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  slices_S4096x128_S4096x10_0_0 : S4096x128.Slices ![0, 0] S4096x10
  dot_S128x512_S512x512_S128x512_1_0_0_1_n_n_wf : DotDims.WF S128x512 S512x512 S128x512 [1] [0] [0] [1] [] []
  dot_S128x512_S512x128_S128x128_1_0_0_1_n_n_wf : DotDims.WF S128x512 S512x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .f32 = 32 ∨ (Rect.block (s := S4096x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x5120.size a ≤ S4096x5120.size a
  hwx0_1 : ∀ i : grid0.Coords, EltTy.bits .f32 = 32 ∨ (Rect.block (s := S4096x5120) S128x5120.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x5120.size a ≤ S4096x5120.size a
  hwx0_2 : ∀ i : grid0.Coords, EltTy.bits .f32 = 32 ∨ (Rect.block (s := S4096x5120) S128x5120.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x5120.size a ≤ S4096x5120.size a
  hwx0_3 : ∀ i : grid0.Coords, EltTy.bits .f32 = 32 ∨ (Rect.block (s := S4096x5120) S128x5120.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x10.size a ≤ S4096x10.size a
  hwx0_4 : ∀ i : grid0.Coords, EltTy.bits .f32 = 32 ∨ (Rect.block (s := S4096x10) S128x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x512.size a
  hwx0_5 : ∀ i : grid0.Coords, EltTy.bits .bf16 = 32 ∨ (Rect.block (s := S2048x512) S2048x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5120x128.size a ≤ S5120x128.size a
  hwx0_7 : ∀ i : grid0.Coords, EltTy.bits .bf16 = 32 ∨ (Rect.block (s := S5120x128) S5120x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S4096x128.size a
  hwx0_9 : ∀ i : grid0.Coords, EltTy.bits .f32 = 32 ∨ (Rect.block (s := S4096x128) S128x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S4096x512.size a
  hwx0_10 : ∀ i : grid0.Coords, EltTy.bits .f32 = 32 ∨ (Rect.block (s := S4096x512) S128x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x512.size a ≤ S4096x512.size a
  hwx0_11 : ∀ i : grid0.Coords, EltTy.bits .f32 = 32 ∨ (Rect.block (s := S4096x512) S128x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x512.size a ≤ S4096x512.size a
  hwx0_12 : ∀ i : grid0.Coords, EltTy.bits .f32 = 32 ∨ (Rect.block (s := S4096x512) S128x512.size (cc0_transform_12 i) (hinb0_12 i)).WholeWords (EltTy.packing .f32)

variable [Facts₀]

def reducer_argmax_i32_i32 : BitVec 32 × BitVec 32 → BitVec 32 × BitVec 32 → BitVec 32 × BitVec 32 :=
  fun a b =>
    let v2 := IntOp.cmpi .sgt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x5120.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x5120.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x5120.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x10.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S5120x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S128x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S128x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_2) S128x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_3) S128x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x10x512 : Shape := ⟨3, ![4096, 10, 512]⟩
abbrev S4096x10 : Shape := ⟨2, ![4096, 10]⟩
abbrev S2048x512 : Shape := ⟨2, ![2048, 512]⟩
abbrev S512 : Shape := ⟨1, ![512]⟩
abbrev S5120x10 : Shape := ⟨2, ![5120, 10]⟩
abbrev S10 : Shape := ⟨1, ![10]⟩
abbrev S4096x1x512 : Shape := ⟨3, ![4096, 1, 512]⟩
abbrev S4096x10x2048 : Shape := ⟨3, ![4096, 10, 2048]⟩
abbrev S1x1x512 : Shape := ⟨3, ![1, 1, 512]⟩
abbrev S_ : Shape := ⟨0, ![]⟩
abbrev S4096x5120 : Shape := ⟨2, ![4096, 5120]⟩
abbrev S1x10 : Shape := ⟨2, ![1, 10]⟩
abbrev S4096 : Shape := ⟨1, ![4096]⟩
abbrev S4096x1 : Shape := ⟨2, ![4096, 1]⟩
abbrev S4096x2 : Shape := ⟨2, ![4096, 2]⟩

abbrev nBuf : Space → Nat
  | .hbm => 84
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x10x512, .f32⟩
  | .hbm, ⟨2, _⟩ => ⟨S4096x10x512, .f32⟩
  | .hbm, ⟨3, _⟩ => ⟨S4096x10x512, .f32⟩
  | .hbm, ⟨4, _⟩ => ⟨S4096x10, .i32⟩
  | .hbm, ⟨5, _⟩ => ⟨S2048x512, .f32⟩
  | .hbm, ⟨6, _⟩ => ⟨S512, .f32⟩
  | .hbm, ⟨7, _⟩ => ⟨S5120x10, .f32⟩
  | .hbm, ⟨8, _⟩ => ⟨S10, .f32⟩
  | .hbm, ⟨9, _⟩ => ⟨S4096x1x512, .f32⟩
  | .hbm, ⟨10, _⟩ => ⟨S4096x10x512, .f32⟩
  | .hbm, ⟨11, _⟩ => ⟨S4096x10x2048, .f32⟩
  | .hbm, ⟨12, _⟩ => ⟨S4096x10x512, .f32⟩
  | .hbm, ⟨13, _⟩ => ⟨S1x1x512, .f32⟩
  | .hbm, ⟨14, _⟩ => ⟨S4096x10x512, .f32⟩
  | .hbm, ⟨15, _⟩ => ⟨S4096x10x512, .f32⟩
  | .hbm, ⟨16, _⟩ => ⟨S_, .f32⟩
  | .hbm, ⟨17, _⟩ => ⟨S4096x10x512, .f32⟩
  | .hbm, ⟨18, _⟩ => ⟨S4096x10x512, .f32⟩
  | .hbm, ⟨19, _⟩ => ⟨S4096x5120, .f32⟩
  | .hbm, ⟨20, _⟩ => ⟨S4096x10, .f32⟩
  | .hbm, ⟨21, _⟩ => ⟨S1x10, .f32⟩
  | .hbm, ⟨22, _⟩ => ⟨S4096x10, .f32⟩
  | .hbm, ⟨23, _⟩ => ⟨S4096x10, .f32⟩
  | .hbm, ⟨24, _⟩ => ⟨S4096x10, .i32⟩
  | .hbm, ⟨25, _⟩ => ⟨S_, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096x512, .f32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S4096x1, .i32⟩
  | .hbm, ⟨64, _⟩ => ⟨S4096x2, .i32⟩
  | .hbm, ⟨65, _⟩ => ⟨S4096x512, .f32⟩
  | .hbm, ⟨66, _⟩ => ⟨S_, .i32⟩
  | .hbm, ⟨67, _⟩ => ⟨S4096, .i32⟩
  | .hbm, ⟨68, _⟩ => ⟨S4096, .i1⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S4096, .i32⟩
  | .hbm, ⟨73, _⟩ => ⟨S_, .i32⟩
  | .hbm, ⟨74, _⟩ => ⟨S4096, .i32⟩
  | .hbm, ⟨75, _⟩ => ⟨S4096, .i1⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S4096, .i32⟩
  | .hbm, ⟨80, _⟩ => ⟨S4096x1, .i32⟩
  | .hbm, ⟨81, _⟩ => ⟨S4096x1, .i32⟩
  | .hbm, ⟨82, _⟩ => ⟨S4096x2, .i32⟩
  | .hbm, ⟨83, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_c : Ref sig .tc := ⟨.hbm, 25, rfl⟩
abbrev main_call1_c_0 : Ref sig .tc := ⟨.hbm, 26, rfl⟩
abbrev main_call1_v1_0 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_3 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_7 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]

class Facts₀ : Prop where
  bcast_S4096x512_S4096x1x512_0_2 : S4096x512.BroadcastsInDim S4096x1x512 (![0, 2] : Fin 2 → Fin S4096x1x512.rank)
  bcast_S4096x1x512_S4096x10x512_0_1_2 : S4096x1x512.BroadcastsInDim S4096x10x512 (![0, 1, 2] : Fin 3 → Fin S4096x10x512.rank)
  concatenates_S4096x10x512_S4096x10x512_S4096x10x512_S4096x10x512_S4096x10x2048_d2 : Shape.Concatenates [S4096x10x512, S4096x10x512, S4096x10x512, S4096x10x512] S4096x10x2048 2
  bcast_S512_S1x1x512_2 : S512.BroadcastsInDim S1x1x512 (![2] : Fin 1 → Fin S1x1x512.rank)
  bcast_S1x1x512_S4096x10x512_0_1_2 : S1x1x512.BroadcastsInDim S4096x10x512 (![0, 1, 2] : Fin 3 → Fin S4096x10x512.rank)
  bcast_S_S4096x10x512 : S_.BroadcastsInDim S4096x10x512 (![] : Fin 0 → Fin S4096x10x512.rank)
  shapeCasts_S4096x10x512_S4096x5120 : S4096x10x512.ShapeCasts S4096x5120
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  reducesTo_S4096x10_S4096_d1 : S4096x10.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  dot_S4096x10x2048_S2048x512_S4096x10x512_2_0_01_1_n_n_wf : DotDims.WF S4096x10x2048 S2048x512 S4096x10x512 [2] [0] [0, 1] [1] [] []
  dot_S4096x5120_S5120x10_S4096x10_1_0_0_1_n_n_wf : DotDims.WF S4096x5120 S5120x10 S4096x10 [1] [0] [0] [1] [] []
  gather_S4096x10x512_S4096x2_S4096x512_1_01_n_n_01_1_11512_wf : GatherDims.WF S4096x10x512 S4096x2 S4096x512 [1] [0, 1] [] [0, 1] [] 1 ![1, 1, 512]

variable [Facts₀]

def dot_S4096x10x2048_S2048x512_S4096x10x512_2_0_01_1_n_n : DotDims S4096x10x2048 S2048x512 S4096x10x512 where
  lhsContracting := [2]
  rhsContracting := [0]
  lhsNonContracting := [0, 1]
  rhsNonContracting := [1]
  lhsBatch := []
  rhsBatch := []
  wf := dot_S4096x10x2048_S2048x512_S4096x10x512_2_0_01_1_n_n_wf
def dot_S4096x5120_S5120x10_S4096x10_1_0_0_1_n_n : DotDims S4096x5120 S5120x10 S4096x10 where
  lhsContracting := [1]
  rhsContracting := [0]
  lhsNonContracting := [0]
  rhsNonContracting := [1]
  lhsBatch := []
  rhsBatch := []
  wf := dot_S4096x5120_S5120x10_S4096x10_1_0_0_1_n_n_wf
def reducer_argmax_i32_i32 : BitVec 32 × BitVec 32 → BitVec 32 × BitVec 32 → BitVec 32 × BitVec 32 :=
  fun a b =>
    let v2 := IntOp.cmpi .sgt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S4096x10x512_S4096x2_S4096x512_1_01_n_n_01_1_11512 : GatherDims S4096x10x512 S4096x2 S4096x512 where
  offsetDims := [1]
  collapsedSliceDims := [0, 1]
  operandBatchingDims := []
  startIndicesBatchingDims := []
  startIndexMap := [0, 1]
  indexVectorDim := 1
  sliceSizes := ![1, 1, 512]
  wf := gather_S4096x10x512_S4096x2_S4096x512_1_01_n_n_01_1_11512_wf

class Facts : Prop extends Facts₀ where

variable [Facts]
-- ==== Proof.Spec.lean ====
/-
  What the program computes, as functions of arrays laid out with the ten paths side by side.

  Every context tensor [R, 10, 512] is used flattened to [R, 5120]: path p occupies columns 512·p … 512·p + 511.
  For a row r and a path p the hidden vector is

      hid r p e = Σ_q agent[r, q]·W1[q, e] + Σ_q lane[r, 512p + q]·W1[512 + q, e]
                + Σ_q nlane[r, 512p + q]·W1[1024 + q, e] + Σ_q ngh[r, 512p + q]·W1[1536 + q, e] + b1[e],

  the four sums added in this order; its positive part feeds the second product, whose ten per-path contributions
  are added one after another onto zero, then the bias:

      logit r n = (0 + Σ_k max(hid r 0 k, 0)·W2[k, n] + … + Σ_k max(hid r 9 k, 0)·W2[4608 + k, n]) + b2[n].

  A selected row is the same ten-term accumulation of weight·row: pick r e = 0 + w[r, 0]·x[r, e] + … + w[r, 9]·x[r, 4608 + e].
  All of it is over the extended reals; the number of rows R and of output columns C are parameters, so that one
  definition reads a block of 128 rows and the whole array of 4096, the padded width 128 and the true width 10.
-/
import Idealize.ShloMosaic.PureOps.Ideal
import Idealize.ShloMosaic.Lib.ValueIdx

noncomputable section

namespace Cert.PathMlp

open Idealize.ShloMosaic Idealize.ShloMosaic.ValueIdx
open scoped BigOperators

/-- Entry q of the stretch of 512 that starts at o, on an axis of extent N. -/
def at512 {N : ℕ} (o : ℕ) (h : o + 512 ≤ N) (q : Fin 512) : Fin N := ⟨o + q.val, by have := q.isLt; omega⟩

/-- Column 512·p + k of a flattened [10, 512] pair of axes. -/
def flat (p : Fin 10) (k : Fin 512) : Fin 5120 := ⟨512 * p.val + k.val, by have := p.isLt; have := k.isLt; omega⟩

/-- Ten terms added one after another onto zero. -/
def nest10 (t : Fin 10 → EReal) : EReal := 0 + t 0 + t 1 + t 2 + t 3 + t 4 + t 5 + t 6 + t 7 + t 8 + t 9

variable {R C : ℕ} {φ φ' : FTy}

/-- The hidden vector of row r and path p before the positive part. -/
def hid (ag : FVec Ideal ⟨2, ![R, 512]⟩ .f32) (la nl ng : FVec Ideal ⟨2, ![R, 5120]⟩ .f32)
    (W1 : FVec Ideal ⟨2, ![2048, 512]⟩ φ) (b1 : FVec Ideal ⟨1, ![512]⟩ .f32) (r : Fin R) (p : Fin 10) (e : Fin 512) : EReal :=
  (∑ q : Fin 512, ag (ix2 r q) * W1 (ix2 (at512 0 (by omega) q) e))
    + (∑ q : Fin 512, la (ix2 r (flat p q)) * W1 (ix2 (at512 512 (by omega) q) e))
    + (∑ q : Fin 512, nl (ix2 r (flat p q)) * W1 (ix2 (at512 1024 (by omega) q) e))
    + (∑ q : Fin 512, ng (ix2 r (flat p q)) * W1 (ix2 (at512 1536 (by omega) q) e))
    + b1 (ix1 e)

/-- The score of row r in output column n. -/
def logit (ag : FVec Ideal ⟨2, ![R, 512]⟩ .f32) (la nl ng : FVec Ideal ⟨2, ![R, 5120]⟩ .f32)
    (W1 : FVec Ideal ⟨2, ![2048, 512]⟩ φ) (b1 : FVec Ideal ⟨1, ![512]⟩ .f32)
    (W2 : FVec Ideal ⟨2, ![5120, C]⟩ φ') (b2 : FVec Ideal ⟨1, ![C]⟩ .f32) (r : Fin R) (n : Fin C) : EReal :=
  nest10 (fun p => ∑ k : Fin 512, max (hid ag la nl ng W1 b1 r p k) 0 * W2 (ix2 (flat p k) n)) + b2 (ix1 n)

/-- The weighted accumulation of the ten path rows of x at row r. -/
def pick (w : FVec Ideal ⟨2, ![R, 10]⟩ .f32) (x : FVec Ideal ⟨2, ![R, 5120]⟩ .f32) (r : Fin R) (e : Fin 512) : EReal :=
  nest10 (fun p => w (ix2 r p) * x (ix2 r (flat p e)))

/-- A [R, 10, 512] tensor with its two last axes merged: column 512·p + q holds entry (p, q). -/
def unflat (x : FVec Ideal ⟨3, ![R, 10, 512]⟩ .f32) : FVec Ideal ⟨2, ![R, 5120]⟩ .f32 :=
  fun j => x (ix3 (⟨(j 0).val, (j 0).isLt⟩ : Fin R) (⟨(j 1).val / 512, by have h : (j 1).val < 5120 := (j 1).isLt; omega⟩ : Fin 10)
    (⟨(j 1).val % 512, Nat.mod_lt _ (by norm_num)⟩ : Fin 512))

theorem unflat_flat (x : FVec Ideal ⟨3, ![R, 10, 512]⟩ .f32) (r : Fin R) (p : Fin 10) (q : Fin 512) :
    unflat x (ix2 r (flat p q)) = x (ix3 r p q) := by
  unfold unflat
  congr 1
  have hq := q.isLt
  have h1 : (512 * p.val + q.val) / 512 = p.val := by omega
  have h2 : (512 * p.val + q.val) % 512 = q.val := by omega
  funext a
  match a with
  | ⟨0, _⟩ => rfl
  | ⟨1, _⟩ => exact Fin.ext h1
  | ⟨2, _⟩ => exact Fin.ext h2

end Cert.PathMlp

end
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.PayPick.lean ====
/-
  What one grid step leaves in the three selected-row blocks, read at an entry.

  Each of the three blocks is accumulated path by path onto zero: the step adds, for path p, the weight column p of the
  one-hot block (a [128, 1] column broadcast along the row) times columns 512·p … 512·p + 511 of the flattened context
  block. Read at row r and column e this is the specification's weighted accumulation of the block's own arrays.
-/
import proofs.«401056_j82952998355466_3_alg».proof.Proof.Gen.KernelIdeal.Frame
import proofs.«401056_j82952998355466_3_alg».proof.Proof.Spec
import proofs.«401056_j82952998355466_3_alg».proof.Proof.LibKeepdims
import Idealize.ShloMosaic.Lib.Pipeline.Value
import Idealize.ShloMosaic.Lib.ValueIdx
import Idealize.ShloMosaic.PureOps.Ideal.Laws

noncomputable section

namespace Cert.KernelIdeal.PayPick

open Idealize.ShloMosaic Idealize.ShloMosaic.ValueIdx Cert.KernelIdeal Cert.KernelIdeal.Gen Cert.PathMlp

theorem hz : (![0, 0] : Fin 2 → ℕ) = fun _ => 0 := funext fun a => by fin_cases a <;> rfl

/-- A rectangle of 128 rows and 512 columns starting at column o of a [128, 5120] block: local (r, e) is (r, o + e). -/
theorem idx_cols (o : ℕ) (inb : ∀ a, (![0, o] : Fin 2 → ℕ) a + S128x512.size a ≤ S128x5120.size a) (r : Fin 128) (e : Fin 512)
    (k : Fin 5120) (hk : k.val = o + e.val) :
    (Rect.unit (s := S128x5120) ![0, o] S128x512.size inb).idx (ix2 r e) = ix2 r k := by
  funext a
  apply Fin.ext
  match a with
  | ⟨0, _⟩ => dsimp [Rect.unit]; show 0 + 1 * r.val = r.val; omega
  | ⟨1, _⟩ => dsimp [Rect.unit]; show o + 1 * e.val = k.val; omega

/-- A single column o of a [128, 10] block: local (r, 0) is (r, o). -/
theorem idx_col (o : ℕ) (inb : ∀ a, (![0, o] : Fin 2 → ℕ) a + S128x1.size a ≤ S128x10.size a) (r : Fin 128) (u : Fin 1)
    (k : Fin 10) (hk : k.val = o) :
    (Rect.unit (s := S128x10) ![0, o] S128x1.size inb).idx (ix2 r u) = ix2 r k := by
  funext a
  apply Fin.ext
  have hu : u.val = 0 := by omega
  match a with
  | ⟨0, _⟩ => dsimp [Rect.unit]; show 0 + 1 * r.val = r.val; omega
  | ⟨1, _⟩ => dsimp [Rect.unit]; show o + 1 * u.val = k.val; omega

/-- Entry (r, e) of the block a grid step stores for output 1: the weighted accumulation of the step's own blocks. -/
theorem out0_10_apply (x0 : FVec Ideal S128x512 .f32) (x1 x2 x3 : FVec Ideal S128x5120 .f32) (x4 : FVec Ideal S128x10 .f32)
    (x5 : FVec Ideal S2048x512 .bf16) (x6 : FVec Ideal S512 .f32) (x7 : FVec Ideal S5120x128 .bf16) (x8 : FVec Ideal S128 .f32)
    (r : Fin 128) (e : Fin 512) :
    out0_10 (F := Ideal) x0 x1 x2 x3 x4 x5 x6 x7 x8 (ix2 r e) = pick x4 x1 r e := by
  unfold out0_10
  rw [View.canon_unit_zero (S := S128x512) hz]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89]
  simp only [addf_apply, mulf_apply, broadcast_apply, shapeCast_self, Cert.LibKeepdims.broadcastTo_a1_ab_apply, View.ld]
  rw [idx_cols 0 _ r e (flat 0 e) rfl, idx_cols 512 _ r e (flat 1 e) rfl, idx_cols 1024 _ r e (flat 2 e) rfl,
    idx_cols 1536 _ r e (flat 3 e) rfl, idx_cols 2048 _ r e (flat 4 e) rfl, idx_cols 2560 _ r e (flat 5 e) rfl,
    idx_cols 3072 _ r e (flat 6 e) rfl, idx_cols 3584 _ r e (flat 7 e) rfl, idx_cols 4096 _ r e (flat 8 e) rfl,
    idx_cols 4608 _ r e (flat 9 e) rfl,
    idx_col 0 _ r 0 0 rfl, idx_col 1 _ r 0 1 rfl, idx_col 2 _ r 0 2 rfl, idx_col 3 _ r 0 3 rfl, idx_col 4 _ r 0 4 rfl,
    idx_col 5 _ r 0 5 rfl, idx_col 6 _ r 0 6 rfl, idx_col 7 _ r 0 7 rfl, idx_col 8 _ r 0 8 rfl, idx_col 9 _ r 0 9 rfl]
  rw [Ideal.ofBits_def, Ideal.ofBits_zero_f32]
  rfl

/-- Entry (r, e) of the block a grid step stores for output 2: the weighted accumulation of the step's own blocks. -/
theorem out0_11_apply (x0 : FVec Ideal S128x512 .f32) (x1 x2 x3 : FVec Ideal S128x5120 .f32) (x4 : FVec Ideal S128x10 .f32)
    (x5 : FVec Ideal S2048x512 .bf16) (x6 : FVec Ideal S512 .f32) (x7 : FVec Ideal S5120x128 .bf16) (x8 : FVec Ideal S128 .f32)
    (r : Fin 128) (e : Fin 512) :
    out0_11 (F := Ideal) x0 x1 x2 x3 x4 x5 x6 x7 x8 (ix2 r e) = pick x4 x2 r e := by
  unfold out0_11
  rw [View.canon_unit_zero (S := S128x512) hz]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89]
  simp only [addf_apply, mulf_apply, broadcast_apply, shapeCast_self, Cert.LibKeepdims.broadcastTo_a1_ab_apply, View.ld]
  rw [idx_cols 0 _ r e (flat 0 e) rfl, idx_cols 512 _ r e (flat 1 e) rfl, idx_cols 1024 _ r e (flat 2 e) rfl,
    idx_cols 1536 _ r e (flat 3 e) rfl, idx_cols 2048 _ r e (flat 4 e) rfl, idx_cols 2560 _ r e (flat 5 e) rfl,
    idx_cols 3072 _ r e (flat 6 e) rfl, idx_cols 3584 _ r e (flat 7 e) rfl, idx_cols 4096 _ r e (flat 8 e) rfl,
    idx_cols 4608 _ r e (flat 9 e) rfl,
    idx_col 0 _ r 0 0 rfl, idx_col 1 _ r 0 1 rfl, idx_col 2 _ r 0 2 rfl, idx_col 3 _ r 0 3 rfl, idx_col 4 _ r 0 4 rfl,
    idx_col 5 _ r 0 5 rfl, idx_col 6 _ r 0 6 rfl, idx_col 7 _ r 0 7 rfl, idx_col 8 _ r 0 8 rfl, idx_col 9 _ r 0 9 rfl]
  rw [Ideal.ofBits_def, Ideal.ofBits_zero_f32]
  rfl

/-- Entry (r, e) of the block a grid step stores for output 3: the weighted accumulation of the step's own blocks. -/
theorem out0_12_apply (x0 : FVec Ideal S128x512 .f32) (x1 x2 x3 : FVec Ideal S128x5120 .f32) (x4 : FVec Ideal S128x10 .f32)
    (x5 : FVec Ideal S2048x512 .bf16) (x6 : FVec Ideal S512 .f32) (x7 : FVec Ideal S5120x128 .bf16) (x8 : FVec Ideal S128 .f32)
    (r : Fin 128) (e : Fin 512) :
    out0_12 (F := Ideal) x0 x1 x2 x3 x4 x5 x6 x7 x8 (ix2 r e) = pick x4 x3 r e := by
  unfold out0_12
  rw [View.canon_unit_zero (S := S128x512) hz]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89]
  simp only [addf_apply, mulf_apply, broadcast_apply, shapeCast_self, Cert.LibKeepdims.broadcastTo_a1_ab_apply, View.ld]
  rw [idx_cols 0 _ r e (flat 0 e) rfl, idx_cols 512 _ r e (flat 1 e) rfl, idx_cols 1024 _ r e (flat 2 e) rfl,
    idx_cols 1536 _ r e (flat 3 e) rfl, idx_cols 2048 _ r e (flat 4 e) rfl, idx_cols 2560 _ r e (flat 5 e) rfl,
    idx_cols 3072 _ r e (flat 6 e) rfl, idx_cols 3584 _ r e (flat 7 e) rfl, idx_cols 4096 _ r e (flat 8 e) rfl,
    idx_cols 4608 _ r e (flat 9 e) rfl,
    idx_col 0 _ r 0 0 rfl, idx_col 1 _ r 0 1 rfl, idx_col 2 _ r 0 2 rfl, idx_col 3 _ r 0 3 rfl, idx_col 4 _ r 0 4 rfl,
    idx_col 5 _ r 0 5 rfl, idx_col 6 _ r 0 6 rfl, idx_col 7 _ r 0 7 rfl, idx_col 8 _ r 0 8 rfl, idx_col 9 _ r 0 9 rfl]
  rw [Ideal.ofBits_def, Ideal.ofBits_zero_f32]
  rfl

end Cert.KernelIdeal.PayPick

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.PayLogits.lean ====
/-
  What one grid step leaves in the score block, read at an entry.

  The block of 128 rows is computed path by path: the row's hidden vector of path p is the sum of four products with
  the four row stretches of the first weight matrix plus its bias, its positive part is multiplied with rows
  512·p … 512·p + 511 of the second weight matrix, and the ten products are added one after another onto zero; the
  second bias is added last. Read at row r and column n this is the specification's score of the block's own arrays.
-/
import proofs.«401056_j82952998355466_3_alg».proof.Proof.Gen.KernelIdeal.Frame
import proofs.«401056_j82952998355466_3_alg».proof.Proof.Spec
import proofs.«401056_j82952998355466_3_alg».proof.Proof.LibMatmulPlain
import proofs.«401056_j82952998355466_3_alg».proof.Proof.LibKeepdims
import Idealize.ShloMosaic.Lib.Pipeline.Value
import Idealize.ShloMosaic.Lib.ValueIdx
import Idealize.ShloMosaic.Lib.ValueLayout

noncomputable section

namespace Cert.KernelIdeal.PayLogits

open Idealize.ShloMosaic Idealize.ShloMosaic.ValueIdx Cert.KernelIdeal Cert.KernelIdeal.Gen Cert.PathMlp

open scoped BigOperators

/-! ## Reading a window, a product, a bias and a zero at an entry -/

/-- A load through a unit-stride window of a rank-2 array, read at (i, j): the array at (o0 + i, o1 + j). -/
theorem ld2_apply {A B a b : ℕ} {e : EltTy} (X : Vec Ideal ⟨2, ![A, B]⟩ e) (o0 o1 : ℕ)
    (inb : ∀ k, (![o0, o1] : Fin 2 → ℕ) k + (⟨2, ![a, b]⟩ : Shape).size k ≤ (⟨2, ![A, B]⟩ : Shape).size k)
    (i : Fin a) (j : Fin b) (h0 : o0 + i.val < A) (h1 : o1 + j.val < B) :
    View.ld X (Rect.unit (s := ⟨2, ![A, B]⟩) ![o0, o1] (⟨2, ![a, b]⟩ : Shape).size inb) (ix2 i j)
      = X (ix2 ⟨o0 + i.val, h0⟩ ⟨o1 + j.val, h1⟩) := by
  show X _ = X _
  congr 1
  funext k
  apply Fin.ext
  match k with
  | ⟨0, _⟩ => show o0 + 1 * i.val = o0 + i.val; omega
  | ⟨1, _⟩ => show o1 + 1 * j.val = o1 + j.val; omega

/-- The generated dimension record of the 128×512 by 512×512 product is the plain one (contract the left operand's
    columns with the right operand's rows, no batch axis). -/
theorem dot1_eq : dot_S128x512_S512x512_S128x512_1_0_0_1_n_n = DotDims.plain 128 512 512 := rfl

/-- So is the record of the 128×512 by 512×128 product. -/
theorem dot2_eq : dot_S128x512_S512x128_S128x128_1_0_0_1_n_n = DotDims.plain 128 512 128 := rfl

/-- Entry (r, e) of a 128×512 by 512×512 product accumulated into zero: the sum over q of l[r, q] · w[q, e]. -/
theorem mm1_apply {φ₁ φ₂ : FTy} (l : FVec Ideal S128x512 φ₁) (w : FVec Ideal S512x512 φ₂) (r : Fin 128) (e : Fin 512) :
    matmul dot_S128x512_S512x512_S128x512_1_0_0_1_n_n none l w (constant S128x512 .f32 0x00000000#32) (ix2 r e)
      = ∑ q : Fin 512, l (ix2 r q) * w (ix2 q e) := by
  rw [dot1_eq]
  exact Cert.LibMatmulPlain.matmul_plain_apply l w r e

/-- Entry (r, n) of a 128×512 by 512×128 product accumulated into zero: the sum over q of l[r, q] · w[q, n]. -/
theorem mm2_apply {φ₁ φ₂ : FTy} (l : FVec Ideal S128x512 φ₁) (w : FVec Ideal S512x128 φ₂) (r : Fin 128) (n : Fin 128) :
    matmul dot_S128x512_S512x128_S128x128_1_0_0_1_n_n none l w (constant S128x128 .f32 0x00000000#32) (ix2 r n)
      = ∑ q : Fin 512, l (ix2 r q) * w (ix2 q n) := by
  rw [dot2_eq]
  exact Cert.LibMatmulPlain.matmul_plain_apply l w r n

/-- A vector given a leading unit axis and broadcast over the rows reads, at (i, j), its entry j. -/
theorem bias_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ v h1) h2 (ix2 i j) = v (ix1 j) := by
  rw [broadcastTo_1b_ab_apply, shapeCast_a_1a_apply]

/-- The splat of the zero word is zero everywhere. -/
theorem zero_apply {s : Shape} (i : s.Idx) : broadcast s (Scalar.ofBits (F := Ideal) .f32 0x00000000#32) i = (0 : EReal) :=
  Ideal.ofBits_zero_f32

/-! ## The hidden vector of one path, over whatever operands -/

/-- The hidden pre-activation at (r, e): a first product's entry, three more products' entries, and a bias entry,
    added in this order. -/
def pre (A l nl ng : S128x512.Idx → EReal) (w1 w2 w3 : S512x512.Idx → EReal) (b : S512.Idx → EReal) (r : Fin 128) (e : Fin 512) : EReal :=
  A (ix2 r e) + (∑ q : Fin 512, l (ix2 r q) * w1 (ix2 q e)) + (∑ q : Fin 512, nl (ix2 r q) * w2 (ix2 q e))
    + (∑ q : Fin 512, ng (ix2 r q) * w3 (ix2 q e)) + b (ix1 e)

/-- Its positive part. -/
def act (A l nl ng : S128x512.Idx → EReal) (w1 w2 w3 : S512x512.Idx → EReal) (b : S512.Idx → EReal) (r : Fin 128) (e : Fin 512) : EReal :=
  max (pre A l nl ng w1 w2 w3 b r e) 0

/-! ## The pieces of the block's computation, each read at an entry

A narrowing format change and a cast to the same shape are the identity on extended reals; a sum, a maximum and a
product read entry by entry. The ten paths are cut into pieces irregularly, so each piece is read on its own. -/

/-- The first product (the agent rows with the first stretch of the first weight matrix), shared by the ten paths. -/
theorem pay6_apply (v0 : Vec Ideal S128x512 .f32) (v1 : Vec Ideal S512x512 .bf16) (r : Fin 128) (e : Fin 512) :
    k0_pay6 (F := Ideal) v0 v1 (ix2 r e) = ∑ q : Fin 512, v0 (ix2 r q) * v1 (ix2 q e) := by
  simp only [k0_pay6, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]

/-- The accumulator starts at zero. -/
theorem pay10_apply (r n : Fin 128) : k0_pay10 (F := Ideal) (ix2 r n) = 0 := by
  simp only [k0_pay10, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]

/-- Path 0's hidden pre-activation. -/
theorem pay14_apply (v0 : Vec Ideal S128x512 .f32) (v1 v3 v5 v7 : Vec Ideal S512x512 .bf16) (v9 : Vec Ideal S512 .f32)
    (v16 v18 v20 : Vec Ideal S128x512 .f32) (r : Fin 128) (e : Fin 512) :
    k0_pay14 (F := Ideal) v0 v1 v3 v5 v7 v9 v16 v18 v20 (ix2 r e) = pre (k0_pay6 v0 v1) v16 v18 v20 v3 v5 v7 v9 r e := by
  simp only [k0_pay14, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]
  rfl

/-- Path 0's contribution added onto the accumulator: the positive part times the first stretch of the second
    weight matrix. -/
theorem pay15_apply (v15 : FVec Ideal S128x128 .f32) (v33 : FVec Ideal S128x512 .f32) (v37 : Vec Ideal S512x128 .bf16) (r n : Fin 128) :
    k0_pay15 (F := Ideal) v15 v33 v37 (ix2 r n) = v15 (ix2 r n) + ∑ k : Fin 512, max (v33 (ix2 r k)) 0 * v37 (ix2 k n) := by
  simp only [k0_pay15, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]

/-- Path 1's hidden vector. -/
theorem pay23_apply (v4 v6 v8 : FVec Ideal S512x512 .bf16) (v9 : Vec Ideal S512 .f32) (v11 : FVec Ideal S128x512 .f32) (v52 v54 v56 : Vec Ideal S128x512 .f32) (r : Fin 128) (e : Fin 512) :
    k0_pay23 (F := Ideal) v4 v6 v8 v9 v11 v52 v54 v56 (ix2 r e) = act v11 v52 v54 v56 v4 v6 v8 v9 r e := by
  simp only [k0_pay23, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]
  rfl

/-- Path 1's contribution (from its hidden vector already formed) and path 2's, added onto the accumulator. -/
theorem pay31_apply (v4 v6 v8 : FVec Ideal S512x512 .bf16) (v9 : Vec Ideal S512 .f32) (v11 : FVec Ideal S128x512 .f32) (v40 : FVec Ideal S128x128 .f32) (v72 : FVec Ideal S128x512 .bf16) (v74 : FVec Ideal S512x128 .bf16)
    (v88 v90 v92 : Vec Ideal S128x512 .f32) (v109 : Vec Ideal S512x128 .bf16) (r n : Fin 128) :
    k0_pay31 (F := Ideal) v4 v6 v8 v9 v11 v40 v72 v74 (constant S128x128 .f32 0x00000000#32) v88 v90 v92 v109 (ix2 r n)
      = v40 (ix2 r n) + (∑ k : Fin 512, v72 (ix2 r k) * v74 (ix2 k n))
        + ∑ k : Fin 512, act v11 v88 v90 v92 v4 v6 v8 v9 r k * v109 (ix2 k n) := by
  simp only [k0_pay31, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]
  rfl

/-- Path 3's contribution added onto the accumulator. -/
theorem pay37_apply (v4 v6 v8 : FVec Ideal S512x512 .bf16) (v9 : Vec Ideal S512 .f32) (v11 : FVec Ideal S128x512 .f32) (v112 : FVec Ideal S128x128 .f32) (v124 v126 v128 : Vec Ideal S128x512 .f32)
    (v145 : Vec Ideal S512x128 .bf16) (r n : Fin 128) :
    k0_pay37 (F := Ideal) v4 v6 v8 v9 v11 v112 v124 v126 v128 v145 (ix2 r n)
      = v112 (ix2 r n) + ∑ k : Fin 512, act v11 v124 v126 v128 v4 v6 v8 v9 r k * v145 (ix2 k n) := by
  simp only [k0_pay37, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]
  rfl

/-- Path 4's contribution added onto the accumulator. -/
theorem pay45_apply (v4 v6 v8 : FVec Ideal S512x512 .bf16) (v9 : Vec Ideal S512 .f32) (v11 : FVec Ideal S128x512 .f32) (v148 : FVec Ideal S128x128 .f32) (v160 v162 v164 : Vec Ideal S128x512 .f32)
    (v181 : Vec Ideal S512x128 .bf16) (r n : Fin 128) :
    k0_pay45 (F := Ideal) v4 v6 v8 v9 v11 v148 v160 v162 v164 v181 (ix2 r n)
      = v148 (ix2 r n) + ∑ k : Fin 512, act v11 v160 v162 v164 v4 v6 v8 v9 r k * v181 (ix2 k n) := by
  simp only [k0_pay45, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]
  rfl

/-- Path 5's contribution added onto the accumulator. -/
theorem pay53_apply (v4 v6 v8 : FVec Ideal S512x512 .bf16) (v9 : Vec Ideal S512 .f32) (v11 : FVec Ideal S128x512 .f32) (v184 : FVec Ideal S128x128 .f32) (v197 v199 v201 : FVec Ideal S128x512 .f32)
    (v217 : Vec Ideal S512x128 .bf16) (r n : Fin 128) :
    k0_pay53 (F := Ideal) v4 v6 v8 v9 v11 v184 v197 v199 v201 v217 (ix2 r n)
      = v184 (ix2 r n) + ∑ k : Fin 512, act v11 v197 v199 v201 v4 v6 v8 v9 r k * v217 (ix2 k n) := by
  simp only [k0_pay53, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]
  rfl

/-- Path 6's second product. -/
theorem pay61_apply (v4 : FVec Ideal S512x512 .bf16) (v232 : Vec Ideal S128x512 .f32) (r : Fin 128) (e : Fin 512) :
    k0_pay61 (F := Ideal) v4 v232 (ix2 r e) = ∑ q : Fin 512, v232 (ix2 r q) * v4 (ix2 q e) := by
  simp only [k0_pay61, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]

/-- Path 6's third product. -/
theorem pay62_apply (v6 : FVec Ideal S512x512 .bf16) (v234 : Vec Ideal S128x512 .f32) (r : Fin 128) (e : Fin 512) :
    k0_pay62 (F := Ideal) v6 v234 (ix2 r e) = ∑ q : Fin 512, v234 (ix2 r q) * v6 (ix2 q e) := by
  simp only [k0_pay62, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]

/-- Path 6's fourth product. -/
theorem pay63_apply (v8 : FVec Ideal S512x512 .bf16) (v236 : Vec Ideal S128x512 .f32) (r : Fin 128) (e : Fin 512) :
    k0_pay63 (F := Ideal) v8 v236 (ix2 r e) = ∑ q : Fin 512, v236 (ix2 r q) * v8 (ix2 q e) := by
  simp only [k0_pay63, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]

/-- Path 6's contribution, from its three products already formed, added onto the accumulator. -/
theorem pay64_apply (v9 : Vec Ideal S512 .f32) (v11 : FVec Ideal S128x512 .f32) (v220 : FVec Ideal S128x128 .f32)
    (v239 v241 v243 : FVec Ideal S128x512 .f32) (v253 : Vec Ideal S512x128 .bf16) (r n : Fin 128) :
    k0_pay64 (F := Ideal) v9 v11 v220 v239 v241 v243 v253 (ix2 r n)
      = v220 (ix2 r n) + ∑ k : Fin 512,
          max (v11 (ix2 r k) + v239 (ix2 r k) + v241 (ix2 r k) + v243 (ix2 r k) + v9 (ix1 k)) 0 * v253 (ix2 k n) := by
  simp only [k0_pay64, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]

/-- Path 7's hidden vector. -/
theorem pay72_apply (v4 v6 v8 : FVec Ideal S512x512 .bf16) (v9 : Vec Ideal S512 .f32) (v11 : FVec Ideal S128x512 .f32) (v268 v270 v272 : Vec Ideal S128x512 .f32) (r : Fin 128) (e : Fin 512) :
    k0_pay72 (F := Ideal) v4 v6 v8 v9 v11 v268 v270 v272 (ix2 r e) = act v11 v268 v270 v272 v4 v6 v8 v9 r e := by
  simp only [k0_pay72, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]
  rfl

/-- Path 7's contribution (from its hidden vector already formed) and path 8's, added onto the accumulator. -/
theorem pay80_apply (v4 v6 v8 : FVec Ideal S512x512 .bf16) (v9 : Vec Ideal S512 .f32) (v11 : FVec Ideal S128x512 .f32) (v256 : FVec Ideal S128x128 .f32) (v287 : FVec Ideal S128x512 .f32) (v289 : Vec Ideal S512x128 .bf16)
    (v304 v306 v308 : Vec Ideal S128x512 .f32) (v325 : Vec Ideal S512x128 .bf16) (r n : Fin 128) :
    k0_pay80 (F := Ideal) v4 v6 v8 v9 v11 v256 v287 v289 v304 v306 v308 v325 (ix2 r n)
      = v256 (ix2 r n) + (∑ k : Fin 512, v287 (ix2 r k) * v289 (ix2 k n))
        + ∑ k : Fin 512, act v11 v304 v306 v308 v4 v6 v8 v9 r k * v325 (ix2 k n) := by
  simp only [k0_pay80, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]
  rfl

/-- Path 9's contribution added onto the accumulator. -/
theorem pay86_apply (v4 v6 v8 : FVec Ideal S512x512 .bf16) (v9 : Vec Ideal S512 .f32) (v11 : FVec Ideal S128x512 .f32) (v328 : FVec Ideal S128x128 .f32) (v340 v342 v344 : Vec Ideal S128x512 .f32)
    (v361 : Vec Ideal S512x128 .bf16) (r n : Fin 128) :
    k0_pay86 (F := Ideal) v4 v6 v8 v9 v11 v328 v340 v342 v344 v361 (ix2 r n)
      = v328 (ix2 r n) + ∑ k : Fin 512, act v11 v340 v342 v344 v4 v6 v8 v9 r k * v361 (ix2 k n) := by
  simp only [k0_pay86, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]
  rfl

/-- The second bias added last. -/
theorem pay2_apply (v364 : FVec Ideal S128x128 .f32) (v379 : Vec Ideal S128 .f32) (r n : Fin 128) :
    k0_pay2 (F := Ideal) v364 v379 (ix2 r n) = v364 (ix2 r n) + v379 (ix1 n) := by
  simp only [k0_pay2, k0_pay3, k0_pay4, k0_pay5, k0_pay11, k0_pay12, k0_pay13, k0_pay20, k0_pay21, k0_pay22, k0_pay24, k0_pay28, k0_pay29, k0_pay30, k0_pay34, k0_pay35, k0_pay36, k0_pay42, k0_pay43, k0_pay44, k0_pay50, k0_pay51, k0_pay52, k0_pay58, k0_pay59, k0_pay60, k0_pay69, k0_pay70, k0_pay71, k0_pay77, k0_pay78, k0_pay79, k0_pay83, k0_pay84, k0_pay85, addf_apply, maximumf_apply, truncf_apply, mm1_apply, mm2_apply, bias_apply, zero_apply, shapeCast_self]

/-! ## The operands as stretches of the step's arrays -/
/-- Rows o … o + 511 of the first weight matrix, read at (q, e). -/
theorem ldW1_apply (x5 : Vec Ideal S2048x512 .bf16) (o : ℕ) (h : o + 512 ≤ 2048)
    (inb : ∀ k, (![o, 0] : Fin 2 → ℕ) k + S512x512.size k ≤ S2048x512.size k) (q e : Fin 512) :
    View.ld x5 (Rect.unit (s := S2048x512) ![o, 0] S512x512.size inb) (ix2 q e) = x5 (ix2 (at512 o h q) e) := by
  rw [ld2_apply (e := .bf16) x5 o 0 inb q e (by have := q.isLt; omega) (by have := e.isLt; omega)]
  congr 1; funext k; apply Fin.ext
  match k with
  | ⟨0, _⟩ => rfl
  | ⟨1, _⟩ => show 0 + e.val = e.val; omega

/-- Columns 512·p … 512·p + 511 of a context block, read at (r, q). -/
theorem ldCol_apply (x : Vec Ideal S128x5120 .f32) (o : ℕ) (p : Fin 10) (ho : o = 512 * p.val)
    (inb : ∀ k, (![0, o] : Fin 2 → ℕ) k + S128x512.size k ≤ S128x5120.size k) (r : Fin 128) (q : Fin 512) :
    View.ld x (Rect.unit (s := S128x5120) ![0, o] S128x512.size inb) (ix2 r q) = x (ix2 r (flat p q)) := by
  subst ho
  rw [ld2_apply (e := .f32) x 0 (512 * p.val) inb r q (by have := r.isLt; omega) (by have := p.isLt; have := q.isLt; omega)]
  congr 1; funext k; apply Fin.ext
  match k with
  | ⟨0, _⟩ => show 0 + r.val = r.val; omega
  | ⟨1, _⟩ => rfl

/-- Rows 512·p … 512·p + 511 of the second weight matrix, read at (k, n). -/
theorem ldRow_apply (x : Vec Ideal S5120x128 .bf16) (o : ℕ) (p : Fin 10) (ho : o = 512 * p.val)
    (inb : ∀ k, (![o, 0] : Fin 2 → ℕ) k + S512x128.size k ≤ S5120x128.size k) (k : Fin 512) (n : Fin 128) :
    View.ld x (Rect.unit (s := S5120x128) ![o, 0] S512x128.size inb) (ix2 k n) = x (ix2 (flat p k) n) := by
  subst ho
  rw [ld2_apply (e := .bf16) x (512 * p.val) 0 inb k n (by have := p.isLt; have := k.isLt; omega) (by have := n.isLt; omega)]
  congr 1; funext a; apply Fin.ext
  match a with
  | ⟨0, _⟩ => rfl
  | ⟨1, _⟩ => show 0 + n.val = n.val; omega

/-- One path's contribution, from its operands read as stretches of the step's arrays: the specification's term. -/
theorem path_term (A l nl ng : S128x512.Idx → EReal) (w1 w2 w3 : S512x512.Idx → EReal) (b : S512.Idx → EReal)
    (W : S512x128.Idx → EReal)
    (x0 : FVec Ideal S128x512 .f32) (x1 x2 x3 : FVec Ideal S128x5120 .f32) (x5 : FVec Ideal S2048x512 .bf16)
    (x6 : FVec Ideal S512 .f32) (x7 : FVec Ideal S5120x128 .bf16) (r n : Fin 128) (p : Fin 10)
    (hA : ∀ e, A (ix2 r e) = ∑ q : Fin 512, x0 (ix2 r q) * x5 (ix2 (at512 0 (by omega) q) e))
    (hl : ∀ q, l (ix2 r q) = x1 (ix2 r (flat p q))) (hnl : ∀ q, nl (ix2 r q) = x2 (ix2 r (flat p q)))
    (hng : ∀ q, ng (ix2 r q) = x3 (ix2 r (flat p q)))
    (hw1 : ∀ q e, w1 (ix2 q e) = x5 (ix2 (at512 512 (by omega) q) e))
    (hw2 : ∀ q e, w2 (ix2 q e) = x5 (ix2 (at512 1024 (by omega) q) e))
    (hw3 : ∀ q e, w3 (ix2 q e) = x5 (ix2 (at512 1536 (by omega) q) e))
    (hb : ∀ e, b (ix1 e) = x6 (ix1 e)) (hW : ∀ k, W (ix2 k n) = x7 (ix2 (flat p k) n)) :
    ∑ k : Fin 512, act A l nl ng w1 w2 w3 b r k * W (ix2 k n)
      = ∑ k : Fin 512, max (hid x0 x1 x2 x3 x5 x6 r p k) 0 * x7 (ix2 (flat p k) n) := by
  refine Finset.sum_congr rfl fun k _ => ?_
  unfold act pre hid
  simp only [hA, hl, hnl, hng, hw1, hw2, hw3, hb, hW]

/-- Ten terms and a last one added one after another onto zero, term by term. -/
theorem add10_congr {a0 a1 a2 a3 a4 a5 a6 a7 a8 a9 c b0 b1 b2 b3 b4 b5 b6 b7 b8 b9 d : EReal}
    (h0 : a0 = b0) (h1 : a1 = b1) (h2 : a2 = b2) (h3 : a3 = b3) (h4 : a4 = b4) (h5 : a5 = b5) (h6 : a6 = b6)
    (h7 : a7 = b7) (h8 : a8 = b8) (h9 : a9 = b9) (hc : c = d) :
    0 + a0 + a1 + a2 + a3 + a4 + a5 + a6 + a7 + a8 + a9 + c = 0 + b0 + b1 + b2 + b3 + b4 + b5 + b6 + b7 + b8 + b9 + d := by
  rw [h0, h1, h2, h3, h4, h5, h6, h7, h8, h9, hc]

/-- Entry (r, n) of the score block a grid step stores is the score of row r, column n of the step's own blocks. -/
theorem out0_9_apply (x0 : FVec Ideal S128x512 .f32) (x1 x2 x3 : FVec Ideal S128x5120 .f32) (x4 : FVec Ideal S128x10 .f32)
    (x5 : FVec Ideal S2048x512 .bf16) (x6 : FVec Ideal S512 .f32) (x7 : FVec Ideal S5120x128 .bf16) (x8 : FVec Ideal S128 .f32)
    (r : Fin 128) (n : Fin 128) :
    out0_9 (F := Ideal) x0 x1 x2 x3 x4 x5 x6 x7 x8 (ix2 r n) = logit x0 x1 x2 x3 x5 x6 x7 x8 r n := by
  have hz : (![0, 0] : Fin 2 → ℕ) = fun _ => 0 := by
    funext a; match a with | ⟨0, _⟩ => rfl | ⟨1, _⟩ => rfl
  have hz1 : (![0] : Fin 1 → ℕ) = fun _ => 0 := by
    funext a; match a with | ⟨0, _⟩ => rfl
  -- the operands every path shares, read as stretches of the step's arrays
  have hA : ∀ e, k0_pay6 (F := Ideal) (View.ld x0 r0_0) (View.ld x5 r0_1) (ix2 r e)
      = ∑ q : Fin 512, x0 (ix2 r q) * x5 (ix2 (at512 0 (by omega) q) e) := fun e => by
    rw [pay6_apply, View.ld_unit_zero hz]
    exact Finset.sum_congr rfl fun q _ => by rw [ldW1_apply x5 0 (by omega)]
  have hw1 : ∀ q e, View.ld (Val := Elt Ideal) (e' := .bf16) x5 r0_2 (ix2 q e) = x5 (ix2 (at512 512 (by omega) q) e) :=
    fun q e => ldW1_apply x5 512 (by omega) _ q e
  have hw2 : ∀ q e, View.ld (Val := Elt Ideal) (e' := .bf16) x5 r0_3 (ix2 q e) = x5 (ix2 (at512 1024 (by omega) q) e) :=
    fun q e => ldW1_apply x5 1024 (by omega) _ q e
  have hw3 : ∀ q e, View.ld (Val := Elt Ideal) (e' := .bf16) x5 r0_4 (ix2 q e) = x5 (ix2 (at512 1536 (by omega) q) e) :=
    fun q e => ldW1_apply x5 1536 (by omega) _ q e
  have hb : ∀ e, View.ld (Val := Elt Ideal) (e' := .f32) x6 r0_5 (ix1 e) = x6 (ix1 e) := fun e => by rw [View.ld_unit_zero hz1]
  unfold out0_9
  -- the one covering store: the block is its payload
  rw [View.canon_unit_zero (S := S128x128) hz]
  -- the accumulation, step by step from the last
  rw [pay2_apply, pay86_apply, pay80_apply, pay64_apply, pay53_apply, pay45_apply, pay37_apply, pay31_apply, pay15_apply,
    pay10_apply]
  simp only [pay72_apply, pay61_apply, pay62_apply, pay63_apply, pay23_apply, pay14_apply, k0_pay3, k0_pay4, k0_pay5, k0_pay24,
    k0_pay50, k0_pay51, k0_pay52, shapeCast_self]
  unfold logit nest10
  refine add10_congr ?_ ?_ ?_ ?_ ?_ ?_ ?_ ?_ ?_ ?_ ?_
  · exact path_term _ _ _ _ _ _ _ _ _ x0 x1 x2 x3 x5 x6 x7 r n 0 hA (ldCol_apply x1 0 0 rfl _ r) (ldCol_apply x2 0 0 rfl _ r)
      (ldCol_apply x3 0 0 rfl _ r) hw1 hw2 hw3 hb (fun k => ldRow_apply x7 0 0 rfl _ k n)
  · exact path_term _ _ _ _ _ _ _ _ _ x0 x1 x2 x3 x5 x6 x7 r n 1 hA (ldCol_apply x1 512 1 rfl _ r) (ldCol_apply x2 512 1 rfl _ r)
      (ldCol_apply x3 512 1 rfl _ r) hw1 hw2 hw3 hb (fun k => ldRow_apply x7 512 1 rfl _ k n)
  · exact path_term _ _ _ _ _ _ _ _ _ x0 x1 x2 x3 x5 x6 x7 r n 2 hA (ldCol_apply x1 1024 2 rfl _ r) (ldCol_apply x2 1024 2 rfl _ r)
      (ldCol_apply x3 1024 2 rfl _ r) hw1 hw2 hw3 hb (fun k => ldRow_apply x7 1024 2 rfl _ k n)
  · exact path_term _ _ _ _ _ _ _ _ _ x0 x1 x2 x3 x5 x6 x7 r n 3 hA (ldCol_apply x1 1536 3 rfl _ r) (ldCol_apply x2 1536 3 rfl _ r)
      (ldCol_apply x3 1536 3 rfl _ r) hw1 hw2 hw3 hb (fun k => ldRow_apply x7 1536 3 rfl _ k n)
  · exact path_term _ _ _ _ _ _ _ _ _ x0 x1 x2 x3 x5 x6 x7 r n 4 hA (ldCol_apply x1 2048 4 rfl _ r) (ldCol_apply x2 2048 4 rfl _ r)
      (ldCol_apply x3 2048 4 rfl _ r) hw1 hw2 hw3 hb (fun k => ldRow_apply x7 2048 4 rfl _ k n)
  · exact path_term _ _ _ _ _ _ _ _ _ x0 x1 x2 x3 x5 x6 x7 r n 5 hA (ldCol_apply x1 2560 5 rfl _ r) (ldCol_apply x2 2560 5 rfl _ r)
      (ldCol_apply x3 2560 5 rfl _ r) hw1 hw2 hw3 hb (fun k => ldRow_apply x7 2560 5 rfl _ k n)
  · exact path_term _ _ _ _ _ _ _ _ _ x0 x1 x2 x3 x5 x6 x7 r n 6 hA (ldCol_apply x1 3072 6 rfl _ r) (ldCol_apply x2 3072 6 rfl _ r)
      (ldCol_apply x3 3072 6 rfl _ r) hw1 hw2 hw3 hb (fun k => ldRow_apply x7 3072 6 rfl _ k n)
  · exact path_term _ _ _ _ _ _ _ _ _ x0 x1 x2 x3 x5 x6 x7 r n 7 hA (ldCol_apply x1 3584 7 rfl _ r) (ldCol_apply x2 3584 7 rfl _ r)
      (ldCol_apply x3 3584 7 rfl _ r) hw1 hw2 hw3 hb (fun k => ldRow_apply x7 3584 7 rfl _ k n)
  · exact path_term _ _ _ _ _ _ _ _ _ x0 x1 x2 x3 x5 x6 x7 r n 8 hA (ldCol_apply x1 4096 8 rfl _ r) (ldCol_apply x2 4096 8 rfl _ r)
      (ldCol_apply x3 4096 8 rfl _ r) hw1 hw2 hw3 hb (fun k => ldRow_apply x7 4096 8 rfl _ k n)
  · exact path_term _ _ _ _ _ _ _ _ _ x0 x1 x2 x3 x5 x6 x7 r n 9 hA (ldCol_apply x1 4608 9 rfl _ r) (ldCol_apply x2 4608 9 rfl _ r)
      (ldCol_apply x3 4608 9 rfl _ r) hw1 hw2 hw3 hb (fun k => ldRow_apply x7 4608 9 rfl _ k n)
  · rw [View.ld_unit_zero hz1]

end Cert.KernelIdeal.PayLogits

end
-- ==== Proof.KernelArr.lean ====
/-
  The four result arrays of the region, as functions of the arrays the region finds.

  The grid has 32 points; point t works on rows 128·t … 128·t + 127 of every row-blocked array and on the whole of the
  two weight matrices and the two biases. What a point writes back is therefore rows 128·t … of one function of the
  whole arrays (the specification's score and weighted accumulation read at the global row), every row lies in the
  block of point row / 128, and so each result array ends as that function. The scores are then cut to their first
  ten columns by the host.
-/
import proofs.«401056_j82952998355466_3_alg».proof.Proof.Gen.KernelIdeal.Frame
import proofs.«401056_j82952998355466_3_alg».proof.Proof.Spec
import proofs.«401056_j82952998355466_3_alg».proof.Proof.PayPick
import proofs.«401056_j82952998355466_3_alg».proof.Proof.PayLogits
import Idealize.ShloMosaic.Lib.Pipeline.Value
import Idealize.ShloMosaic.Lib.StableHlo.Run
import Idealize.ShloMosaic.Lib.ValueIdx

noncomputable section

namespace Cert.KernelIdeal.KArr

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.PathMlp

variable (m : (ℓ : Loc nD τ sig) → Buf (Elt Ideal) ℓ) (ρ : Dev nD → PrngReg)

/-- The printed index maps over the grid: a row-blocked window is at block (t, 0), a whole-array window at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

theorem lt32 (t : Fin cfg0.N) : t.val < 32 := lt_of_lt_of_eq t.isLt N_0

/-- The global row of local row r of the block of point t. -/
def row (t : Fin cfg0.N) (r : Fin 128) : Fin 4096 := ⟨t.val * 128 + r.val, by have := lt32 t; have := r.isLt; omega⟩

/-! ## The input blocks read off the whole arrays -/

/-- Local entry (r, k) of window 0's block at point t is entry (128·t + r, k) of its array. -/
theorem blk0 (c : Dev nD) (t : Fin cfg0.N) (r : Fin 128) (k : Fin 512) :
    iblk m c 0 t (ix2 r k) = (V m c main_arg0 : S4096x512.Idx → _) (ix2 (row t r) k) := by
  have e : ((cfg0.win 0).blk t).view.emb (ix2 r k) = ix2 (row t r) k := by
    obtain ⟨f0a, f0b, f1a, f1b, f2a, f2b, f3a, f3b, f4a, f4b, -⟩ := idx_facts t
    funext a; apply Fin.ext
    match a with
    | ⟨0, _⟩ => show win0_0.index t (0 : Fin 2) * 128 + 1 * r.val = t.val * 128 + r.val; omega
    | ⟨1, _⟩ => show win0_0.index t (1 : Fin 2) * 512 + 1 * k.val = k.val; omega
  show V m c main_arg0 (((cfg0.win 0).blk t).view.emb (ix2 r k)) = _
  rw [e]

/-- Local entry (r, k) of window 1's block at point t is entry (128·t + r, k) of its array. -/
theorem blk1 (c : Dev nD) (t : Fin cfg0.N) (r : Fin 128) (k : Fin 5120) :
    iblk m c 1 t (ix2 r k) = (V m c main_v2 : S4096x5120.Idx → _) (ix2 (row t r) k) := by
  have e : ((cfg0.win 1).blk t).view.emb (ix2 r k) = ix2 (row t r) k := by
    obtain ⟨f0a, f0b, f1a, f1b, f2a, f2b, f3a, f3b, f4a, f4b, -⟩ := idx_facts t
    funext a; apply Fin.ext
    match a with
    | ⟨0, _⟩ => show win0_1.index t (0 : Fin 2) * 128 + 1 * r.val = t.val * 128 + r.val; omega
    | ⟨1, _⟩ => show win0_1.index t (1 : Fin 2) * 5120 + 1 * k.val = k.val; omega
  show V m c main_v2 (((cfg0.win 1).blk t).view.emb (ix2 r k)) = _
  rw [e]

/-- Local entry (r, k) of window 2's block at point t is entry (128·t + r, k) of its array. -/
theorem blk2 (c : Dev nD) (t : Fin cfg0.N) (r : Fin 128) (k : Fin 5120) :
    iblk m c 2 t (ix2 r k) = (V m c main_v3 : S4096x5120.Idx → _) (ix2 (row t r) k) := by
  have e : ((cfg0.win 2).blk t).view.emb (ix2 r k) = ix2 (row t r) k := by
    obtain ⟨f0a, f0b, f1a, f1b, f2a, f2b, f3a, f3b, f4a, f4b, -⟩ := idx_facts t
    funext a; apply Fin.ext
    match a with
    | ⟨0, _⟩ => show win0_2.index t (0 : Fin 2) * 128 + 1 * r.val = t.val * 128 + r.val; omega
    | ⟨1, _⟩ => show win0_2.index t (1 : Fin 2) * 5120 + 1 * k.val = k.val; omega
  show V m c main_v3 (((cfg0.win 2).blk t).view.emb (ix2 r k)) = _
  rw [e]

/-- Local entry (r, k) of window 3's block at point t is entry (128·t + r, k) of its array. -/
theorem blk3 (c : Dev nD) (t : Fin cfg0.N) (r : Fin 128) (k : Fin 5120) :
    iblk m c 3 t (ix2 r k) = (V m c main_v4 : S4096x5120.Idx → _) (ix2 (row t r) k) := by
  have e : ((cfg0.win 3).blk t).view.emb (ix2 r k) = ix2 (row t r) k := by
    obtain ⟨f0a, f0b, f1a, f1b, f2a, f2b, f3a, f3b, f4a, f4b, -⟩ := idx_facts t
    funext a; apply Fin.ext
    match a with
    | ⟨0, _⟩ => show win0_3.index t (0 : Fin 2) * 128 + 1 * r.val = t.val * 128 + r.val; omega
    | ⟨1, _⟩ => show win0_3.index t (1 : Fin 2) * 5120 + 1 * k.val = k.val; omega
  show V m c main_v4 (((cfg0.win 3).blk t).view.emb (ix2 r k)) = _
  rw [e]

/-- Local entry (r, k) of window 4's block at point t is entry (128·t + r, k) of its array. -/
theorem blk4 (c : Dev nD) (t : Fin cfg0.N) (r : Fin 128) (k : Fin 10) :
    iblk m c 4 t (ix2 r k) = (V m c main_v1 : S4096x10.Idx → _) (ix2 (row t r) k) := by
  have e : ((cfg0.win 4).blk t).view.emb (ix2 r k) = ix2 (row t r) k := by
    obtain ⟨f0a, f0b, f1a, f1b, f2a, f2b, f3a, f3b, f4a, f4b, -⟩ := idx_facts t
    funext a; apply Fin.ext
    match a with
    | ⟨0, _⟩ => show win0_4.index t (0 : Fin 2) * 128 + 1 * r.val = t.val * 128 + r.val; omega
    | ⟨1, _⟩ => show win0_4.index t (1 : Fin 2) * 10 + 1 * k.val = k.val; omega
  show V m c main_v1 (((cfg0.win 4).blk t).view.emb (ix2 r k)) = _
  rw [e]

/-- Window 5's block at every point is its whole array. -/
theorem blk5 (c : Dev nD) (t : Fin cfg0.N) : iblk m c 5 t = (V m c main_v5 : S2048x512.Idx → _) := by
  funext y
  have e : ((cfg0.win 5).blk t).view.emb y = y := by
    obtain ⟨-, -, -, -, -, -, -, -, -, -, f5a, f5b, f6, f7a, f7b, f8, -⟩ := idx_facts t
    funext a; apply Fin.ext
    match a with
    | ⟨0, _⟩ => show win0_5.index t (0 : Fin 2) * 2048 + 1 * (y 0).val = (y 0).val; omega
    | ⟨1, _⟩ => show win0_5.index t (1 : Fin 2) * 512 + 1 * (y 1).val = (y 1).val; omega
  show V m c main_v5 (((cfg0.win 5).blk t).view.emb y) = _
  rw [e]

/-- Window 7's block at every point is its whole array. -/
theorem blk7 (c : Dev nD) (t : Fin cfg0.N) : iblk m c 7 t = (V m c main_v8 : S5120x128.Idx → _) := by
  funext y
  have e : ((cfg0.win 7).blk t).view.emb y = y := by
    obtain ⟨-, -, -, -, -, -, -, -, -, -, f5a, f5b, f6, f7a, f7b, f8, -⟩ := idx_facts t
    funext a; apply Fin.ext
    match a with
    | ⟨0, _⟩ => show win0_7.index t (0 : Fin 2) * 5120 + 1 * (y 0).val = (y 0).val; omega
    | ⟨1, _⟩ => show win0_7.index t (1 : Fin 2) * 128 + 1 * (y 1).val = (y 1).val; omega
  show V m c main_v8 (((cfg0.win 7).blk t).view.emb y) = _
  rw [e]

/-- Window 6's block at every point is its whole array. -/
theorem blk6 (c : Dev nD) (t : Fin cfg0.N) : iblk m c 6 t = (V m c main_arg6 : S512.Idx → _) := by
  funext y
  have e : ((cfg0.win 6).blk t).view.emb y = y := by
    obtain ⟨-, -, -, -, -, -, -, -, -, -, f5a, f5b, f6, f7a, f7b, f8, -⟩ := idx_facts t
    funext a; apply Fin.ext
    match a with
    | ⟨0, _⟩ => show win0_6.index t (0 : Fin 1) * 512 + 1 * (y 0).val = (y 0).val; omega
  show V m c main_arg6 (((cfg0.win 6).blk t).view.emb y) = _
  rw [e]

/-- Window 8's block at every point is its whole array. -/
theorem blk8 (c : Dev nD) (t : Fin cfg0.N) : iblk m c 8 t = (V m c main_v7 : S128.Idx → _) := by
  funext y
  have e : ((cfg0.win 8).blk t).view.emb y = y := by
    obtain ⟨-, -, -, -, -, -, -, -, -, -, f5a, f5b, f6, f7a, f7b, f8, -⟩ := idx_facts t
    funext a; apply Fin.ext
    match a with
    | ⟨0, _⟩ => show win0_8.index t (0 : Fin 1) * 128 + 1 * (y 0).val = (y 0).val; omega
  show V m c main_v7 (((cfg0.win 8).blk t).view.emb y) = _
  rw [e]

/-! ## What the region leaves in each result array -/

/-- The padded score array: the specification's score of the whole arrays, at every row and each of the 128 columns. -/
def G9 (c : Dev nD) : S4096x128.Idx → EReal := fun i =>
  logit (φ := .bf16) (φ' := .bf16) (V m c main_arg0) (V m c main_v2) (V m c main_v3) (V m c main_v4) (V m c main_v5)
    (V m c main_arg6) (V m c main_v8) (V m c main_v7) (⟨(i 0).val, (i 0).isLt⟩ : Fin 4096) (⟨(i 1).val, (i 1).isLt⟩ : Fin 128)

/-- The three selected-row arrays: the weighted accumulation of the one-hot table with a flattened context array. -/
def G10 (c : Dev nD) : S4096x512.Idx → EReal := fun i =>
  pick (V m c main_v1) (V m c main_v2) (⟨(i 0).val, (i 0).isLt⟩ : Fin 4096) (⟨(i 1).val, (i 1).isLt⟩ : Fin 512)
def G11 (c : Dev nD) : S4096x512.Idx → EReal := fun i =>
  pick (V m c main_v1) (V m c main_v3) (⟨(i 0).val, (i 0).isLt⟩ : Fin 4096) (⟨(i 1).val, (i 1).isLt⟩ : Fin 512)
def G12 (c : Dev nD) : S4096x512.Idx → EReal := fun i =>
  pick (V m c main_v1) (V m c main_v4) (⟨(i 0).val, (i 0).isLt⟩ : Fin 4096) (⟨(i 1).val, (i 1).isLt⟩ : Fin 512)

/-- Local entry (r, k) of result window 9's block at point t is entry (128·t + r, k) of its array. -/
theorem emb9 (t : Fin cfg0.N) (r : Fin 128) (k : Fin 128) :
    ((cfg0.win 9).blk t).view.emb (ix2 r k) = (ix2 (row t r) k : S4096x128.Idx) := by
  obtain ⟨-, -, -, -, -, -, -, -, -, -, -, -, -, -, -, -, f9a, f9b, f10a, f10b, f11a, f11b, f12a, f12b⟩ := idx_facts t
  funext a; apply Fin.ext
  match a with
  | ⟨0, _⟩ => show win0_9.index t (0 : Fin 2) * 128 + 1 * r.val = t.val * 128 + r.val; omega
  | ⟨1, _⟩ => show win0_9.index t (1 : Fin 2) * 128 + 1 * k.val = k.val; omega

/-- An index of the array is in point t's block iff each coordinate is in the block's range on its axis. -/
theorem mem_blk9 (t : Fin cfg0.N) (i : S4096x128.Idx) :
    i ∈ ((cfg0.win 9).blk t).view.set ↔ ∀ a : Fin 2, win0_9.index t a * S128x128.size a ≤ (i a).val ∧ (i a).val < win0_9.index t a * S128x128.size a + S128x128.size a := by
  show i ∈ ((View.whole main_v9_0).slice (win0_9.rect t)).set ↔ _
  rw [View.set_slice_whole, Rect.mem_set_unit]
  exact Iff.rfl

/-- Every index of the array lies in the block of the point its row number divided by 128 names. -/
theorem cover9 (i : S4096x128.Idx) : ∃ t : Fin cfg0.N, (cfg0.win 9).flush t = true ∧ i ∈ ((cfg0.win 9).blk t).view.set := by
  have hi0 : (i 0).val < 4096 := (i 0).isLt
  have hi1 : (i 1).val < 128 := (i 1).isLt
  have ht : (i 0).val / 128 < cfg0.N := by rw [show cfg0.N = 32 from N_0]; omega
  refine ⟨⟨(i 0).val / 128, ht⟩, flush0_9 _, ?_⟩
  rw [mem_blk9]
  obtain ⟨-, -, -, -, -, -, -, -, -, -, -, -, -, -, -, -, f9a, f9b, f10a, f10b, f11a, f11b, f12a, f12b⟩ := idx_facts ⟨(i 0).val / 128, ht⟩
  intro a
  match a with
  | ⟨0, _⟩ =>
    show win0_9.index ⟨(i 0).val / 128, ht⟩ (0 : Fin 2) * 128 ≤ (i 0).val ∧ (i 0).val < win0_9.index ⟨(i 0).val / 128, ht⟩ (0 : Fin 2) * 128 + 128
    rw [f9a]
    show (i 0).val / 128 * 128 ≤ (i 0).val ∧ (i 0).val < (i 0).val / 128 * 128 + 128
    omega
  | ⟨1, _⟩ =>
    show win0_9.index ⟨(i 0).val / 128, ht⟩ (1 : Fin 2) * 128 ≤ (i 1).val ∧ (i 1).val < win0_9.index ⟨(i 0).val / 128, ht⟩ (1 : Fin 2) * 128 + 128
    rw [f9b]
    omega

/-- Local entry (r, k) of result window 10's block at point t is entry (128·t + r, k) of its array. -/
theorem emb10 (t : Fin cfg0.N) (r : Fin 128) (k : Fin 512) :
    ((cfg0.win 10).blk t).view.emb (ix2 r k) = (ix2 (row t r) k : S4096x512.Idx) := by
  obtain ⟨-, -, -, -, -, -, -, -, -, -, -, -, -, -, -, -, f9a, f9b, f10a, f10b, f11a, f11b, f12a, f12b⟩ := idx_facts t
  funext a; apply Fin.ext
  match a with
  | ⟨0, _⟩ => show win0_10.index t (0 : Fin 2) * 128 + 1 * r.val = t.val * 128 + r.val; omega
  | ⟨1, _⟩ => show win0_10.index t (1 : Fin 2) * 512 + 1 * k.val = k.val; omega

/-- An index of the array is in point t's block iff each coordinate is in the block's range on its axis. -/
theorem mem_blk10 (t : Fin cfg0.N) (i : S4096x512.Idx) :
    i ∈ ((cfg0.win 10).blk t).view.set ↔ ∀ a : Fin 2, win0_10.index t a * S128x512.size a ≤ (i a).val ∧ (i a).val < win0_10.index t a * S128x512.size a + S128x512.size a := by
  show i ∈ ((View.whole main_v9_1).slice (win0_10.rect t)).set ↔ _
  rw [View.set_slice_whole, Rect.mem_set_unit]
  exact Iff.rfl

/-- Every index of the array lies in the block of the point its row number divided by 128 names. -/
theorem cover10 (i : S4096x512.Idx) : ∃ t : Fin cfg0.N, (cfg0.win 10).flush t = true ∧ i ∈ ((cfg0.win 10).blk t).view.set := by
  have hi0 : (i 0).val < 4096 := (i 0).isLt
  have hi1 : (i 1).val < 512 := (i 1).isLt
  have ht : (i 0).val / 128 < cfg0.N := by rw [show cfg0.N = 32 from N_0]; omega
  refine ⟨⟨(i 0).val / 128, ht⟩, flush0_10 _, ?_⟩
  rw [mem_blk10]
  obtain ⟨-, -, -, -, -, -, -, -, -, -, -, -, -, -, -, -, f9a, f9b, f10a, f10b, f11a, f11b, f12a, f12b⟩ := idx_facts ⟨(i 0).val / 128, ht⟩
  intro a
  match a with
  | ⟨0, _⟩ =>
    show win0_10.index ⟨(i 0).val / 128, ht⟩ (0 : Fin 2) * 128 ≤ (i 0).val ∧ (i 0).val < win0_10.index ⟨(i 0).val / 128, ht⟩ (0 : Fin 2) * 128 + 128
    rw [f10a]
    show (i 0).val / 128 * 128 ≤ (i 0).val ∧ (i 0).val < (i 0).val / 128 * 128 + 128
    omega
  | ⟨1, _⟩ =>
    show win0_10.index ⟨(i 0).val / 128, ht⟩ (1 : Fin 2) * 512 ≤ (i 1).val ∧ (i 1).val < win0_10.index ⟨(i 0).val / 128, ht⟩ (1 : Fin 2) * 512 + 512
    rw [f10b]
    omega

/-- Local entry (r, k) of result window 11's block at point t is entry (128·t + r, k) of its array. -/
theorem emb11 (t : Fin cfg0.N) (r : Fin 128) (k : Fin 512) :
    ((cfg0.win 11).blk t).view.emb (ix2 r k) = (ix2 (row t r) k : S4096x512.Idx) := by
  obtain ⟨-, -, -, -, -, -, -, -, -, -, -, -, -, -, -, -, f9a, f9b, f10a, f10b, f11a, f11b, f12a, f12b⟩ := idx_facts t
  funext a; apply Fin.ext
  match a with
  | ⟨0, _⟩ => show win0_11.index t (0 : Fin 2) * 128 + 1 * r.val = t.val * 128 + r.val; omega
  | ⟨1, _⟩ => show win0_11.index t (1 : Fin 2) * 512 + 1 * k.val = k.val; omega

/-- An index of the array is in point t's block iff each coordinate is in the block's range on its axis. -/
theorem mem_blk11 (t : Fin cfg0.N) (i : S4096x512.Idx) :
    i ∈ ((cfg0.win 11).blk t).view.set ↔ ∀ a : Fin 2, win0_11.index t a * S128x512.size a ≤ (i a).val ∧ (i a).val < win0_11.index t a * S128x512.size a + S128x512.size a := by
  show i ∈ ((View.whole main_v9_2).slice (win0_11.rect t)).set ↔ _
  rw [View.set_slice_whole, Rect.mem_set_unit]
  exact Iff.rfl

/-- Every index of the array lies in the block of the point its row number divided by 128 names. -/
theorem cover11 (i : S4096x512.Idx) : ∃ t : Fin cfg0.N, (cfg0.win 11).flush t = true ∧ i ∈ ((cfg0.win 11).blk t).view.set := by
  have hi0 : (i 0).val < 4096 := (i 0).isLt
  have hi1 : (i 1).val < 512 := (i 1).isLt
  have ht : (i 0).val / 128 < cfg0.N := by rw [show cfg0.N = 32 from N_0]; omega
  refine ⟨⟨(i 0).val / 128, ht⟩, flush0_11 _, ?_⟩
  rw [mem_blk11]
  obtain ⟨-, -, -, -, -, -, -, -, -, -, -, -, -, -, -, -, f9a, f9b, f10a, f10b, f11a, f11b, f12a, f12b⟩ := idx_facts ⟨(i 0).val / 128, ht⟩
  intro a
  match a with
  | ⟨0, _⟩ =>
    show win0_11.index ⟨(i 0).val / 128, ht⟩ (0 : Fin 2) * 128 ≤ (i 0).val ∧ (i 0).val < win0_11.index ⟨(i 0).val / 128, ht⟩ (0 : Fin 2) * 128 + 128
    rw [f11a]
    show (i 0).val / 128 * 128 ≤ (i 0).val ∧ (i 0).val < (i 0).val / 128 * 128 + 128
    omega
  | ⟨1, _⟩ =>
    show win0_11.index ⟨(i 0).val / 128, ht⟩ (1 : Fin 2) * 512 ≤ (i 1).val ∧ (i 1).val < win0_11.index ⟨(i 0).val / 128, ht⟩ (1 : Fin 2) * 512 + 512
    rw [f11b]
    omega

/-- Local entry (r, k) of result window 12's block at point t is entry (128·t + r, k) of its array. -/
theorem emb12 (t : Fin cfg0.N) (r : Fin 128) (k : Fin 512) :
    ((cfg0.win 12).blk t).view.emb (ix2 r k) = (ix2 (row t r) k : S4096x512.Idx) := by
  obtain ⟨-, -, -, -, -, -, -, -, -, -, -, -, -, -, -, -, f9a, f9b, f10a, f10b, f11a, f11b, f12a, f12b⟩ := idx_facts t
  funext a; apply Fin.ext
  match a with
  | ⟨0, _⟩ => show win0_12.index t (0 : Fin 2) * 128 + 1 * r.val = t.val * 128 + r.val; omega
  | ⟨1, _⟩ => show win0_12.index t (1 : Fin 2) * 512 + 1 * k.val = k.val; omega

/-- An index of the array is in point t's block iff each coordinate is in the block's range on its axis. -/
theorem mem_blk12 (t : Fin cfg0.N) (i : S4096x512.Idx) :
    i ∈ ((cfg0.win 12).blk t).view.set ↔ ∀ a : Fin 2, win0_12.index t a * S128x512.size a ≤ (i a).val ∧ (i a).val < win0_12.index t a * S128x512.size a + S128x512.size a := by
  show i ∈ ((View.whole main_v9_3).slice (win0_12.rect t)).set ↔ _
  rw [View.set_slice_whole, Rect.mem_set_unit]
  exact Iff.rfl

/-- Every index of the array lies in the block of the point its row number divided by 128 names. -/
theorem cover12 (i : S4096x512.Idx) : ∃ t : Fin cfg0.N, (cfg0.win 12).flush t = true ∧ i ∈ ((cfg0.win 12).blk t).view.set := by
  have hi0 : (i 0).val < 4096 := (i 0).isLt
  have hi1 : (i 1).val < 512 := (i 1).isLt
  have ht : (i 0).val / 128 < cfg0.N := by rw [show cfg0.N = 32 from N_0]; omega
  refine ⟨⟨(i 0).val / 128, ht⟩, flush0_12 _, ?_⟩
  rw [mem_blk12]
  obtain ⟨-, -, -, -, -, -, -, -, -, -, -, -, -, -, -, -, f9a, f9b, f10a, f10b, f11a, f11b, f12a, f12b⟩ := idx_facts ⟨(i 0).val / 128, ht⟩
  intro a
  match a with
  | ⟨0, _⟩ =>
    show win0_12.index ⟨(i 0).val / 128, ht⟩ (0 : Fin 2) * 128 ≤ (i 0).val ∧ (i 0).val < win0_12.index ⟨(i 0).val / 128, ht⟩ (0 : Fin 2) * 128 + 128
    rw [f12a]
    show (i 0).val / 128 * 128 ≤ (i 0).val ∧ (i 0).val < (i 0).val / 128 * 128 + 128
    omega
  | ⟨1, _⟩ =>
    show win0_12.index ⟨(i 0).val / 128, ht⟩ (1 : Fin 2) * 512 ≤ (i 1).val ∧ (i 1).val < win0_12.index ⟨(i 0).val / 128, ht⟩ (1 : Fin 2) * 512 + 512
    rw [f12b]
    omega

/-- What point t writes back of the scores is rows 128·t … of the padded score array. -/
theorem flushed9 (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  funext j
  obtain ⟨r, n, rfl⟩ : ∃ (r : Fin 128) (n : Fin 128), j = ix2 r n := ⟨j 0, j 1, eq_ix2 j⟩
  show out0_9 (iblk m c 0 t) (iblk m c 1 t) (iblk m c 2 t) (iblk m c 3 t) (iblk m c 4 t) (iblk m c 5 t) (iblk m c 6 t) (iblk m c 7 t) (iblk m c 8 t) (ix2 r n)
      = G9 m c (((cfg0.win 9).blk t).view.emb (ix2 r n))
  rw [emb9 t r n]
  refine (Cert.KernelIdeal.PayLogits.out0_9_apply (iblk m c 0 t) (iblk m c 1 t) (iblk m c 2 t) (iblk m c 3 t) (iblk m c 4 t) (iblk m c 5 t) (iblk m c 6 t) (iblk m c 7 t) (iblk m c 8 t) r n).trans ?_
  show _ = logit (φ := .bf16) (φ' := .bf16) (V m c main_arg0) (V m c main_v2) (V m c main_v3) (V m c main_v4) (V m c main_v5)
    (V m c main_arg6) (V m c main_v8) (V m c main_v7) (row t r) n
  rw [blk5 m c t, blk6 m c t, blk7 m c t, blk8 m c t]
  unfold logit hid
  simp only [blk0 m c t r, blk1 m c t r, blk2 m c t r, blk3 m c t r]

/-- What point t writes back of result 1 is rows 128·t … of its selected-row array. -/
theorem flushed10 (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  funext j
  obtain ⟨r, e, rfl⟩ : ∃ (r : Fin 128) (e : Fin 512), j = ix2 r e := ⟨j 0, j 1, eq_ix2 j⟩
  show out0_10 (iblk m c 0 t) (iblk m c 1 t) (iblk m c 2 t) (iblk m c 3 t) (iblk m c 4 t) (iblk m c 5 t) (iblk m c 6 t) (iblk m c 7 t) (iblk m c 8 t) (ix2 r e)
      = G10 m c (((cfg0.win 10).blk t).view.emb (ix2 r e))
  rw [emb10 t r e]
  refine (Cert.KernelIdeal.PayPick.out0_10_apply (iblk m c 0 t) (iblk m c 1 t) (iblk m c 2 t) (iblk m c 3 t) (iblk m c 4 t) (iblk m c 5 t) (iblk m c 6 t) (iblk m c 7 t) (iblk m c 8 t) r e).trans ?_
  show _ = pick (V m c main_v1) (V m c main_v2) (row t r) e
  unfold pick
  simp only [blk4 m c t r, blk1 m c t r]

/-- What point t writes back of result 2 is rows 128·t … of its selected-row array. -/
theorem flushed11 (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  funext j
  obtain ⟨r, e, rfl⟩ : ∃ (r : Fin 128) (e : Fin 512), j = ix2 r e := ⟨j 0, j 1, eq_ix2 j⟩
  show out0_11 (iblk m c 0 t) (iblk m c 1 t) (iblk m c 2 t) (iblk m c 3 t) (iblk m c 4 t) (iblk m c 5 t) (iblk m c 6 t) (iblk m c 7 t) (iblk m c 8 t) (ix2 r e)
      = G11 m c (((cfg0.win 11).blk t).view.emb (ix2 r e))
  rw [emb11 t r e]
  refine (Cert.KernelIdeal.PayPick.out0_11_apply (iblk m c 0 t) (iblk m c 1 t) (iblk m c 2 t) (iblk m c 3 t) (iblk m c 4 t) (iblk m c 5 t) (iblk m c 6 t) (iblk m c 7 t) (iblk m c 8 t) r e).trans ?_
  show _ = pick (V m c main_v1) (V m c main_v3) (row t r) e
  unfold pick
  simp only [blk4 m c t r, blk2 m c t r]

/-- What point t writes back of result 3 is rows 128·t … of its selected-row array. -/
theorem flushed12 (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  funext j
  obtain ⟨r, e, rfl⟩ : ∃ (r : Fin 128) (e : Fin 512), j = ix2 r e := ⟨j 0, j 1, eq_ix2 j⟩
  show out0_12 (iblk m c 0 t) (iblk m c 1 t) (iblk m c 2 t) (iblk m c 3 t) (iblk m c 4 t) (iblk m c 5 t) (iblk m c 6 t) (iblk m c 7 t) (iblk m c 8 t) (ix2 r e)
      = G12 m c (((cfg0.win 12).blk t).view.emb (ix2 r e))
  rw [emb12 t r e]
  refine (Cert.KernelIdeal.PayPick.out0_12_apply (iblk m c 0 t) (iblk m c 1 t) (iblk m c 2 t) (iblk m c 3 t) (iblk m c 4 t) (iblk m c 5 t) (iblk m c 6 t) (iblk m c 7 t) (iblk m c 8 t) r e).trans ?_
  show _ = pick (V m c main_v1) (V m c main_v4) (row t r) e
  unfold pick
  simp only [blk4 m c t r, blk3 m c t r]

/-- Each result array after the region is its function of the arrays the region found. -/
theorem final9 (c : Dev nD) : (dats m 0 c).arrAt 9 cfg0.N = G9 m c :=
  (dats m 0 c).arrAt_eq_of_cover 9 (G9 m c) (fun t _ => flushed9 m c t) cover9
theorem final10 (c : Dev nD) : (dats m 0 c).arrAt 10 cfg0.N = G10 m c :=
  (dats m 0 c).arrAt_eq_of_cover 10 (G10 m c) (fun t _ => flushed10 m c t) cover10
theorem final11 (c : Dev nD) : (dats m 0 c).arrAt 11 cfg0.N = G11 m c :=
  (dats m 0 c).arrAt_eq_of_cover 11 (G11 m c) (fun t _ => flushed11 m c t) cover11
theorem final12 (c : Dev nD) : (dats m 0 c).arrAt 12 cfg0.N = G12 m c :=
  (dats m 0 c).arrAt_eq_of_cover 12 (G12 m c) (fun t _ => flushed12 m c t) cover12

/-! ## The host's cut, and the run -/

/-- After the region the host cuts the padded scores to their first ten columns. -/
theorem tail10 (c : Dev nD) :
    Pipeline.afterTail₀ cfgs (dats m) 0 (V0 m) [hostOps1] c main_v10
      = extractStridedSlice S4096x10 ![0, 0] (G9 m c) slices_S4096x128_S4096x10_0_0 := by
  unfold Pipeline.afterTail₀
  show StableHlo.after hostOps1 _ (Proc.devRef .tc main_v10) = _
  after_results
  exact congrArg (fun x => extractStridedSlice S4096x10 ![0, 0] x slices_S4096x128_S4096x10_0_0)
    ((Pipeline.withArrays_arr spec0 launch0.win.arr_inj c (V0 m c) (fun w => (dats m 0 c).arrAt w cfg0.N) 9).trans (final9 m c))

/-- Every weakly fair execution of the program terminates with the cut scores and the three selected-row arrays at
    their functions of the arrays the region found, and the arguments unchanged. -/
theorem run : θ_run defs (onTc (τ := τ) (main (F := Ideal))) ⟨m, fun _ => 0, ρ⟩ fun r => ∀ c : Dev nD,
      r.2.mem ((c.tc : Thread nD τ).loc main_v10) = extractStridedSlice S4096x10 ![0, 0] (G9 m c) slices_S4096x128_S4096x10_0_0
      ∧ r.2.mem ((c.tc : Thread nD τ).loc main_v9_1) = G10 m c
      ∧ r.2.mem ((c.tc : Thread nD τ).loc main_v9_2) = G11 m c
      ∧ r.2.mem ((c.tc : Thread nD τ).loc main_v9_3) = G12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨((h c).2 main_v10 (Pipeline.mem_restRefs_of main_v10 (by decide) (by decide))).trans (tail10 m c),
      ((h c).1 10).trans (final10 m c),
      ((h c).1 11).trans (final11 m c),
      ((h c).1 12).trans (final12 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KArr

end
-- ==== Proof.KernelHost.lean ====
/-
  The arrays the region finds, as functions of the arguments.

  Before the region the program computes the arg-max word of every label row and the one-hot table of those words
  (entry (b, p) is one where the word of row b equals p, else zero), flattens the three context tensors to
  [4096, 5120], narrows the first weight matrix (the identity on extended reals), and pads the second weight matrix
  and its bias with zero columns up to width 128 before narrowing. Each of these arrays is read here at an entry.
-/
import proofs.«401056_j82952998355466_3_alg».proof.Proof.Gen.KernelIdeal.Frame
import proofs.«401056_j82952998355466_3_alg».proof.Proof.Spec
import Idealize.ShloMosaic.Lib.StableHlo.Run
import Idealize.ShloMosaic.Lib.Pipeline.Value
import Idealize.ShloMosaic.Lib.ValueIdx
import Idealize.ShloMosaic.Lib.IdealHost
import Idealize.ShloMosaic.Lib.KernelVsHost

noncomputable section

namespace Cert.KernelIdeal.KHost

open Idealize.ShloMosaic Idealize.ShloMosaic.TcCoe Idealize.SL.Sem Idealize.ShloMosaic.StableHlo Idealize.ShloMosaic.ValueIdx
open Cert.KernelIdeal Cert.KernelIdeal.Gen Cert.PathMlp

variable (m : (ℓ : Loc nD τ sig) → Buf (Elt Ideal) ℓ)

/-- The arg-max words of a label table: the index component of the two-operand reduction over each row. -/
def amax (a4 : IVec S4096x10 32) : IVec S4096 32 :=
  fun j => (Host.reduce2 reducer_argmax_i32_i32 a4 (iotaInDim S4096x10 32 1) (constantI S_ 32 2147483648#32)
    (constantI S_ 32 0#32) reducesTo_S4096x10_S4096_d1 h_S_ j).2

/-- The one-hot table of a vector of words: the word of row b compared with the column number, as a float. -/
def onehot (idx : IVec S4096 32) : FVec Ideal S4096x10 .f32 :=
  uitofp .f32 (cmpi .eq
    (broadcastInDim S4096x10 ![0, 1] bcast_S4096x1_S4096x10_0_1 (broadcastInDim S4096x1 ![0] bcast_S4096_S4096x1_0 idx))
    (broadcastInDim S4096x10 ![0, 1] bcast_S1x10_S4096x10_0_1 (iotaInDim S1x10 32 1)))

theorem V_v2 (c : Dev nD) :
    (V m c main_v2 : S4096x5120.Idx → EReal)
      = shapeCast S4096x5120 (m ((c : Thread nD τ).loc main_arg1)) shapeCasts_S4096x10x512_S4096x5120 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

attribute [local irreducible] Host.reduce2 in
theorem V_v1 (c : Dev nD) :
    (V m c main_v1 : S4096x10.Idx → EReal) = onehot (amax (m ((c : Thread nD τ).loc main_arg4))) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  unfold onehot amax
  rfl

theorem V_v3 (c : Dev nD) :
    (V m c main_v3 : S4096x5120.Idx → EReal)
      = shapeCast S4096x5120 (m ((c : Thread nD τ).loc main_arg2)) shapeCasts_S4096x10x512_S4096x5120 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_v4 (c : Dev nD) :
    (V m c main_v4 : S4096x5120.Idx → EReal)
      = shapeCast S4096x5120 (m ((c : Thread nD τ).loc main_arg3)) shapeCasts_S4096x10x512_S4096x5120 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_v5 (c : Dev nD) :
    (V m c main_v5 : S2048x512.Idx → EReal) = m ((c : Thread nD τ).loc main_arg5) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The padded second bias: the bias with 118 entries of the converted integer zero behind it. -/
theorem V_v7 (c : Dev nD) :
    (V m c main_v7 : S128.Idx → EReal)
      = pad S128 ![0] ![118] ![0] (m ((c : Thread nD τ).loc main_arg8)) (sitofp (F := Ideal) .f32 (constantI S_ 32 0#32))
          pads_S10_S128_01180 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The padded second weight matrix: 118 columns of the converted integer zero behind its ten columns. -/
theorem V_v8 (c : Dev nD) :
    (V m c main_v8 : S5120x128.Idx → EReal)
      = pad S5120x128 ![0, 0] ![0, 118] ![0, 0] (m ((c : Thread nD τ).loc main_arg7)) (sitofp (F := Ideal) .f32 (constantI S_ 32 0#32))
          pads_S5120x10_S5120x128_000_01180 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-! ## The same arrays read at an entry -/

/-- The flattening of a [4096, 10, 512] tensor puts entry (p, q) of row b at column 512·p + q. -/
theorem shapeCast_eq_unflat (x : FVec Ideal S4096x10x512 .f32) :
    shapeCast S4096x5120 x shapeCasts_S4096x10x512_S4096x5120 = unflat x := by
  funext j
  unfold unflat
  refine shapeCast_apply x _ j _ ?_
  rw [Shape.rowMajor_val_three, Shape.rowMajor_val_two]
  have h1 : (j 1).val < 5120 := (j 1).isLt
  show ((j 0).val * 10 + (j 1).val / 512) * 512 + (j 1).val % 512 = (j 0).val * 5120 + (j 1).val
  omega

/-- Entry (b, p) of the one-hot table: one where the word of row b is p, else zero. -/
theorem onehot_apply (idx : IVec S4096 32) (b : Fin 4096) (p : Fin 10) :
    onehot idx (ix2 b p) = if idx (ix1 b) = BitVec.ofNat 32 p.val then 1 else 0 := by
  unfold onehot
  show FloatOps.uitofp (F := Ideal) .f32 (IntOp.cmpi .eq _ _) = _
  rw [broadcastInDim_apply _ _ _ (ix2 b p) (ix2 b (0 : Fin 1)) (fun a => by
        match a with
        | ⟨0, _⟩ => rfl
        | ⟨1, _⟩ => rfl),
    broadcastInDim_apply _ _ _ (ix2 b (0 : Fin 1)) (ix1 b) (fun a => by
        match a with
        | ⟨0, _⟩ => rfl),
    broadcastInDim_apply _ _ _ (ix2 b p) (ix2 (0 : Fin 1) p) (fun a => by
        match a with
        | ⟨0, _⟩ => rfl
        | ⟨1, _⟩ => rfl)]
  rw [iotaInDim_apply]
  show FloatOps.uitofp (F := Ideal) .f32 (IntOp.cmpi .eq (idx (ix1 b)) (BitVec.ofNat 32 p.val)) = _
  by_cases h : idx (ix1 b) = BitVec.ofNat 32 p.val
  · rw [if_pos h, h]
    simp [IntOp.cmpi, FloatOps.uitofp]
  · rw [if_neg h]
    simp [IntOp.cmpi, FloatOps.uitofp, h]

end Cert.KernelIdeal.KHost

end
-- ==== Proof.Algebra.lean ====
/-
  Finite sums on the extended reals, re-bracketed. Addition of extended reals is commutative and associative with
  zero neutral (also at the infinities), so a sum over an axis of 2048 is the sum of its four stretches of 512,
  a sum over 5120 = 10 · 512 columns is the double sum over paths and entries, and ten terms added one after another
  onto zero are their sum. A weighted accumulation whose weights are one at a single path and zero elsewhere is the
  term of that path, since 0 · x = 0 and 1 · x = x for every extended real x.
-/
import proofs.«401056_j82952998355466_3_alg».proof.Proof.Spec
import Mathlib.Algebra.BigOperators.Fin
import Mathlib.Data.EReal.Basic

noncomputable section

namespace Cert.PathMlp

open scoped BigOperators

/-- Ten terms added one after another onto zero are their sum. -/
theorem nest10_eq_sum (t : Fin 10 → EReal) : nest10 t = ∑ p : Fin 10, t p := by
  unfold nest10
  simp only [Fin.sum_univ_castSucc, Fin.sum_univ_zero]
  rfl

/-- A sum over the 5120 merged columns is the double sum over the ten paths and the 512 entries of each. -/
theorem sum_flat (f : Fin 5120 → EReal) : ∑ j : Fin 5120, f j = ∑ p : Fin 10, ∑ k : Fin 512, f (flat p k) := by
  -- the pair (p, k) ↦ 512·p + k is a bijection of [10] × [512] onto [5120]
  have h : ∑ x : Fin 10 × Fin 512, f (flat x.1 x.2) = ∑ j : Fin 5120, f j := by
    refine Fintype.sum_equiv (finProdFinEquiv (m := 10) (n := 512)) (fun x => f (flat x.1 x.2)) f ?_
    intro x
    congr 1
    apply Fin.ext
    simp only [flat, finProdFinEquiv_apply_val]
    omega
  rw [← h, Fintype.sum_prod_type]

/-- A sum over an axis of 2048 is the sum of its four stretches of 512, added left to right. -/
theorem sum_four (f : Fin 2048 → EReal) :
    ∑ d : Fin 2048, f d
      = (∑ q : Fin 512, f (at512 0 (by omega) q)) + (∑ q : Fin 512, f (at512 512 (by omega) q))
        + (∑ q : Fin 512, f (at512 1024 (by omega) q)) + (∑ q : Fin 512, f (at512 1536 (by omega) q)) := by
  -- 2048 = 1536 + 512, 1536 = 1024 + 512, 1024 = 512 + 512
  have h1 : ∑ d : Fin 2048, f d
      = (∑ i : Fin 1536, f (Fin.castAdd 512 i)) + ∑ q : Fin 512, f (Fin.natAdd 1536 q) :=
    Fin.sum_univ_add (a := 1536) (b := 512) f
  have h2 : ∑ i : Fin 1536, f (Fin.castAdd 512 i)
      = (∑ i : Fin 1024, f (Fin.castAdd 512 (Fin.castAdd 512 i)))
        + ∑ q : Fin 512, f (Fin.castAdd 512 (Fin.natAdd 1024 q)) :=
    Fin.sum_univ_add (a := 1024) (b := 512) (fun i => f (Fin.castAdd 512 i))
  have h3 : ∑ i : Fin 1024, f (Fin.castAdd 512 (Fin.castAdd 512 i))
      = (∑ q : Fin 512, f (Fin.castAdd 512 (Fin.castAdd 512 (Fin.castAdd 512 q))))
        + ∑ q : Fin 512, f (Fin.castAdd 512 (Fin.castAdd 512 (Fin.natAdd 512 q))) :=
    Fin.sum_univ_add (a := 512) (b := 512) (fun i => f (Fin.castAdd 512 (Fin.castAdd 512 i)))
  rw [h1, h2, h3]
  have e0 : ∀ q : Fin 512, Fin.castAdd 512 (Fin.castAdd 512 (Fin.castAdd 512 q)) = at512 (N := 2048) 0 (by omega) q := by
    intro q; apply Fin.ext; simp [at512]
  have e1 : ∀ q : Fin 512, Fin.castAdd 512 (Fin.castAdd 512 (Fin.natAdd 512 q)) = at512 (N := 2048) 512 (by omega) q := by
    intro q; apply Fin.ext; simp [at512]; omega
  have e2 : ∀ q : Fin 512, Fin.castAdd 512 (Fin.natAdd 1024 q) = at512 (N := 2048) 1024 (by omega) q := by
    intro q; apply Fin.ext; simp [at512]
  have e3 : ∀ q : Fin 512, Fin.natAdd 1536 q = at512 (N := 2048) 1536 (by omega) q := by
    intro q; apply Fin.ext; simp [at512]
  simp only [e0, e1, e2, e3]

/-- With weights one at path s and zero at the others, the weighted accumulation is the term of path s. -/
theorem nest10_onehot (w x : Fin 10 → EReal) (s : Fin 10) (hw : ∀ p, w p = if p = s then 1 else 0) :
    nest10 (fun p => w p * x p) = x s := by
  rw [nest10_eq_sum]
  simp only [hw, ite_mul, one_mul, zero_mul]
  rw [Finset.sum_ite_eq']
  simp

end Cert.PathMlp

end
-- ==== Proof.KernelValue.lean ====
/-
  The program's four results as functions of its arguments.

  The arrays the region finds are the arguments themselves or plain re-layouts of them: the flattened context tensors,
  the first weight matrix narrowed (the identity on extended reals), the second weight matrix and its bias with zero
  columns behind their ten, and the one-hot table of the arg-max words. A score in one of the first ten columns reads
  only the unpadded part of the padded arrays, so the cut scores are the specification's scores of the arguments. A
  one-hot row is one at the path its word names and zero elsewhere, so the weighted accumulation over the ten paths is
  the context row of that path (0 · x = 0 and 1 · x = x for every extended real x).
-/
import proofs.«401056_j82952998355466_3_alg».proof.Proof.KernelArr
import proofs.«401056_j82952998355466_3_alg».proof.Proof.KernelHost
import proofs.«401056_j82952998355466_3_alg».proof.Proof.Algebra
import Idealize.ShloMosaic.Lib.KernelVsHost
import Idealize.ShloMosaic.Lib.ValueLayout

noncomputable section

namespace Cert.KernelIdeal.KValue

open Idealize.ShloMosaic Idealize.ShloMosaic.TcCoe Idealize.SL.Sem Idealize.ShloMosaic.ValueIdx
open Cert.KernelIdeal Cert.KernelIdeal.Gen Cert.PathMlp

variable (m : (ℓ : Loc nD τ sig) → Buf (Elt Ideal) ℓ) (ρ : Dev nD → PrngReg)

/-- The padded second weight matrix read in one of its first ten columns is the weight matrix there. -/
theorem padW2_apply (x : FVec Ideal S5120x10 .f32) (v : S_.Idx → EReal) (j : Fin 5120) (n : Fin 10) (n' : Fin 128)
    (hn : n'.val = n.val) :
    pad S5120x128 ![0, 0] ![0, 118] ![0, 0] x v pads_S5120x10_S5120x128_000_01180 h_S_ (ix2 j n') = x (ix2 j n) :=
  pad_apply_of_inside _ _ _ x v _ _ (ix2 j n') (ix2 j n) (fun a => by
    match a with
    | ⟨0, _⟩ => show j.val = 0 + j.val * (0 + 1); omega
    | ⟨1, _⟩ => show n'.val = 0 + n.val * (0 + 1); omega)

/-- The padded second bias read at one of its first ten entries is the bias there. -/
theorem padb2_apply (x : FVec Ideal S10 .f32) (v : S_.Idx → EReal) (n : Fin 10) (n' : Fin 128) (hn : n'.val = n.val) :
    pad S128 ![0] ![118] ![0] x v pads_S10_S128_01180 h_S_ (ix1 n') = x (ix1 n) :=
  pad_apply_of_inside _ _ _ x v _ _ (ix1 n') (ix1 n) (fun a => by
    match a with
    | ⟨0, _⟩ => show n'.val = 0 + n.val * (0 + 1); omega)

/-- The cut scores are the specification's scores of the arguments. -/
theorem scores_apply (c : Dev nD) (b : Fin 4096) (n : Fin 10) :
    extractStridedSlice S4096x10 ![0, 0] (KArr.G9 m c) slices_S4096x128_S4096x10_0_0 (ix2 b n)
      = logit (φ := .f32) (φ' := .f32) (m ((c.tc : Thread nD τ).loc main_arg0)) (unflat (m ((c.tc : Thread nD τ).loc main_arg1)))
          (unflat (m ((c.tc : Thread nD τ).loc main_arg2))) (unflat (m ((c.tc : Thread nD τ).loc main_arg3))) (m ((c.tc : Thread nD τ).loc main_arg5)) (m ((c.tc : Thread nD τ).loc main_arg6))
          (m ((c.tc : Thread nD τ).loc main_arg7)) (m ((c.tc : Thread nD τ).loc main_arg8)) b n := by
  have hn : n.val < 128 := by have := n.isLt; omega
  rw [slice2_axis1_apply 0 _ _ b n (⟨n.val, hn⟩ : Fin 128) (by simp)]
  unfold KArr.G9
  show logit (φ := .bf16) (φ' := .bf16) (V m c main_arg0) (V m c main_v2) (V m c main_v3) (V m c main_v4) (V m c main_v5)
    (V m c main_arg6) (V m c main_v8) (V m c main_v7) b (⟨n.val, hn⟩ : Fin 128) = _
  rw [V_main_arg0 m c, V_main_arg6 m c, KHost.V_v2 m c, KHost.V_v3 m c, KHost.V_v4 m c, KHost.V_v5 m c, KHost.V_v7 m c,
    KHost.V_v8 m c, KHost.shapeCast_eq_unflat, KHost.shapeCast_eq_unflat, KHost.shapeCast_eq_unflat]
  unfold logit
  rw [padb2_apply _ _ n ⟨n.val, hn⟩ rfl]
  simp only [padW2_apply _ _ _ n ⟨n.val, hn⟩ rfl]
  rfl

theorem toNat_ofNat_path (k : Fin 10) : (BitVec.ofNat 32 k.val).toNat = k.val := by
  rw [BitVec.toNat_ofNat]; exact Nat.mod_eq_of_lt (by have := k.isLt; omega)

/-- A one-hot row whose word names path s is one at s and zero at every other path. -/
theorem onehot_row (idx : IVec S4096 32) (b : Fin 4096) (s : Fin 10) (hs : idx (ix1 b) = BitVec.ofNat 32 s.val) (p : Fin 10) :
    KHost.onehot idx (ix2 b p) = if p = s then 1 else 0 := by
  rw [KHost.onehot_apply, hs]
  by_cases hp : p = s
  · rw [if_pos hp, if_pos (by rw [hp])]
  · rw [if_neg hp, if_neg (fun h => hp (Fin.ext (by
      have := congrArg BitVec.toNat h
      rw [toNat_ofNat_path, toNat_ofNat_path] at this
      exact this.symm)))]

/-- The weighted accumulation with a one-hot row is the context row of the path the word names. -/
theorem pick_onehot (idx : IVec S4096 32) (x : FVec Ideal S4096x10x512 .f32) (b : Fin 4096) (s : Fin 10)
    (hs : idx (ix1 b) = BitVec.ofNat 32 s.val) (e : Fin 512) :
    pick (KHost.onehot idx) (unflat x) b e = x (ix3 b s e) := by
  unfold pick
  exact (nest10_onehot (fun p => KHost.onehot idx (ix2 b p)) (fun p => unflat x (ix2 b (flat p e))) s
    (fun p => onehot_row idx b s hs p)).trans (unflat_flat x b s e)

/-- Every weakly fair execution of the program terminates with the scores at the specification's value, each selected
    row at the path the arg-max word names (given that the word is a path number), and the arguments unchanged. -/
theorem run_spec (sel : Dev nD → Fin 4096 → Fin 10)
    (hsel : ∀ (c : Dev nD) (b : Fin 4096), KHost.amax (m ((c.tc : Thread nD τ).loc main_arg4)) (ix1 b) = BitVec.ofNat 32 (sel c b).val) :
    θ_run defs (onTc (τ := τ) (main (F := Ideal))) ⟨m, fun _ => 0, ρ⟩ fun r => ∀ c : Dev nD,
      (∀ (b : Fin 4096) (n : Fin 10), r.2.mem ((c.tc : Thread nD τ).loc main_v10) (ix2 b n)
          = logit (φ := .f32) (φ' := .f32) (m ((c.tc : Thread nD τ).loc main_arg0)) (unflat (m ((c.tc : Thread nD τ).loc main_arg1)))
              (unflat (m ((c.tc : Thread nD τ).loc main_arg2))) (unflat (m ((c.tc : Thread nD τ).loc main_arg3))) (m ((c.tc : Thread nD τ).loc main_arg5)) (m ((c.tc : Thread nD τ).loc main_arg6))
              (m ((c.tc : Thread nD τ).loc main_arg7)) (m ((c.tc : Thread nD τ).loc main_arg8)) b n)
      ∧ (∀ (b : Fin 4096) (e : Fin 512), r.2.mem ((c.tc : Thread nD τ).loc main_v9_1) (ix2 b e)
          = m ((c.tc : Thread nD τ).loc main_arg1) (ix3 b (sel c b) e))
      ∧ (∀ (b : Fin 4096) (e : Fin 512), r.2.mem ((c.tc : Thread nD τ).loc main_v9_2) (ix2 b e)
          = m ((c.tc : Thread nD τ).loc main_arg2) (ix3 b (sel c b) e))
      ∧ (∀ (b : Fin 4096) (e : Fin 512), r.2.mem ((c.tc : Thread nD τ).loc main_v9_3) (ix2 b e)
          = m ((c.tc : Thread nD τ).loc main_arg3) (ix3 b (sel c b) e))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨fun b n => by rw [(h c).1]; exact scores_apply m c b n,
      fun b e => by
        rw [(h c).2.1]
        show pick (V m c main_v1) (V m c main_v2) b e = _
        rw [KHost.V_v1 m c, KHost.V_v2 m c, KHost.shapeCast_eq_unflat]
        exact pick_onehot _ _ b (sel c b) (hsel c b) e,
      fun b e => by
        rw [(h c).2.2.1]
        show pick (V m c main_v1) (V m c main_v3) b e = _
        rw [KHost.V_v1 m c, KHost.V_v3 m c, KHost.shapeCast_eq_unflat]
        exact pick_onehot _ _ b (sel c b) (hsel c b) e,
      fun b e => by
        rw [(h c).2.2.2.1]
        show pick (V m c main_v1) (V m c main_v4) b e = _
        rw [KHost.V_v1 m c, KHost.V_v4 m c, KHost.shapeCast_eq_unflat]
        exact pick_onehot _ _ b (sel c b) (hsel c b) e,
      (h c).2.2.2.2⟩)
    (KArr.run m ρ)

end Cert.KernelIdeal.KValue

end
-- ==== Proof.LibGatherRowPair.lean ====
/-
  The gather x[i, j] of a rank-3 array with two rank-1 integer index arrays, read at an entry.

  jnp's x[i, j] for x : [A, B, C] and index vectors i, j : [R] lowers to a gather whose start indices are the [R, 2]
  table of pairs (i r, j r), whose first two operand axes are collapsed and start-indexed, and whose one offset axis
  carries the whole last axis. Result entry (r, e) is x at (i r, j r, e), each start component read as a signed
  integer and clamped into its axis.
-/
import Idealize.ShloMosaic.PureOps
import Idealize.ShloMosaic.Lib.ValueIdx

namespace Cert.LibGatherRowPair

open Idealize.ShloMosaic Idealize.ShloMosaic.ValueIdx

/-- Entry (r, e) of the gather is the operand at (a, b, e), where a and b are the two start components of row r read
    signed and clamped into [0, A − 1] and [0, B − 1]. -/
theorem gather_rowpair_apply {α : Type} {A B C R w : ℕ}
    (d : GatherDims ⟨3, ![A, B, C]⟩ ⟨2, ![R, 2]⟩ ⟨2, ![R, C]⟩)
    (hoff : d.offsetDims = [1]) (hcoll : d.collapsedSliceDims = [0, 1]) (hob : d.operandBatchingDims = [])
    (hsb : d.startIndicesBatchingDims = []) (hsim : d.startIndexMap = [0, 1]) (hivd : d.indexVectorDim = 1)
    (hss : d.sliceSizes = ![1, 1, C])
    (x : (⟨3, ![A, B, C]⟩ : Shape).Idx → α) (idx : IVec ⟨2, ![R, 2]⟩ w) (r : Fin R) (e : Fin C) (a : Fin A) (b : Fin B)
    (ha : min (idx (ix2 r (0 : Fin 2))).toInt.toNat (A - 1) = a.val)
    (hb : min (idx (ix2 r (1 : Fin 2))).toInt.toNat (B - 1) = b.val) :
    Host.gather d x idx (ix2 r e) = x (ix3 a b e) := by
  -- the dimension numbers are the stated lists: put them in place of the record's fields
  obtain ⟨od, cd, ob, sb, sm, iv, ss, wf⟩ := d
  obtain rfl : od = [1] := hoff
  obtain rfl : cd = [0, 1] := hcoll
  obtain rfl : ob = [] := hob
  obtain rfl : sb = [] := hsb
  obtain rfl : sm = [0, 1] := hsim
  obtain rfl : iv = 1 := hivd
  obtain rfl : ss = ![1, 1, C] := hss
  -- the gather reads the operand at its operand index: compare that index with (a, b, e) axis by axis
  unfold Host.gather
  congr 1
  funext k
  refine Fin.ext ?_
  match k with
  | ⟨0, _⟩ =>
    -- axis 0 is collapsed and start-indexed: no batching or offset part, and its start is component 0 of row r,
    -- clamped into [0, A − 1]
    show GatherDims.start _ (ix2 r e) idx 0 + GatherDims.batchCoord _ (ix2 r e) 0 + GatherDims.offCoord _ (ix2 r e) 0 = a.val
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (List.mem_cons_self ..)]
    rw [← ha]
    -- the start-indices index of component 0 for result row r is (r, 0)
    have hsi : GatherDims.siIdx (⟨[1], [0, 1], [], [], [0, 1], 1, ![1, 1, C], wf⟩ :
        GatherDims ⟨3, ![A, B, C]⟩ ⟨2, ![R, 2]⟩ ⟨2, ![R, C]⟩) (ix2 r e)
        ⟨List.idxOf (0 : Fin 3) [0, 1], List.idxOf_lt_length_iff.2 (List.mem_cons_self ..)⟩ = ix2 r (0 : Fin 2) := by
      funext q; refine Fin.ext ?_
      match q with
      | ⟨0, _⟩ => rfl
      | ⟨1, _⟩ => rfl
    rw [hsi]
    rfl
  | ⟨1, _⟩ =>
    -- axis 1 likewise: its start is component 1 of row r, clamped into [0, B − 1]
    have hmem : (1 : Fin 3) ∈ ([0, 1] : List (Fin 3)) := List.mem_cons_of_mem _ (List.mem_cons_self ..)
    show GatherDims.start _ (ix2 r e) idx 1 + GatherDims.batchCoord _ (ix2 r e) 1 + GatherDims.offCoord _ (ix2 r e) 1 = b.val
    rw [GatherDims.batchCoord_eq_zero _ _ _ List.not_mem_nil,
      GatherDims.offCoord_eq_zero _ _ _ (fun h => ((GatherDims.mem_sKept _ _).mp h).1 hmem)]
    simp only [Nat.add_zero]
    unfold GatherDims.start
    rw [dif_pos hmem]
    rw [← hb]
    -- the start-indices index of component 1 for result row r is (r, 1)
    have hsi : GatherDims.siIdx (⟨[1], [0, 1], [], [], [0, 1], 1, ![1, 1, C], wf⟩ :
        GatherDims ⟨3, ![A, B, C]⟩ ⟨2, ![R, 2]⟩ ⟨2, ![R, C]⟩) (ix2 r e)
        ⟨List.idxOf (1 : Fin 3) [0, 1], List.idxOf_lt_length_iff.2 hmem⟩ = ix2 r (1 : Fin 2) := by
      funext q; refine Fin.ext ?_
      match q with
      | ⟨0, _⟩ => rfl
      | ⟨1, _⟩ => rfl
    rw [hsi]
    rfl
  | ⟨2, _⟩ =>
    -- axis 2 is the one kept axis: not start-indexed (start 0), no batching part, and its offset coordinate is the
    -- result's coordinate on the offset axis, e
    have hnmem : (2 : Fin 3) ∉ ([0, 1] : List (Fin 3)) := by decide
    show GatherDims.start _ (ix2 r e) idx 2 + GatherDims.batchCoord _ (ix2 r e) 2 + GatherDims.offCoord _ (ix2 r e) 2 = e.val
    rw [GatherDims.batchCoord_eq_zero _ _ _ List.not_mem_nil]
    unfold GatherDims.start
    rw [dif_neg hnmem]
    simp only [Nat.add_zero, Nat.zero_add]
    unfold GatherDims.offCoord
    rw [dif_pos ((GatherDims.mem_sKept _ _).mpr ⟨hnmem, List.not_mem_nil⟩)]
    rfl

end Cert.LibGatherRowPair
-- ==== Proof.RefPick.lean ====
/-
  The reference's selected row, as a function of the array and the arg-max words.

  jnp's x[rows, idx] first wraps a negative index by the axis extent (a select on the sign), lays the row numbers and
  the wrapped path words side by side as a [4096, 2] table of start pairs, and gathers whole last-axis rows. A row
  number is below 4096 and a path word below 10, so neither is negative as a signed word, the wrap leaves both
  unchanged, and the gather's clamp into the axis leaves them unchanged too: entry (b, e) is x at (b, path of b, e).
-/
import proofs.«401056_j82952998355466_3_alg».proof.Proof.Gen.ReferenceIdeal
import proofs.«401056_j82952998355466_3_alg».proof.Proof.LibGatherRowPair
import Idealize.ShloMosaic.Lib.ValueIdx
import Idealize.ShloMosaic.Lib.Pipeline.Value
import Idealize.ShloMosaic.Lib.IdealHost
import Idealize.ShloMosaic.Lib.DynamicIndex

noncomputable section

namespace Cert.ReferenceIdeal.RefPick

open Idealize.ShloMosaic Idealize.ShloMosaic.ValueIdx Cert.ReferenceIdeal Cert.ReferenceIdeal.Gen

/-- An index word wrapped by the extent n when it is negative. -/
def wrap (n : BitVec 32) (v : IVec S4096 32) : IVec S4096 32 :=
  select (cmpi .slt v (broadcastInDim S4096 ![] bcast_S_S4096 (constantI S_ 32 0#32)))
    (addi v (broadcastInDim S4096 ![] bcast_S_S4096 (constantI S_ 32 n))) v

/-- The table of start pairs: the wrapped row numbers beside the wrapped path words. -/
def startTable (idx : IVec S4096 32) : IVec S4096x2 32 :=
  concatenate S4096x2 1
    [⟨S4096x1, broadcastInDim S4096x1 ![0] bcast_S4096_S4096x1_0 (wrap 4096#32 (iotaInDim S4096 32 0))⟩,
     ⟨S4096x1, broadcastInDim S4096x1 ![0] bcast_S4096_S4096x1_0 (wrap 10#32 idx)⟩]
    concatenates_S4096x1_S4096x1_S4096x2_d1

/-- A word below 2³¹ is not negative read signed: the sign test against zero is the bit 0. -/
theorem slt_zero_ofNat (k : ℕ) (hk : k < 2 ^ 31) : IntOp.cmpi .slt (BitVec.ofNat 32 k) 0#32 = 0#1 := by
  have hlt : (BitVec.ofNat 32 k).slt 0#32 = false := by
    simp only [BitVec.slt, BitVec.toInt_zero, decide_eq_false_iff_not, Int.not_lt]
    rw [toInt_ofNat_of_lt hk]
    omega
  show BitVec.ofBool ((BitVec.ofNat 32 k).slt 0#32) = 0#1
  rw [hlt]
  rfl

/-- The wrap leaves a word below 2³¹ unchanged: the sign test fails, so the select keeps the word. -/
theorem wrap_apply (n : BitVec 32) (v : IVec S4096 32) (b : Fin 4096) (k : ℕ) (hk : k < 2 ^ 31)
    (hv : v (ix1 b) = BitVec.ofNat 32 k) : wrap n v (ix1 b) = BitVec.ofNat 32 k := by
  unfold wrap
  rw [select_apply]
  show Scalar.select (IntOp.cmpi .slt (v (ix1 b))
    (broadcastInDim S4096 ![] bcast_S_S4096 (constantI S_ 32 0#32) (ix1 b))) _ _ = _
  rw [broadcastInDim_scalar_apply, hv]
  show Scalar.select (IntOp.cmpi .slt (BitVec.ofNat 32 k) 0#32) _ _ = _
  rw [slt_zero_ofNat k hk, select_zero]

/-- A vector laid as a [4096, 1] column reads, at (b, 0), the vector at b. -/
theorem column_apply (v : IVec S4096 32) (b : Fin 4096) :
    broadcastInDim S4096x1 ![0] bcast_S4096_S4096x1_0 v (ix2 b (0 : Fin 1)) = v (ix1 b) := by
  refine broadcastInDim_apply _ _ v _ (ix1 b) ?_
  intro a
  match a with
  | ⟨0, _⟩ => rfl

/-- Component 0 of row b of the table is the first column at (b, 0). -/
theorem startTable_zero (idx : IVec S4096 32) (b : Fin 4096) :
    startTable idx (ix2 b (0 : Fin 2)) = wrap 4096#32 (iotaInDim S4096 32 0) (ix1 b) := by
  unfold startTable
  rw [concatenate_pair_apply_left (1 : Fin S4096x2.rank) _ _ concatenates_S4096x1_S4096x1_S4096x2_d1
    (ix2 b (0 : Fin 2)) rfl (ix2 b (0 : Fin 1)) (by
      intro c
      match c with
      | ⟨0, _⟩ => rfl
      | ⟨1, _⟩ => rfl)]
  exact column_apply _ b

/-- Component 1 of row b of the table is the second column at (b, 0). -/
theorem startTable_one (idx : IVec S4096 32) (b : Fin 4096) :
    startTable idx (ix2 b (1 : Fin 2)) = wrap 10#32 idx (ix1 b) := by
  unfold startTable
  rw [concatenate_pair_apply_right (1 : Fin S4096x2.rank) _ _ concatenates_S4096x1_S4096x1_S4096x2_d1
    (ix2 b (1 : Fin 2)) rfl rfl (ix2 b (0 : Fin 1)) (by
      intro c hc
      match c, hc with
      | ⟨0, _⟩, _ => rfl
      | ⟨1, _⟩, hc => exact absurd rfl hc) rfl]
  exact column_apply _ b

/-- A number k ≤ n as a word, read signed and clamped into [0, n], is k (for k below 2³¹). -/
theorem clamp_ofNat (k n : ℕ) (hk : k < 2 ^ 31) (hkn : k ≤ n) : min (BitVec.ofNat 32 k).toInt.toNat n = k := by
  rw [toInt_ofNat_of_lt hk, Int.toNat_natCast]
  omega

/-- Entry (b, e) of the gathered rows is x at (b, the path the word of row b names, e). -/
theorem pick_term (x : FVec Ideal S4096x10x512 .f32) (idx : IVec S4096 32) (sel : Fin 4096 → Fin 10)
    (hsel : ∀ b : Fin 4096, idx (ix1 b) = BitVec.ofNat 32 (sel b).val) (b : Fin 4096) (e : Fin 512) :
    Host.gather gather_S4096x10x512_S4096x2_S4096x512_1_01_n_n_01_1_11512 x (startTable idx) (ix2 b e)
      = x (ix3 b (sel b) e) := by
  have hb4 : b.val < 4096 := b.isLt
  have hs10 : (sel b).val < 10 := (sel b).isLt
  refine Cert.LibGatherRowPair.gather_rowpair_apply (A := 4096) (B := 10) (C := 512) (R := 4096)
    gather_S4096x10x512_S4096x2_S4096x512_1_01_n_n_01_1_11512 rfl rfl rfl rfl rfl rfl rfl x (startTable idx) b e b (sel b) ?_ ?_
  · -- the row number: an iota word, below 4096
    rw [startTable_zero, wrap_apply 4096#32 _ b b.val (by omega) rfl]
    exact clamp_ofNat _ _ (by omega) (by omega)
  · -- the path word: below 10
    rw [startTable_one, wrap_apply 10#32 idx b (sel b).val (by omega) (hsel b)]
    exact clamp_ofNat _ _ (by omega) (by omega)

end Cert.ReferenceIdeal.RefPick

end
-- ==== Proof.RefRun.lean ====
/-
  The reference program's run, read back.

  The reference is a straight line of 75 tensor operations and no kernel: the positive-part function and the arg-max
  function are substituted at their calls, each over the buffers of that call. Every weakly fair execution ends with each
  buffer at the fold of the operations over the launch contents; at the four result buffers and the nine argument buffers
  that fold is a closed term of the arguments' contents: the scores are the second product over the flattened positive
  part of the first product plus bias, plus the second bias; each selected row is the gather of an argument at the table
  of start pairs built from the row numbers and the arg-max words; the arguments are unchanged.
-/
import proofs.«401056_j82952998355466_3_alg».proof.Proof.Gen.ReferenceIdeal
import proofs.«401056_j82952998355466_3_alg».proof.Proof.RefPick
import Idealize.ShloMosaic.Lib.StableHlo.Run

noncomputable section

namespace Cert.ReferenceIdeal.Run

open Idealize.ShloMosaic Idealize.ShloMosaic.TcCoe Idealize.SL.Sem Idealize.ShloMosaic.StableHlo
open Cert.ReferenceIdeal Cert.ReferenceIdeal.Gen

variable {F : FTy → Type} [FloatOps F]

/-- The program's operations in order, the two calls substituted: the positive part is three operations over the
    first call's buffers (the zero, its broadcast, the maximum), the arg-max five over the second call's (the column
    numbers, the two initial values, one operation per result of the two-operand reduction). -/
abbrev ops : List (HloOp τ sig (Elt F)) :=
  [ unary main_arg0 main_v0 (broadcastInDim S4096x1x512 ![0, 2] bcast_S4096x512_S4096x1x512_0_2 : (⟨S4096x512, .f32⟩ : BufTy).Contents (Elt F) → (⟨S4096x1x512, .f32⟩ : BufTy).Contents (Elt F)),
    unary main_v0 main_v1 (broadcastInDim S4096x10x512 ![0, 1, 2] bcast_S4096x1x512_S4096x10x512_0_1_2 : (⟨S4096x1x512, .f32⟩ : BufTy).Contents (Elt F) → (⟨S4096x10x512, .f32⟩ : BufTy).Contents (Elt F)),
    nary ![main_v1, main_arg1, main_arg2, main_arg3] main_v2 (fun u => concatenate S4096x10x2048 2 [⟨S4096x10x512, u 0⟩, ⟨S4096x10x512, u 1⟩, ⟨S4096x10x512, u 2⟩, ⟨S4096x10x512, u 3⟩] concatenates_S4096x10x512_S4096x10x512_S4096x10x512_S4096x10x512_S4096x10x2048_d2),
    binary main_v2 main_arg5 main_v3 ((fun l r => Host.dotGeneral dot_S4096x10x2048_S2048x512_S4096x10x512_2_0_01_1_n_n none l r) : (⟨S4096x10x2048, .f32⟩ : BufTy).Contents (Elt F) → (⟨S2048x512, .f32⟩ : BufTy).Contents (Elt F) → (⟨S4096x10x512, .f32⟩ : BufTy).Contents (Elt F)),
    unary main_arg6 main_v4 (broadcastInDim S1x1x512 ![2] bcast_S512_S1x1x512_2 : (⟨S512, .f32⟩ : BufTy).Contents (Elt F) → (⟨S1x1x512, .f32⟩ : BufTy).Contents (Elt F)),
    unary main_v4 main_v5 (broadcastInDim S4096x10x512 ![0, 1, 2] bcast_S1x1x512_S4096x10x512_0_1_2 : (⟨S1x1x512, .f32⟩ : BufTy).Contents (Elt F) → (⟨S4096x10x512, .f32⟩ : BufTy).Contents (Elt F)),
    binary main_v3 main_v5 main_v6 (addf : (⟨S4096x10x512, .f32⟩ : BufTy).Contents (Elt F) → (⟨S4096x10x512, .f32⟩ : BufTy).Contents (Elt F) → (⟨S4096x10x512, .f32⟩ : BufTy).Contents (Elt F)),
    TRef.nullary main_call0.cst (constant S_ .f32 0x00000000#32),
    TRef.unary main_call0.cst main_call0.v0 (broadcastInDim S4096x10x512 ![] bcast_S_S4096x10x512),
    TRef.binary (.of main_v6) main_call0.v0 main_call0.v1 maximumf,
    reshape main_v7 main_v8 rfl shapeCasts_S4096x10x512_S4096x5120,
    binary main_v8 main_arg7 main_v9 ((fun l r => Host.dotGeneral dot_S4096x5120_S5120x10_S4096x10_1_0_0_1_n_n none l r) : (⟨S4096x5120, .f32⟩ : BufTy).Contents (Elt F) → (⟨S5120x10, .f32⟩ : BufTy).Contents (Elt F) → (⟨S4096x10, .f32⟩ : BufTy).Contents (Elt F)),
    unary main_arg8 main_v10 (broadcastInDim S1x10 ![1] bcast_S10_S1x10_1 : (⟨S10, .f32⟩ : BufTy).Contents (Elt F) → (⟨S1x10, .f32⟩ : BufTy).Contents (Elt F)),
    unary main_v10 main_v11 (broadcastInDim S4096x10 ![0, 1] bcast_S1x10_S4096x10_0_1 : (⟨S1x10, .f32⟩ : BufTy).Contents (Elt F) → (⟨S4096x10, .f32⟩ : BufTy).Contents (Elt F)),
    binary main_v9 main_v11 main_v12 (addf : (⟨S4096x10, .f32⟩ : BufTy).Contents (Elt F) → (⟨S4096x10, .f32⟩ : BufTy).Contents (Elt F) → (⟨S4096x10, .f32⟩ : BufTy).Contents (Elt F)),
    TRef.nullary main_call1.v0 (iotaInDim S4096x10 32 1),
    TRef.nullary main_call1.c (constantI S_ 32 2147483648#32),
    TRef.nullary main_call1.c_0 (constantI S_ 32 0#32),
    TRef.quaternary (.of main_arg4) main_call1.v0 main_call1.c main_call1.c_0 main_call1.v1_0 (fun x y u v j => (Host.reduce2 reducer_argmax_i32_i32 x y u v reducesTo_S4096x10_S4096_d1 h_S_ j).1),
    TRef.quaternary (.of main_arg4) main_call1.v0 main_call1.c main_call1.c_0 main_call1.v1_1 (fun x y u v j => (Host.reduce2 reducer_argmax_i32_i32 x y u v reducesTo_S4096x10_S4096_d1 h_S_ j).2),
    nullary main_v14 (iotaInDim S4096 32 0),
    nullary main_c (constantI S_ 32 0#32),
    unary main_c main_v15 (broadcastInDim S4096 ![] bcast_S_S4096 : (⟨S_, .i32⟩ : BufTy).Contents (Elt F) → (⟨S4096, .i32⟩ : BufTy).Contents (Elt F)),
    binary main_v14 main_v15 main_v16 (cmpi .slt : (⟨S4096, .i32⟩ : BufTy).Contents (Elt F) → (⟨S4096, .i32⟩ : BufTy).Contents (Elt F) → (⟨S4096, .i1⟩ : BufTy).Contents (Elt F)),
    nullary main_c_0 (constantI S_ 32 4096#32),
    unary main_c_0 main_v17 (broadcastInDim S4096 ![] bcast_S_S4096 : (⟨S_, .i32⟩ : BufTy).Contents (Elt F) → (⟨S4096, .i32⟩ : BufTy).Contents (Elt F)),
    binary main_v14 main_v17 main_v18 (addi : (⟨S4096, .i32⟩ : BufTy).Contents (Elt F) → (⟨S4096, .i32⟩ : BufTy).Contents (Elt F) → (⟨S4096, .i32⟩ : BufTy).Contents (Elt F)),
    ternary main_v16 main_v18 main_v14 main_v19 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_1 (constantI S_ 32 0#32),
    unary main_c_1 main_v20 (broadcastInDim S4096 ![] bcast_S_S4096 : (⟨S_, .i32⟩ : BufTy).Contents (Elt F) → (⟨S4096, .i32⟩ : BufTy).Contents (Elt F)),
    binary main_v13 main_v20 main_v21 (cmpi .slt : (⟨S4096, .i32⟩ : BufTy).Contents (Elt F) → (⟨S4096, .i32⟩ : BufTy).Contents (Elt F) → (⟨S4096, .i1⟩ : BufTy).Contents (Elt F)),
    nullary main_c_2 (constantI S_ 32 10#32),
    unary main_c_2 main_v22 (broadcastInDim S4096 ![] bcast_S_S4096 : (⟨S_, .i32⟩ : BufTy).Contents (Elt F) → (⟨S4096, .i32⟩ : BufTy).Contents (Elt F)),
    binary main_v13 main_v22 main_v23 (addi : (⟨S4096, .i32⟩ : BufTy).Contents (Elt F) → (⟨S4096, .i32⟩ : BufTy).Contents (Elt F) → (⟨S4096, .i32⟩ : BufTy).Contents (Elt F)),
    ternary main_v21 main_v23 main_v13 main_v24 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v19 main_v25 (broadcastInDim S4096x1 ![0] bcast_S4096_S4096x1_0 : (⟨S4096, .i32⟩ : BufTy).Contents (Elt F) → (⟨S4096x1, .i32⟩ : BufTy).Contents (Elt F)),
    unary main_v24 main_v26 (broadcastInDim S4096x1 ![0] bcast_S4096_S4096x1_0 : (⟨S4096, .i32⟩ : BufTy).Contents (Elt F) → (⟨S4096x1, .i32⟩ : BufTy).Contents (Elt F)),
    binary main_v25 main_v26 main_v27 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg1 main_v27 main_v28 ((fun x i => Host.gather gather_S4096x10x512_S4096x2_S4096x512_1_01_n_n_01_1_11512 x i) : (⟨S4096x10x512, .f32⟩ : BufTy).Contents (Elt F) → (⟨S4096x2, .i32⟩ : BufTy).Contents (Elt F) → (⟨S4096x512, .f32⟩ : BufTy).Contents (Elt F)),
    nullary main_c_3 (constantI S_ 32 0#32),
    unary main_c_3 main_v29 (broadcastInDim S4096 ![] bcast_S_S4096 : (⟨S_, .i32⟩ : BufTy).Contents (Elt F) → (⟨S4096, .i32⟩ : BufTy).Contents (Elt F)),
    binary main_v14 main_v29 main_v30 (cmpi .slt : (⟨S4096, .i32⟩ : BufTy).Contents (Elt F) → (⟨S4096, .i32⟩ : BufTy).Contents (Elt F) → (⟨S4096, .i1⟩ : BufTy).Contents (Elt F)),
    nullary main_c_4 (constantI S_ 32 4096#32),
    unary main_c_4 main_v31 (broadcastInDim S4096 ![] bcast_S_S4096 : (⟨S_, .i32⟩ : BufTy).Contents (Elt F) → (⟨S4096, .i32⟩ : BufTy).Contents (Elt F)),
    binary main_v14 main_v31 main_v32 (addi : (⟨S4096, .i32⟩ : BufTy).Contents (Elt F) → (⟨S4096, .i32⟩ : BufTy).Contents (Elt F) → (⟨S4096, .i32⟩ : BufTy).Contents (Elt F)),
    ternary main_v30 main_v32 main_v14 main_v33 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v34 (broadcastInDim S4096 ![] bcast_S_S4096 : (⟨S_, .i32⟩ : BufTy).Contents (Elt F) → (⟨S4096, .i32⟩ : BufTy).Contents (Elt F)),
    binary main_v13 main_v34 main_v35 (cmpi .slt : (⟨S4096, .i32⟩ : BufTy).Contents (Elt F) → (⟨S4096, .i32⟩ : BufTy).Contents (Elt F) → (⟨S4096, .i1⟩ : BufTy).Contents (Elt F)),
    nullary main_c_6 (constantI S_ 32 10#32),
    unary main_c_6 main_v36 (broadcastInDim S4096 ![] bcast_S_S4096 : (⟨S_, .i32⟩ : BufTy).Contents (Elt F) → (⟨S4096, .i32⟩ : BufTy).Contents (Elt F)),
    binary main_v13 main_v36 main_v37 (addi : (⟨S4096, .i32⟩ : BufTy).Contents (Elt F) → (⟨S4096, .i32⟩ : BufTy).Contents (Elt F) → (⟨S4096, .i32⟩ : BufTy).Contents (Elt F)),
    ternary main_v35 main_v37 main_v13 main_v38 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v33 main_v39 (broadcastInDim S4096x1 ![0] bcast_S4096_S4096x1_0 : (⟨S4096, .i32⟩ : BufTy).Contents (Elt F) → (⟨S4096x1, .i32⟩ : BufTy).Contents (Elt F)),
    unary main_v38 main_v40 (broadcastInDim S4096x1 ![0] bcast_S4096_S4096x1_0 : (⟨S4096, .i32⟩ : BufTy).Contents (Elt F) → (⟨S4096x1, .i32⟩ : BufTy).Contents (Elt F)),
    binary main_v39 main_v40 main_v41 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg2 main_v41 main_v42 ((fun x i => Host.gather gather_S4096x10x512_S4096x2_S4096x512_1_01_n_n_01_1_11512 x i) : (⟨S4096x10x512, .f32⟩ : BufTy).Contents (Elt F) → (⟨S4096x2, .i32⟩ : BufTy).Contents (Elt F) → (⟨S4096x512, .f32⟩ : BufTy).Contents (Elt F)),
    nullary main_c_7 (constantI S_ 32 0#32),
    unary main_c_7 main_v43 (broadcastInDim S4096 ![] bcast_S_S4096 : (⟨S_, .i32⟩ : BufTy).Contents (Elt F) → (⟨S4096, .i32⟩ : BufTy).Contents (Elt F)),
    binary main_v14 main_v43 main_v44 (cmpi .slt : (⟨S4096, .i32⟩ : BufTy).Contents (Elt F) → (⟨S4096, .i32⟩ : BufTy).Contents (Elt F) → (⟨S4096, .i1⟩ : BufTy).Contents (Elt F)),
    nullary main_c_8 (constantI S_ 32 4096#32),
    unary main_c_8 main_v45 (broadcastInDim S4096 ![] bcast_S_S4096 : (⟨S_, .i32⟩ : BufTy).Contents (Elt F) → (⟨S4096, .i32⟩ : BufTy).Contents (Elt F)),
    binary main_v14 main_v45 main_v46 (addi : (⟨S4096, .i32⟩ : BufTy).Contents (Elt F) → (⟨S4096, .i32⟩ : BufTy).Contents (Elt F) → (⟨S4096, .i32⟩ : BufTy).Contents (Elt F)),
    ternary main_v44 main_v46 main_v14 main_v47 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_9 (constantI S_ 32 0#32),
    unary main_c_9 main_v48 (broadcastInDim S4096 ![] bcast_S_S4096 : (⟨S_, .i32⟩ : BufTy).Contents (Elt F) → (⟨S4096, .i32⟩ : BufTy).Contents (Elt F)),
    binary main_v13 main_v48 main_v49 (cmpi .slt : (⟨S4096, .i32⟩ : BufTy).Contents (Elt F) → (⟨S4096, .i32⟩ : BufTy).Contents (Elt F) → (⟨S4096, .i1⟩ : BufTy).Contents (Elt F)),
    nullary main_c_10 (constantI S_ 32 10#32),
    unary main_c_10 main_v50 (broadcastInDim S4096 ![] bcast_S_S4096 : (⟨S_, .i32⟩ : BufTy).Contents (Elt F) → (⟨S4096, .i32⟩ : BufTy).Contents (Elt F)),
    binary main_v13 main_v50 main_v51 (addi : (⟨S4096, .i32⟩ : BufTy).Contents (Elt F) → (⟨S4096, .i32⟩ : BufTy).Contents (Elt F) → (⟨S4096, .i32⟩ : BufTy).Contents (Elt F)),
    ternary main_v49 main_v51 main_v13 main_v52 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v47 main_v53 (broadcastInDim S4096x1 ![0] bcast_S4096_S4096x1_0 : (⟨S4096, .i32⟩ : BufTy).Contents (Elt F) → (⟨S4096x1, .i32⟩ : BufTy).Contents (Elt F)),
    unary main_v52 main_v54 (broadcastInDim S4096x1 ![0] bcast_S4096_S4096x1_0 : (⟨S4096, .i32⟩ : BufTy).Contents (Elt F) → (⟨S4096x1, .i32⟩ : BufTy).Contents (Elt F)),
    binary main_v53 main_v54 main_v55 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg3 main_v55 main_v56 ((fun x i => Host.gather gather_S4096x10x512_S4096x2_S4096x512_1_01_n_n_01_1_11512 x i) : (⟨S4096x10x512, .f32⟩ : BufTy).Contents (Elt F) → (⟨S4096x2, .i32⟩ : BufTy).Contents (Elt F) → (⟨S4096x512, .f32⟩ : BufTy).Contents (Elt F)) ]

set_option maxRecDepth 4096 in
set_option maxHeartbeats 4000000 in
/-- The program is that straight line: the two functions unfolded at their calls, sequencing re-associated. -/
theorem main_eq (c : Dev nD) : main (F := F) c = seq ops := by
  simp only [main, main_part0, main_part1, fn_relu.body, fn_argmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nary_bufs_sub .., binary_bufs_sub .., unary_bufs_sub .., unary_bufs_sub ..,
    binary_bufs_sub .., nullary_bufs_sub .., unary_bufs_sub .., binary_bufs_sub .., reshape_bufs_sub .., binary_bufs_sub ..,
    unary_bufs_sub .., unary_bufs_sub .., binary_bufs_sub .., nullary_bufs_sub .., nullary_bufs_sub .., nullary_bufs_sub ..,
    quaternary_bufs_sub .., quaternary_bufs_sub .., nullary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub ..⟩

set_option maxHeartbeats 4000000 in
/-- From any memory with zero counters, for any float values: every weakly fair execution of the program terminates,
    and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The results as terms of the arguments -/

/-- The concatenated features of every row and path: the row's agent vector repeated over the ten paths, then the
    three context rows of the path. -/
def feat (a0 : FVec F S4096x512 .f32) (a1 a2 a3 : FVec F S4096x10x512 .f32) : FVec F S4096x10x2048 .f32 :=
  concatenate S4096x10x2048 2
    [⟨S4096x10x512, broadcastInDim S4096x10x512 ![0, 1, 2] bcast_S4096x1x512_S4096x10x512_0_1_2
        (broadcastInDim S4096x1x512 ![0, 2] bcast_S4096x512_S4096x1x512_0_2 a0)⟩,
     ⟨S4096x10x512, a1⟩, ⟨S4096x10x512, a2⟩, ⟨S4096x10x512, a3⟩]
    concatenates_S4096x10x512_S4096x10x512_S4096x10x512_S4096x10x512_S4096x10x2048_d2

/-- The positive part of the first product plus its bias. -/
def hidden (a0 : FVec F S4096x512 .f32) (a1 a2 a3 : FVec F S4096x10x512 .f32) (a5 : FVec F S2048x512 .f32)
    (a6 : FVec F S512 .f32) : FVec F S4096x10x512 .f32 :=
  maximumf
    (addf (Host.dotGeneral dot_S4096x10x2048_S2048x512_S4096x10x512_2_0_01_1_n_n none (feat a0 a1 a2 a3) a5)
      (broadcastInDim S4096x10x512 ![0, 1, 2] bcast_S1x1x512_S4096x10x512_0_1_2
        (broadcastInDim S1x1x512 ![2] bcast_S512_S1x1x512_2 a6)))
    (broadcastInDim S4096x10x512 ![] bcast_S_S4096x10x512 (constant S_ .f32 0x00000000#32))

/-- The scores: the second product over the flattened positive part, plus the second bias. -/
def scores (a0 : FVec F S4096x512 .f32) (a1 a2 a3 : FVec F S4096x10x512 .f32) (a5 : FVec F S2048x512 .f32)
    (a6 : FVec F S512 .f32) (a7 : FVec F S5120x10 .f32) (a8 : FVec F S10 .f32) : FVec F S4096x10 .f32 :=
  addf
    (Host.dotGeneral dot_S4096x5120_S5120x10_S4096x10_1_0_0_1_n_n none
      (shapeCast S4096x5120 (hidden a0 a1 a2 a3 a5 a6) shapeCasts_S4096x10x512_S4096x5120) a7)
    (broadcastInDim S4096x10 ![0, 1] bcast_S1x10_S4096x10_0_1 (broadcastInDim S1x10 ![1] bcast_S10_S1x10_1 a8))

/-- The arg-max words of a label table: the index component of the two-operand reduction over each row. -/
def amax' (a4 : IVec S4096x10 32) : IVec S4096 32 :=
  fun j => (Host.reduce2 reducer_argmax_i32_i32 a4 (iotaInDim S4096x10 32 1) (constantI S_ 32 2147483648#32)
    (constantI S_ 32 0#32) reducesTo_S4096x10_S4096_d1 h_S_ j).2

attribute [local irreducible] Host.reduce2 Host.gather concatenate in
set_option maxRecDepth 16384 in
set_option maxHeartbeats 4000000 in
/-- The scores' buffer ends at the scores of the arguments. -/
theorem v12_eq (V : Valuation τ sig (Elt F)) :
    after ops V (main_v12 : DevRef τ sig)
      = scores (V (main_arg0 : DevRef τ sig)) (V (main_arg1 : DevRef τ sig)) (V (main_arg2 : DevRef τ sig))
          (V (main_arg3 : DevRef τ sig)) (V (main_arg5 : DevRef τ sig)) (V (main_arg6 : DevRef τ sig))
          (V (main_arg7 : DevRef τ sig)) (V (main_arg8 : DevRef τ sig)) := by
  simp only [after_cons, after_nil]
  rfl

attribute [local irreducible] Host.reduce2 Host.gather concatenate in
set_option maxRecDepth 16384 in
set_option maxHeartbeats 4000000 in
/-- The first selected rows: the gather of argument 1 at the table of start pairs. -/
theorem v28_eq (V : Valuation τ sig (Elt F)) :
    after ops V (main_v28 : DevRef τ sig)
      = Host.gather gather_S4096x10x512_S4096x2_S4096x512_1_01_n_n_01_1_11512 (V (main_arg1 : DevRef τ sig))
          (Cert.ReferenceIdeal.RefPick.startTable (amax' (V (main_arg4 : DevRef τ sig)))) := by
  simp only [after_cons, after_nil]
  rfl

attribute [local irreducible] Host.reduce2 Host.gather concatenate in
set_option maxRecDepth 16384 in
set_option maxHeartbeats 4000000 in
/-- The second selected rows: the gather of argument 2 at the same table, rebuilt from the same words. -/
theorem v42_eq (V : Valuation τ sig (Elt F)) :
    after ops V (main_v42 : DevRef τ sig)
      = Host.gather gather_S4096x10x512_S4096x2_S4096x512_1_01_n_n_01_1_11512 (V (main_arg2 : DevRef τ sig))
          (Cert.ReferenceIdeal.RefPick.startTable (amax' (V (main_arg4 : DevRef τ sig)))) := by
  simp only [after_cons, after_nil]
  rfl

attribute [local irreducible] Host.reduce2 Host.gather concatenate in
set_option maxRecDepth 16384 in
set_option maxHeartbeats 4000000 in
/-- The third selected rows: the gather of argument 3 at the same table. -/
theorem v56_eq (V : Valuation τ sig (Elt F)) :
    after ops V (main_v56 : DevRef τ sig)
      = Host.gather gather_S4096x10x512_S4096x2_S4096x512_1_01_n_n_01_1_11512 (V (main_arg3 : DevRef τ sig))
          (Cert.ReferenceIdeal.RefPick.startTable (amax' (V (main_arg4 : DevRef τ sig)))) := by
  simp only [after_cons, after_nil]
  rfl

attribute [local irreducible] Host.reduce2 Host.gather concatenate in
set_option maxRecDepth 16384 in
set_option maxHeartbeats 4000000 in
/-- No operation writes argument 0. -/
theorem arg0_eq (V : Valuation τ sig (Elt F)) :
    after ops V (main_arg0 : DevRef τ sig) = V (main_arg0 : DevRef τ sig) := by
  simp only [after_cons, after_nil]
  rfl

attribute [local irreducible] Host.reduce2 Host.gather concatenate in
set_option maxRecDepth 16384 in
set_option maxHeartbeats 4000000 in
/-- No operation writes argument 1. -/
theorem arg1_eq (V : Valuation τ sig (Elt F)) :
    after ops V (main_arg1 : DevRef τ sig) = V (main_arg1 : DevRef τ sig) := by
  simp only [after_cons, after_nil]
  rfl

attribute [local irreducible] Host.reduce2 Host.gather concatenate in
set_option maxRecDepth 16384 in
set_option maxHeartbeats 4000000 in
/-- No operation writes argument 2. -/
theorem arg2_eq (V : Valuation τ sig (Elt F)) :
    after ops V (main_arg2 : DevRef τ sig) = V (main_arg2 : DevRef τ sig) := by
  simp only [after_cons, after_nil]
  rfl

attribute [local irreducible] Host.reduce2 Host.gather concatenate in
set_option maxRecDepth 16384 in
set_option maxHeartbeats 4000000 in
/-- No operation writes argument 3. -/
theorem arg3_eq (V : Valuation τ sig (Elt F)) :
    after ops V (main_arg3 : DevRef τ sig) = V (main_arg3 : DevRef τ sig) := by
  simp only [after_cons, after_nil]
  rfl

attribute [local irreducible] Host.reduce2 Host.gather concatenate in
set_option maxRecDepth 16384 in
set_option maxHeartbeats 4000000 in
/-- No operation writes argument 4. -/
theorem arg4_eq (V : Valuation τ sig (Elt F)) :
    after ops V (main_arg4 : DevRef τ sig) = V (main_arg4 : DevRef τ sig) := by
  simp only [after_cons, after_nil]
  rfl

attribute [local irreducible] Host.reduce2 Host.gather concatenate in
set_option maxRecDepth 16384 in
set_option maxHeartbeats 4000000 in
/-- No operation writes argument 5. -/
theorem arg5_eq (V : Valuation τ sig (Elt F)) :
    after ops V (main_arg5 : DevRef τ sig) = V (main_arg5 : DevRef τ sig) := by
  simp only [after_cons, after_nil]
  rfl

attribute [local irreducible] Host.reduce2 Host.gather concatenate in
set_option maxRecDepth 16384 in
set_option maxHeartbeats 4000000 in
/-- No operation writes argument 6. -/
theorem arg6_eq (V : Valuation τ sig (Elt F)) :
    after ops V (main_arg6 : DevRef τ sig) = V (main_arg6 : DevRef τ sig) := by
  simp only [after_cons, after_nil]
  rfl

attribute [local irreducible] Host.reduce2 Host.gather concatenate in
set_option maxRecDepth 16384 in
set_option maxHeartbeats 4000000 in
/-- No operation writes argument 7. -/
theorem arg7_eq (V : Valuation τ sig (Elt F)) :
    after ops V (main_arg7 : DevRef τ sig) = V (main_arg7 : DevRef τ sig) := by
  simp only [after_cons, after_nil]
  rfl

attribute [local irreducible] Host.reduce2 Host.gather concatenate in
set_option maxRecDepth 16384 in
set_option maxHeartbeats 4000000 in
/-- No operation writes argument 8. -/
theorem arg8_eq (V : Valuation τ sig (Elt F)) :
    after ops V (main_arg8 : DevRef τ sig) = V (main_arg8 : DevRef τ sig) := by
  simp only [after_cons, after_nil]
  rfl

end Cert.ReferenceIdeal.Run

end
-- ==== Proof.RefLogits.lean ====
/-
  The reference's scores, read at an entry.

  The features of row b and path p are the agent vector of the row followed by the three context rows of the path, so
  the first product at (b, p, e), a sum over 2048 features, is the sum of its four stretches of 512: the agent term and
  the three context terms against the four row blocks of the first weight matrix. With the bias added and the positive
  part taken this is the positive part of the specification's hidden vector. The [4096, 10, 512] result is read
  flattened, column 512·p + k holding entry (p, k), so the second product at (b, n), a sum over 5120 columns, is the
  double sum over paths and entries, which is the specification's ten terms added one after another onto zero; the
  second bias is added last.
-/
import proofs.«401056_j82952998355466_3_alg».proof.Proof.Gen.ReferenceIdeal
import proofs.«401056_j82952998355466_3_alg».proof.Proof.Spec
import proofs.«401056_j82952998355466_3_alg».proof.Proof.Algebra
import proofs.«401056_j82952998355466_3_alg».proof.Proof.LibMatmulPlain
import proofs.«401056_j82952998355466_3_alg».proof.Proof.RefRun
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.ReferenceIdeal.RefLogits

open Idealize.ShloMosaic Idealize.ShloMosaic.ValueIdx
open Cert.ReferenceIdeal Cert.ReferenceIdeal.Gen Cert.PathMlp Cert.ReferenceIdeal.Run
open scoped BigOperators

/-! ## The first product: contraction of axis 2 of the features with axis 0 of the weights -/

/-- The first product's dimension record. -/
abbrev D1 : DotDims S4096x10x2048 S2048x512 S4096x10x512 := dot_S4096x10x2048_S2048x512_S4096x10x512_2_0_01_1_n_n

theorem lhs1_0 (i : S4096x10x512.Idx) (q : D1.contr.Idx) : (D1.lhsIdx i q 0).val = (i 0).val := by
  unfold DotDims.lhsIdx
  rw [dif_neg (show ¬(0 : Fin S4096x10x2048.rank) ∈ D1.lhsBatch from List.not_mem_nil),
    dif_pos (show (0 : Fin S4096x10x2048.rank) ∈ D1.lhsNonContracting from by decide)]
  rfl

theorem lhs1_1 (i : S4096x10x512.Idx) (q : D1.contr.Idx) : (D1.lhsIdx i q 1).val = (i 1).val := by
  unfold DotDims.lhsIdx
  rw [dif_neg (show ¬(1 : Fin S4096x10x2048.rank) ∈ D1.lhsBatch from List.not_mem_nil),
    dif_pos (show (1 : Fin S4096x10x2048.rank) ∈ D1.lhsNonContracting from by decide)]
  rfl

theorem lhs1_2 (i : S4096x10x512.Idx) (q : D1.contr.Idx) : (D1.lhsIdx i q 2).val = (q ⟨0, Nat.one_pos⟩).val :=
  D1.lhsIdx_val_of_single rfl i q

theorem rhs1_0 (i : S4096x10x512.Idx) (q : D1.contr.Idx) : (D1.rhsIdx i q 0).val = (q ⟨0, Nat.one_pos⟩).val :=
  D1.rhsIdx_val_of_single rfl i q

theorem rhs1_1 (i : S4096x10x512.Idx) (q : D1.contr.Idx) : (D1.rhsIdx i q 1).val = (i 2).val := by
  unfold DotDims.rhsIdx
  rw [dif_neg (show ¬(1 : Fin S2048x512.rank) ∈ D1.rhsBatch from List.not_mem_nil),
    dif_pos (show (1 : Fin S2048x512.rank) ∈ D1.rhsNonContracting from by decide)]
  rfl

/-- Entry (b, p, e) of the first product: the sum over the 2048 features. -/
theorem dot1_apply (x : FVec Ideal S4096x10x2048 .f32) (w : FVec Ideal S2048x512 .f32) (b : Fin 4096) (p : Fin 10) (e : Fin 512) :
    Host.dotGeneral D1 none x w (ix3 b p e) = ∑ d : Fin 2048, x (ix3 b p d) * w (ix2 d e) := by
  simp only [Host.dotGeneral]
  rw [Ideal.dotGeneral_apply, ← Equiv.sum_comp (contrEquiv1 D1 2048 rfl rfl).symm]
  refine Finset.sum_congr rfl fun q _ => ?_
  have hq := contrEquiv1_symm_val D1 2048 rfl rfl q
  have el : D1.lhsIdx (ix3 b p e) ((contrEquiv1 D1 2048 rfl rfl).symm q) = ix3 b p q :=
    funext fun a => Fin.ext (by
      match a with
      | ⟨0, _⟩ => exact lhs1_0 _ _
      | ⟨1, _⟩ => exact lhs1_1 _ _
      | ⟨2, _⟩ => exact (lhs1_2 _ _).trans hq)
  have er : D1.rhsIdx (ix3 b p e) ((contrEquiv1 D1 2048 rfl rfl).symm q) = ix2 q e :=
    funext fun a => Fin.ext (by
      match a with
      | ⟨0, _⟩ => exact (rhs1_0 _ _).trans hq
      | ⟨1, _⟩ => exact rhs1_1 _ _)
  rw [el, er]

/-! ## The features on each stretch of 512 -/

/-- The agent vector repeated over the paths, at an entry. -/
theorem agent_apply (a0 : FVec Ideal S4096x512 .f32) (b : Fin 4096) (p : Fin 10) (q : Fin 512) :
    broadcastInDim S4096x10x512 ![0, 1, 2] bcast_S4096x1x512_S4096x10x512_0_1_2
      (broadcastInDim S4096x1x512 ![0, 2] bcast_S4096x512_S4096x1x512_0_2 a0) (ix3 b p q) = a0 (ix2 b q) := by
  rw [broadcastInDim_apply _ _ _ _ (ix3 b (0 : Fin 1) q) (fun a => by
      match a with
      | ⟨0, _⟩ => rfl
      | ⟨1, _⟩ => rfl
      | ⟨2, _⟩ => rfl),
    broadcastInDim_apply _ _ _ _ (ix2 b q) (fun a => by
      match a with
      | ⟨0, _⟩ => rfl
      | ⟨1, _⟩ => rfl)]

section Pieces
variable (x0 x1 x2 x3 : FVec Ideal S4096x10x512 .f32) (b : Fin 4096) (p : Fin 10) (q : Fin 512)

/-- Four [4096, 10, 512] pieces laid side by side along the last axis. -/
abbrev cat4 : FVec Ideal S4096x10x2048 .f32 :=
  concatenate S4096x10x2048 2 [⟨S4096x10x512, x0⟩, ⟨S4096x10x512, x1⟩, ⟨S4096x10x512, x2⟩, ⟨S4096x10x512, x3⟩]
    concatenates_S4096x10x512_S4096x10x512_S4096x10x512_S4096x10x512_S4096x10x2048_d2

theorem cat4_0 (h : 0 + 512 ≤ 2048) : cat4 x0 x1 x2 x3 (ix3 b p (at512 0 h q)) = x0 (ix3 b p q) :=
  concatenate_apply_piece (t := S4096x10x2048) (2 : Fin 3)
    [⟨S4096x10x512, x0⟩, ⟨S4096x10x512, x1⟩, ⟨S4096x10x512, x2⟩, ⟨S4096x10x512, x3⟩]
    concatenates_S4096x10x512_S4096x10x512_S4096x10x512_S4096x10x512_S4096x10x2048_d2 (ix3 b p (at512 0 h q))
    0 (by show _ < 4; omega) S4096x10x512 x0 rfl rfl 0 rfl (ix3 b p q)
    (fun c hc => by
      match c with
      | ⟨0, _⟩ => rfl
      | ⟨1, _⟩ => rfl
      | ⟨2, _⟩ => exact absurd rfl hc) rfl

theorem cat4_1 (h : 512 + 512 ≤ 2048) : cat4 x0 x1 x2 x3 (ix3 b p (at512 512 h q)) = x1 (ix3 b p q) :=
  concatenate_apply_piece (t := S4096x10x2048) (2 : Fin 3)
    [⟨S4096x10x512, x0⟩, ⟨S4096x10x512, x1⟩, ⟨S4096x10x512, x2⟩, ⟨S4096x10x512, x3⟩]
    concatenates_S4096x10x512_S4096x10x512_S4096x10x512_S4096x10x512_S4096x10x2048_d2 (ix3 b p (at512 512 h q))
    1 (by show _ < 4; omega) S4096x10x512 x1 rfl rfl 512 rfl (ix3 b p q)
    (fun c hc => by
      match c with
      | ⟨0, _⟩ => rfl
      | ⟨1, _⟩ => rfl
      | ⟨2, _⟩ => exact absurd rfl hc) rfl

theorem cat4_2 (h : 1024 + 512 ≤ 2048) : cat4 x0 x1 x2 x3 (ix3 b p (at512 1024 h q)) = x2 (ix3 b p q) :=
  concatenate_apply_piece (t := S4096x10x2048) (2 : Fin 3)
    [⟨S4096x10x512, x0⟩, ⟨S4096x10x512, x1⟩, ⟨S4096x10x512, x2⟩, ⟨S4096x10x512, x3⟩]
    concatenates_S4096x10x512_S4096x10x512_S4096x10x512_S4096x10x512_S4096x10x2048_d2 (ix3 b p (at512 1024 h q))
    2 (by show _ < 4; omega) S4096x10x512 x2 rfl rfl 1024 rfl (ix3 b p q)
    (fun c hc => by
      match c with
      | ⟨0, _⟩ => rfl
      | ⟨1, _⟩ => rfl
      | ⟨2, _⟩ => exact absurd rfl hc) rfl

theorem cat4_3 (h : 1536 + 512 ≤ 2048) : cat4 x0 x1 x2 x3 (ix3 b p (at512 1536 h q)) = x3 (ix3 b p q) :=
  concatenate_apply_piece (t := S4096x10x2048) (2 : Fin 3)
    [⟨S4096x10x512, x0⟩, ⟨S4096x10x512, x1⟩, ⟨S4096x10x512, x2⟩, ⟨S4096x10x512, x3⟩]
    concatenates_S4096x10x512_S4096x10x512_S4096x10x512_S4096x10x512_S4096x10x2048_d2 (ix3 b p (at512 1536 h q))
    3 (by show _ < 4; omega) S4096x10x512 x3 rfl rfl 1536 rfl (ix3 b p q)
    (fun c hc => by
      match c with
      | ⟨0, _⟩ => rfl
      | ⟨1, _⟩ => rfl
      | ⟨2, _⟩ => exact absurd rfl hc) rfl

end Pieces

section Feat
variable (a0 : FVec Ideal S4096x512 .f32) (a1 a2 a3 : FVec Ideal S4096x10x512 .f32) (b : Fin 4096) (p : Fin 10) (q : Fin 512)

/-- The first stretch of the features is the agent vector. -/
theorem feat_0 (h : 0 + 512 ≤ 2048) : feat a0 a1 a2 a3 (ix3 b p (at512 0 h q)) = a0 (ix2 b q) :=
  (cat4_0 _ a1 a2 a3 b p q h).trans (agent_apply a0 b p q)
/-- The second stretch is the first context row of the path. -/
theorem feat_1 (h : 512 + 512 ≤ 2048) : feat a0 a1 a2 a3 (ix3 b p (at512 512 h q)) = a1 (ix3 b p q) := cat4_1 _ a1 a2 a3 b p q h
/-- The third stretch is the second context row of the path. -/
theorem feat_2 (h : 1024 + 512 ≤ 2048) : feat a0 a1 a2 a3 (ix3 b p (at512 1024 h q)) = a2 (ix3 b p q) := cat4_2 _ a1 a2 a3 b p q h
/-- The fourth stretch is the third context row of the path. -/
theorem feat_3 (h : 1536 + 512 ≤ 2048) : feat a0 a1 a2 a3 (ix3 b p (at512 1536 h q)) = a3 (ix3 b p q) := cat4_3 _ a1 a2 a3 b p q h

end Feat

/-! ## The hidden vector -/

/-- The first bias broadcast over rows and paths, at an entry. -/
theorem bias1_apply (a6 : FVec Ideal S512 .f32) (b : Fin 4096) (p : Fin 10) (e : Fin 512) :
    broadcastInDim S4096x10x512 ![0, 1, 2] bcast_S1x1x512_S4096x10x512_0_1_2
      (broadcastInDim S1x1x512 ![2] bcast_S512_S1x1x512_2 a6) (ix3 b p e) = a6 (ix1 e) := by
  rw [broadcastInDim_apply _ _ _ _ (ix3 (0 : Fin 1) (0 : Fin 1) e) (fun a => by
      match a with
      | ⟨0, _⟩ => rfl
      | ⟨1, _⟩ => rfl
      | ⟨2, _⟩ => rfl),
    broadcastInDim_apply _ _ _ _ (ix1 e) (fun a => by
      match a with
      | ⟨0, _⟩ => rfl)]

/-- The broadcast zero of the positive part, at an entry. -/
theorem zero_apply (j : S4096x10x512.Idx) :
    broadcastInDim S4096x10x512 ![] bcast_S_S4096x10x512 (constant (F := Ideal) S_ .f32 0x00000000#32) j = 0 := by
  rw [broadcastInDim_scalar_apply, constant_apply, Ideal.ofBits_zero_f32]

/-- Entry (b, p, e) of the positive part of the first product plus bias is the positive part of the specification's
    hidden vector. -/
theorem hidden_apply (a0 : FVec Ideal S4096x512 .f32) (a1 a2 a3 : FVec Ideal S4096x10x512 .f32)
    (a5 : FVec Ideal S2048x512 .f32) (a6 : FVec Ideal S512 .f32) (b : Fin 4096) (p : Fin 10) (e : Fin 512) :
    Run.hidden a0 a1 a2 a3 a5 a6 (ix3 b p e)
      = max (hid (φ := .f32) a0 (unflat a1) (unflat a2) (unflat a3) a5 a6 b p e) 0 := by
  unfold Run.hidden hid
  rw [maximumf_apply, addf_apply, dot1_apply, sum_four, bias1_apply, zero_apply]
  simp only [feat_0, feat_1, feat_2, feat_3, unflat_flat]

/-! ## The second product and the scores -/

/-- The second product's dimension record. -/
abbrev D2 : DotDims S4096x5120 S5120x10 S4096x10 := dot_S4096x5120_S5120x10_S4096x10_1_0_0_1_n_n

/-- Entry (b, n) of the second product: the sum over the 5120 flattened columns. -/
theorem dot2_apply (x : FVec Ideal S4096x5120 .f32) (w : FVec Ideal S5120x10 .f32) (b : Fin 4096) (n : Fin 10) :
    Host.dotGeneral D2 none x w (ix2 b n) = ∑ j : Fin 5120, x (ix2 b j) * w (ix2 j n) := by
  simp only [Host.dotGeneral]
  rw [Ideal.dotGeneral_apply, ← Equiv.sum_comp (contrEquiv1 D2 5120 rfl rfl).symm]
  refine Finset.sum_congr rfl fun q _ => ?_
  have hq := contrEquiv1_symm_val D2 5120 rfl rfl q
  have el : D2.lhsIdx (ix2 b n) ((contrEquiv1 D2 5120 rfl rfl).symm q) = ix2 b q :=
    funext fun a => Fin.ext (by
      match a with
      | ⟨0, _⟩ => exact Cert.LibMatmulPlain.lhs_plain_0 (M := 4096) (K := 5120) (N := 10) _ _
      | ⟨1, _⟩ => exact (Cert.LibMatmulPlain.lhs_plain_1 (M := 4096) (K := 5120) (N := 10) _ _).trans hq)
  have er : D2.rhsIdx (ix2 b n) ((contrEquiv1 D2 5120 rfl rfl).symm q) = ix2 q n :=
    funext fun a => Fin.ext (by
      match a with
      | ⟨0, _⟩ => exact (Cert.LibMatmulPlain.rhs_plain_0 (M := 4096) (K := 5120) (N := 10) _ _).trans hq
      | ⟨1, _⟩ => exact Cert.LibMatmulPlain.rhs_plain_1 (M := 4096) (K := 5120) (N := 10) _ _)
  rw [el, er]

/-- The flattening of the two last axes read at column 512·p + k is the entry (p, k). -/
theorem cast_flat (v : FVec Ideal S4096x10x512 .f32) (b : Fin 4096) (p : Fin 10) (k : Fin 512) :
    shapeCast S4096x5120 v shapeCasts_S4096x10x512_S4096x5120 (ix2 b (flat p k)) = v (ix3 b p k) := by
  refine shapeCast_apply v _ _ (ix3 b p k) ?_
  rw [Shape.rowMajor_val_three, Shape.rowMajor_val_two]
  show (b.val * 10 + p.val) * 512 + k.val = b.val * 5120 + (512 * p.val + k.val)
  omega

/-- The second bias broadcast over rows, at an entry. -/
theorem bias2_apply (a8 : FVec Ideal S10 .f32) (b : Fin 4096) (n : Fin 10) :
    broadcastInDim S4096x10 ![0, 1] bcast_S1x10_S4096x10_0_1 (broadcastInDim S1x10 ![1] bcast_S10_S1x10_1 a8) (ix2 b n)
      = a8 (ix1 n) := by
  rw [broadcastInDim_apply _ _ _ _ (ix2 (0 : Fin 1) n) (fun a => by
      match a with
      | ⟨0, _⟩ => rfl
      | ⟨1, _⟩ => rfl),
    broadcastInDim_apply _ _ _ _ (ix1 n) (fun a => by
      match a with
      | ⟨0, _⟩ => rfl)]

/-- Entry (b, n) of the scores is the specification's score of row b in column n. -/
theorem scores_apply (a0 : FVec Ideal S4096x512 .f32) (a1 a2 a3 : FVec Ideal S4096x10x512 .f32)
    (a5 : FVec Ideal S2048x512 .f32) (a6 : FVec Ideal S512 .f32) (a7 : FVec Ideal S5120x10 .f32) (a8 : FVec Ideal S10 .f32)
    (b : Fin 4096) (n : Fin 10) :
    scores a0 a1 a2 a3 a5 a6 a7 a8 (ix2 b n)
      = logit (φ := .f32) (φ' := .f32) a0 (unflat a1) (unflat a2) (unflat a3) a5 a6 a7 a8 b n := by
  unfold scores logit
  rw [addf_apply, dot2_apply, sum_flat, nest10_eq_sum, bias2_apply]
  simp only [cast_flat, hidden_apply]

end Cert.ReferenceIdeal.RefLogits

end
-- ==== Proof.RefValue.lean ====
/-
  The reference program's results, read at an entry.

  The reference concatenates the repeated agent row with the three context rows of a path along the feature axis,
  multiplies with the whole first weight matrix, adds the bias and takes the positive part; the [4096, 10, 512] result
  is flattened and multiplied with the second weight matrix, and the second bias is added. A sum over the 2048
  concatenated features is the sum of its four stretches, and a sum over the 5120 flattened columns is the double sum
  over paths and entries, so the score is the specification's. The three selected rows are gathers at the pair
  (row number, arg-max of the label row), each index wrapped and clamped into its axis, which changes nothing for
  indices already in range.
-/
import proofs.«401056_j82952998355466_3_alg».proof.Proof.Gen.ReferenceIdeal
import proofs.«401056_j82952998355466_3_alg».proof.Proof.Spec
import proofs.«401056_j82952998355466_3_alg».proof.Proof.Algebra
import proofs.«401056_j82952998355466_3_alg».proof.Proof.RefPick
import proofs.«401056_j82952998355466_3_alg».proof.Proof.RefRun
import proofs.«401056_j82952998355466_3_alg».proof.Proof.RefLogits
import Idealize.ShloMosaic.Lib.StableHlo.Run
import Idealize.ShloMosaic.Lib.ValueIdx

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.PathMlp

/-- The arg-max words of a label table: the index component of the two-operand reduction over each row. -/
def amax (a4 : IVec S4096x10 32) : IVec S4096 32 :=
  fun j => (Host.reduce2 reducer_argmax_i32_i32 a4 (iotaInDim S4096x10 32 1) (constantI S_ 32 2147483648#32)
    (constantI S_ 32 0#32) reducesTo_S4096x10_S4096_d1 h_S_ j).2

/-- Every weakly fair execution of the reference terminates with the scores at the specification's value, each
    selected row at the path the arg-max word names (given that the word is a path number), and the arguments unchanged. -/
theorem run_spec (m : (ℓ : Loc nD τ sig) → Buf (Elt Ideal) ℓ) (ρ : Dev nD → PrngReg) (sel : Dev nD → Fin 4096 → Fin 10)
    (hsel : ∀ (c : Dev nD) (b : Fin 4096), amax (m ((c.tc : Thread nD τ).loc main_arg4)) (ix1 b) = BitVec.ofNat 32 (sel c b).val) :
    θ_run defs (onTc (τ := τ) (main (F := Ideal))) ⟨m, fun _ => 0, ρ⟩ fun r => ∀ c : Dev nD,
      (∀ (b : Fin 4096) (n : Fin 10), r.2.mem ((c.tc : Thread nD τ).loc main_v12) (ix2 b n)
          = logit (φ := .f32) (φ' := .f32) (m ((c.tc : Thread nD τ).loc main_arg0)) (unflat (m ((c.tc : Thread nD τ).loc main_arg1)))
              (unflat (m ((c.tc : Thread nD τ).loc main_arg2))) (unflat (m ((c.tc : Thread nD τ).loc main_arg3)))
              (m ((c.tc : Thread nD τ).loc main_arg5)) (m ((c.tc : Thread nD τ).loc main_arg6))
              (m ((c.tc : Thread nD τ).loc main_arg7)) (m ((c.tc : Thread nD τ).loc main_arg8)) b n)
      ∧ (∀ (b : Fin 4096) (e : Fin 512), r.2.mem ((c.tc : Thread nD τ).loc main_v28) (ix2 b e)
          = m ((c.tc : Thread nD τ).loc main_arg1) (ix3 b (sel c b) e))
      ∧ (∀ (b : Fin 4096) (e : Fin 512), r.2.mem ((c.tc : Thread nD τ).loc main_v42) (ix2 b e)
          = m ((c.tc : Thread nD τ).loc main_arg2) (ix3 b (sel c b) e))
      ∧ (∀ (b : Fin 4096) (e : Fin 512), r.2.mem ((c.tc : Thread nD τ).loc main_v56) (ix2 b e)
          = m ((c.tc : Thread nD τ).loc main_arg3) (ix3 b (sel c b) e))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Run.run_main (F := Ideal) m ρ)
  exact ⟨fun b n => (congrFun ((h c main_v12).trans (Run.v12_eq _)) (ix2 b n)).trans
        (RefLogits.scores_apply _ _ _ _ _ _ _ _ b n),
    fun b e => (congrFun ((h c main_v28).trans (Run.v28_eq _)) (ix2 b e)).trans
        (RefPick.pick_term _ _ (sel c) (hsel c) b e),
    fun b e => (congrFun ((h c main_v42).trans (Run.v42_eq _)) (ix2 b e)).trans
        (RefPick.pick_term _ _ (sel c) (hsel c) b e),
    fun b e => (congrFun ((h c main_v56).trans (Run.v56_eq _)) (ix2 b e)).trans
        (RefPick.pick_term _ _ (sel c) (hsel c) b e),
    (h c main_arg0).trans (Run.arg0_eq _), (h c main_arg1).trans (Run.arg1_eq _), (h c main_arg2).trans (Run.arg2_eq _),
    (h c main_arg3).trans (Run.arg3_eq _), (h c main_arg4).trans (Run.arg4_eq _), (h c main_arg5).trans (Run.arg5_eq _),
    (h c main_arg6).trans (Run.arg6_eq _), (h c main_arg7).trans (Run.arg7_eq _), (h c main_arg8).trans (Run.arg8_eq _)⟩

end Cert.ReferenceIdeal.RefValue

end
-- ==== Proof.LibReduce2.lean ====
/-
  A two-operand reduction whose body only ever hands on one of the two second components it is given.

  The host's variadic reduce is a left fold of the body over the pairs (x i, y i) that reduce to an index, from the pair
  of initial values. If a property holds of the initial second component and of every y i, and the body's second result
  has it whenever the second components of both its arguments have it (as a body does that SELECTS one of the two, an
  arg-max keeping the index of the greater value), then the second component of the reduction has it.
-/
import Idealize.ShloMosaic.PureOps

namespace Cert.LibReduce2

open Idealize.ShloMosaic

/-- A left fold of f over the images of a list keeps a property of the second component that f hands on. -/
theorem foldl_snd_inv {α β ι : Type} (f : α × β → α × β → α × β) (P : β → Prop)
    (hf : ∀ a b, P a.2 → P b.2 → P (f a b).2) (g : ι → α × β) (hg : ∀ i, P (g i).2) :
    ∀ (l : List ι) (init : α × β), P init.2 → P (l.foldl (fun r n => f r (g n)) init).2
  | [], _, h => h
  | n :: l, init, h => foldl_snd_inv f P hf g hg l (f init (g n)) (hf _ _ h (hg n))

/-- The second result of a two-operand host reduction has every property that its initial value and all entries of
    the second operand have and that the body hands on. -/
theorem reduce2_snd_inv {s t u : Shape} {axes : List (Fin s.rank)} {α β : Type} (f : α × β → α × β → α × β) (P : β → Prop)
    (hf : ∀ a b, P a.2 → P b.2 → P (f a b).2) (x : s.Idx → α) (y : s.Idx → β) (ix : u.Idx → α) (iy : u.Idx → β)
    (h : s.ReducesTo axes t) (hu : 0 < u.numel) (h0 : P (iy (Shape.Idx.first hu))) (hy : ∀ i, P (y i)) (j : t.Idx) :
    P (Host.reduce2 f x y ix iy h hu j).2 := by
  unfold Host.reduce2
  exact foldl_snd_inv f P hf (fun n => (x (s.rowMajor.symm n), y (s.rowMajor.symm n))) (fun _ => hy _) _ _ h0

end Cert.LibReduce2
-- ==== Proof.lean ====
/-
  The kernel computes, for each of 4096 rows and each of ten paths, a hidden vector from the row's agent context and the
  path's three context rows through one 2048 × 512 weight matrix (split into its four stretches of 512 rows), takes its
  positive part, and scores the row against a second weight matrix, accumulating the ten paths' contributions; it also
  returns, for each of the three context tensors, the row of the path that the arg-max of the row's label words names,
  computed as a one-hot weighted sum over the ten paths. The reference concatenates, multiplies once with the whole
  first matrix, flattens, multiplies with the second, and gathers the selected rows.

  On the extended reals the two agree: a finite sum may be re-bracketed freely (addition is commutative and associative
  with zero neutral), a change of float format is the identity, the padded columns are never read in the ten columns
  kept, and a one-hot weighted sum is the selected term because 0 · x = 0 and 1 · x = x for every x. The only fact
  about the integers is that the arg-max word is a path number: the two-operand reduction only ever hands on the
  initial index 0 or one of the column numbers 0 … 9.
-/
import proofs.«401056_j82952998355466_3_alg».proof.Defs
import proofs.«401056_j82952998355466_3_alg».proof.Proof.Gen.Kernel
import proofs.«401056_j82952998355466_3_alg».proof.Proof.Gen.Kernel.Frame
import proofs.«401056_j82952998355466_3_alg».proof.Proof.Gen.KernelIdeal
import proofs.«401056_j82952998355466_3_alg».proof.Proof.Gen.KernelIdeal.Frame
import proofs.«401056_j82952998355466_3_alg».proof.Proof.Gen.ReferenceIdeal
import proofs.«401056_j82952998355466_3_alg».proof.Proof.Gen.Pre_finite_inputs
import proofs.«401056_j82952998355466_3_alg».proof.Proof.KernelValue
import proofs.«401056_j82952998355466_3_alg».proof.Proof.RefValue
import proofs.«401056_j82952998355466_3_alg».proof.Proof.LibReduce2
import Idealize.ShloMosaic.Lib.IdealHost
import Idealize.ShloMosaic.Adequacy
import Idealize.ShloMosaic.Init

noncomputable section

namespace Cert.Proof

open Idealize.ShloMosaic Idealize.ShloMosaic.TcCoe Idealize.SL.Sem Idealize.ShloMosaic.ValueIdx Cert.PathMlp

/-! ## The arg-max word is a path number -/

/-- The arg-max body's second result is the second component of one of its two arguments. -/
theorem reducer_snd (a b : BitVec 32 × BitVec 32) :
    (Cert.ReferenceIdeal.reducer_argmax_i32_i32 a b).2 = a.2 ∨ (Cert.ReferenceIdeal.reducer_argmax_i32_i32 a b).2 = b.2 := by
  unfold Cert.ReferenceIdeal.reducer_argmax_i32_i32
  dsimp only
  unfold Scalar.select
  split
  · exact Or.inl rfl
  · exact Or.inr rfl

/-- Every arg-max word is below ten: the reduction starts from index 0 and only hands on column numbers. -/
theorem amax_lt (a4 : IVec Cert.ReferenceIdeal.S4096x10 32) (b : Fin 4096) : (Cert.ReferenceIdeal.RefValue.amax a4 (ix1 b)).toNat < 10 := by
  unfold Cert.ReferenceIdeal.RefValue.amax
  refine Cert.LibReduce2.reduce2_snd_inv Cert.ReferenceIdeal.reducer_argmax_i32_i32 (fun w => w.toNat < 10)
    (fun x y hx hy => ?_) _ _ _ _ _ _ ?_ (fun i => ?_) _
  · rcases reducer_snd x y with h | h
    · rw [h]; exact hx
    · rw [h]; exact hy
  · show (0#32).toNat < 10
    decide
  · rw [iotaInDim_apply, BitVec.toNat_ofNat]
    have hi : (i 1).val < 10 := (i 1).isLt
    exact lt_of_le_of_lt (Nat.mod_le _ _) hi

/-- A word below ten as a path number. -/
def pathOf (w : BitVec 32) (h : w.toNat < 10) : Fin 10 := ⟨w.toNat, h⟩

theorem ofNat_pathOf (w : BitVec 32) (h : w.toNat < 10) : BitVec.ofNat 32 (pathOf w h).val = w :=
  BitVec.eq_of_toNat_eq (by
    rw [BitVec.toNat_ofNat]
    exact Nat.mod_eq_of_lt w.isLt)

/-- The path the arg-max word of row b names. -/
def sel (a4 : IVec Cert.ReferenceIdeal.S4096x10 32) (b : Fin 4096) : Fin 10 :=
  pathOf (Cert.ReferenceIdeal.RefValue.amax a4 (ix1 b)) (amax_lt a4 b)

theorem amax_eq_sel (a4 : IVec Cert.ReferenceIdeal.S4096x10 32) (b : Fin 4096) :
    Cert.ReferenceIdeal.RefValue.amax a4 (ix1 b) = BitVec.ofNat 32 (sel a4 b).val := by
  unfold sel
  exact (ofNat_pathOf _ _).symm

attribute [local irreducible] Host.reduce2 in
/-- The kernel's program computes the arg-max words by the same reduction. -/
theorem amax_kernel (a4 : IVec Cert.ReferenceIdeal.S4096x10 32) : Cert.KernelIdeal.KHost.amax a4 = Cert.ReferenceIdeal.RefValue.amax a4 := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2)
    (Cert.ReferenceIdeal.RefValue.run_spec m ρ (fun c b => sel (m ((c.tc : Thread Cert.ReferenceIdeal.nD Cert.ReferenceIdeal.τ).loc Cert.ReferenceIdeal.main_arg4)) b)
      (fun c b => amax_eq_sel _ b))

theorem algebraic : Cert.algebraic_KernelIdeal_ReferenceIdeal := by
  intro m ρ m' ρ' _ hagree
  refine ⟨
    fun c i => logit (φ := .f32) (φ' := .f32) (m ((c.tc : Thread Cert.KernelIdeal.nD Cert.KernelIdeal.τ).loc Cert.KernelIdeal.main_arg0)) (unflat (m ((c.tc : Thread Cert.KernelIdeal.nD Cert.KernelIdeal.τ).loc Cert.KernelIdeal.main_arg1)))
        (unflat (m ((c.tc : Thread Cert.KernelIdeal.nD Cert.KernelIdeal.τ).loc Cert.KernelIdeal.main_arg2))) (unflat (m ((c.tc : Thread Cert.KernelIdeal.nD Cert.KernelIdeal.τ).loc Cert.KernelIdeal.main_arg3))) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (⟨(i 0).val, (i 0).isLt⟩ : Fin 4096) (⟨(i 1).val, (i 1).isLt⟩ : Fin 10),
    fun c i => m ((c.tc : Thread Cert.KernelIdeal.nD Cert.KernelIdeal.τ).loc Cert.KernelIdeal.main_arg1) (ix3 (⟨(i 0).val, (i 0).isLt⟩ : Fin 4096)
        (sel (m ((c.tc : Thread Cert.KernelIdeal.nD Cert.KernelIdeal.τ).loc Cert.KernelIdeal.main_arg4)) ⟨(i 0).val, (i 0).isLt⟩) (⟨(i 1).val, (i 1).isLt⟩ : Fin 512)),
    fun c i => m ((c.tc : Thread Cert.KernelIdeal.nD Cert.KernelIdeal.τ).loc Cert.KernelIdeal.main_arg2) (ix3 (⟨(i 0).val, (i 0).isLt⟩ : Fin 4096)
        (sel (m ((c.tc : Thread Cert.KernelIdeal.nD Cert.KernelIdeal.τ).loc Cert.KernelIdeal.main_arg4)) ⟨(i 0).val, (i 0).isLt⟩) (⟨(i 1).val, (i 1).isLt⟩ : Fin 512)),
    fun c i => m ((c.tc : Thread Cert.KernelIdeal.nD Cert.KernelIdeal.τ).loc Cert.KernelIdeal.main_arg3) (ix3 (⟨(i 0).val, (i 0).isLt⟩ : Fin 4096)
        (sel (m ((c.tc : Thread Cert.KernelIdeal.nD Cert.KernelIdeal.τ).loc Cert.KernelIdeal.main_arg4)) ⟨(i 0).val, (i 0).isLt⟩) (⟨(i 1).val, (i 1).isLt⟩ : Fin 512)),
    ?_, ?_⟩
  · refine (θ_run Cert.KernelIdeal.defs _ _).mono (fun r h c => ⟨?_, ?_, ?_, ?_, (h c).2.2.2.2⟩)
      (Cert.KernelIdeal.KValue.run_spec m ρ (fun c b => sel (m ((c.tc : Thread Cert.KernelIdeal.nD Cert.KernelIdeal.τ).loc Cert.KernelIdeal.main_arg4)) b)
        (fun c b => (congrFun (amax_kernel _) _).trans (amax_eq_sel _ b)))
    · funext i; rw [eq_ix2 i]; exact (h c).1 _ _
    · funext i; rw [eq_ix2 i]; exact (h c).2.1 _ _
    · funext i; rw [eq_ix2 i]; exact (h c).2.2.1 _ _
    · funext i; rw [eq_ix2 i]; exact (h c).2.2.2.1 _ _
  · have hr := Cert.ReferenceIdeal.RefValue.run_spec m' ρ' (fun c b => sel (m ((c.tc : Thread Cert.KernelIdeal.nD Cert.KernelIdeal.τ).loc Cert.KernelIdeal.main_arg4)) b)
      (fun c b => by rw [(hagree c).2.2.2.2.1]; exact amax_eq_sel _ b)
    refine (θ_run Cert.ReferenceIdeal.defs _ _).mono (fun r h c => ⟨?_, ?_, ?_, ?_, (h c).2.2.2.2⟩) hr
    · funext i; rw [eq_ix2 i]
      refine ((h c).1 _ _).trans ?_
      rw [(hagree c).1, (hagree c).2.1, (hagree c).2.2.1, (hagree c).2.2.2.1, (hagree c).2.2.2.2.2.1,
        (hagree c).2.2.2.2.2.2.1, (hagree c).2.2.2.2.2.2.2.1, (hagree c).2.2.2.2.2.2.2.2]
      rfl
    · funext i; rw [eq_ix2 i]
      refine ((h c).2.1 _ _).trans ?_
      rw [(hagree c).2.1]
      rfl
    · funext i; rw [eq_ix2 i]
      refine ((h c).2.2.1 _ _).trans ?_
      rw [(hagree c).2.2.1]
      rfl
    · funext i; rw [eq_ix2 i]
      refine ((h c).2.2.2.1 _ _).trans ?_
      rw [(hagree c).2.2.2.1]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
